-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x96x96x96 : Shape := ⟨5, ![2, 32, 96, 96, 96]⟩
abbrev S2x1 : Shape := ⟨2, ![2, 1]⟩
abbrev S32x32 : Shape := ⟨2, ![32, 32]⟩
abbrev S32 : Shape := ⟨1, ![32]⟩
abbrev S_ : Shape := ⟨0, ![]⟩

class Facts : Prop where
  bcast_S_S2x32x96x96x96 : S_.BroadcastsInDim S2x32x96x96x96 (![] : Fin 0 → Fin S2x32x96x96x96.rank)
  reducesTo_S2x32x96x96x96_S_d0_1_2_3_4 : S2x32x96x96x96.ReducesTo [0, 1, 2, 3, 4] S_
  h_S_ : 0 < S_.numel
  bcast_S_S2x1 : S_.BroadcastsInDim S2x1 (![] : Fin 0 → Fin S2x1.rank)
  reducesTo_S2x1_S_d0_1 : S2x1.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_arg8 : FVec F S32x32 .f32) (main_arg9 : IVec S32 32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_c_16 : IVec S_ 32 := constantI S_ 32 0#32
  let main_v44 : IVec S32 32 := broadcastInDim S32 ![] bcast_S_S32 main_c_16
  let main_v45 : IVec S32 1 := cmpi .sge main_arg9 main_v44
  let main_c_17 : IVec S_ 32 := constantI S_ 32 32#32
  let main_v46 : IVec S32 32 := broadcastInDim S32 ![] bcast_S_S32 main_c_17
  let main_v47 : IVec S32 1 := cmpi .slt main_arg9 main_v46
  let main_v48 : IVec S32 1 := andi main_v45 main_v47
  let main_c_18 : IVec S_ 1 := constantI S_ 1 1#1
  let main_v49 : IVec S_ 1 := (fun x v => Host.reduce IntOp.andi x v reducesTo_S32_S_d0 h_S_) main_v48 main_c_18
  let main_v50 : IVec S_ 1 := andi main_v43 main_v49
  main_v50

def fn_part1 {F : FTy → Type} [FloatOps F] (main_arg4 : FVec F S32 .f32) (main_arg5 : FVec F S32 .f32) (main_arg6 : FVec F S32 .f32) (main_arg7 : FVec F S32 .f32) (main_arg8 : FVec F S32x32 .f32) (main_arg9 : IVec S32 32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_v33

def fn {F : FTy → Type} [FloatOps F] (main_arg0 : FVec F S2x32x96x96x96 .f32) (main_arg1 : FVec F S2x1 .f32) (main_arg2 : FVec F S32x32 .f32) (main_arg3 : FVec F S32x32 .f32) (main_arg4 : FVec F S32 .f32) (main_arg5 : FVec F S32 .f32) (main_arg6 : FVec F S32 .f32) (main_arg7 : FVec F S32 .f32) (main_arg8 : FVec F S32x32 .f32) (main_arg9 : IVec S32 32) : IVec S_ 1 :=
  let main_v0 : FVec F S2x32x96x96x96 .f32 := Host.absf main_arg0
  let main_cst : FVec F S_ .f32 := constant S_ .f32 0x7F800000#32
  let main_v1 : FVec F S2x32x96x96x96 .f32 := broadcastInDim S2x32x96x96x96 ![] bcast_S_S2x32x96x96x96 main_cst
  let main_v2 : IVec S2x32x96x96x96 1 := cmpf .olt main_v0 main_v1
  let main_c : IVec S_ 1 := constantI S_ 1 1#1
  let main_v3 : IVec S_ 1 := (fun x v => Host.reduce IntOp.andi x v reducesTo_S2x32x96x96x96_S_d0_1_2_3_4 h_S_) main_v2 main_c
  let main_v4 : FVec F S2x1 .f32 := Host.absf main_arg1
  let main_cst_0 : FVec F S_ .f32 := constant S_ .f32 0x7F800000#32
  let main_v5 : FVec F S2x1 .f32 := broadcastInDim S2x1 ![] bcast_S_S2x1 main_cst_0
  let main_v6 : IVec S2x1 1 := cmpf .olt main_v4 main_v5
  let main_c_1 : IVec S_ 1 := constantI S_ 1 1#1
  let main_v7 : IVec S_ 1 := (fun x v => Host.reduce IntOp.andi x v reducesTo_S2x1_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_arg7 main_arg8 main_arg9 main_v13 main_v16
-- ==== Kernel.lean ====
abbrev S2x32x96x96x96 : Shape := ⟨5, ![2, 32, 96, 96, 96]⟩
abbrev S2x1 : Shape := ⟨2, ![2, 1]⟩
abbrev S32x32 : Shape := ⟨2, ![32, 32]⟩
abbrev S32 : Shape := ⟨1, ![32]⟩
abbrev S2x32x884736 : Shape := ⟨3, ![2, 32, 884736]⟩
abbrev S32x1 : Shape := ⟨2, ![32, 1]⟩
abbrev S1x32 : Shape := ⟨2, ![1, 32]⟩
abbrev S1x32x32 : Shape := ⟨3, ![1, 32, 32]⟩
abbrev S2x32x32 : Shape := ⟨3, ![2, 32, 32]⟩
abbrev S2x2x32x32 : Shape := ⟨4, ![2, 2, 32, 32]⟩
abbrev S2x2x32 : Shape := ⟨3, ![2, 2, 32]⟩
abbrev S2x2x1 : Shape := ⟨3, ![2, 2, 1]⟩
abbrev S2x32x9216 : Shape := ⟨3, ![2, 32, 9216]⟩
abbrev S1x2x32x32 : Shape := ⟨4, ![1, 2, 32, 32]⟩
abbrev S1x2x32 : Shape := ⟨3, ![1, 2, 32]⟩
abbrev S1x2x1 : Shape := ⟨3, ![1, 2, 1]⟩
abbrev S2x32 : Shape := ⟨2, ![2, 32]⟩
abbrev S2x9216 : Shape := ⟨2, ![2, 9216]⟩
abbrev S2x1x9216 : Shape := ⟨3, ![2, 1, 9216]⟩
abbrev S2 : Shape := ⟨1, ![2]⟩
abbrev S_ : Shape := ⟨0, ![]⟩
abbrev S2x1x1 : Shape := ⟨3, ![2, 1, 1]⟩

abbrev nBuf : Space → Nat
  | .hbm => 155
  | .vmem => 14
  | .smem => 0
  | _ => 0

abbrev hbmTy0_0 (i : Nat) : BufTy := match i % 128 with
  | 0 => ⟨S2x32x96x96x96, .f32⟩
  | 1 => ⟨S2x1, .f32⟩
  | 2 => ⟨S32x32, .f32⟩
  | 3 => ⟨S32x32, .f32⟩
  | 4 => ⟨S32, .f32⟩
  | 5 => ⟨S32, .f32⟩
  | 6 => ⟨S32, .f32⟩
  | 7 => ⟨S32, .f32⟩
  | 8 => ⟨S32x32, .f32⟩
  | 9 => ⟨S32, .i32⟩
  | 10 => ⟨S2x32x884736, .f32⟩
  | 11 => ⟨S32x1, .i32⟩
  | 12 => ⟨S1x32, .i32⟩
  | 13 => ⟨S32x32, .i32⟩
  | 14 => ⟨S32x32, .i32⟩
  | 15 => ⟨S32x32, .i1⟩
  | 16 => ⟨S32x32, .f32⟩
  | 17 => ⟨S1x32x32, .f32⟩
  | 18 => ⟨S2x32x32, .f32⟩
  | 19 => ⟨S2x2x32x32, .f32⟩
  | 20 => ⟨S2x2x32, .f32⟩
  | 21 => ⟨S2x2x1, .f32⟩
  | 22 => ⟨S_, .f32⟩
  | 23 => ⟨S2x32x32, .f32⟩
  | 24 => ⟨S_, .f32⟩
  | 25 => ⟨S2x32, .f32⟩
  | 26 => ⟨S_, .f32⟩
  | 27 => ⟨S_, .f32⟩
  | 28 => ⟨S_, .f32⟩
  | 29 => ⟨S2x1, .f32⟩
  | 30 => ⟨S2x1, .f32⟩
  | 31 => ⟨S_, .f32⟩
  | 32 => ⟨S_, .f32⟩
  | 33 => ⟨S_, .f32⟩
  | 34 => ⟨S2x1, .f32⟩
  | 35 => ⟨S2x1, .f32⟩
  | 36 => ⟨S_, .f32⟩
  | 37 => ⟨S2x1, .f32⟩
  | 38 => ⟨S2x1, .f32⟩
  | 39 => ⟨S32x32, .i32⟩
  | 40 => ⟨S32x32, .i32⟩
  | 41 => ⟨S_, .i32⟩
  | 42 => ⟨S32x32, .i32⟩
  | 43 => ⟨S32x32, .i32⟩
  | 44 => ⟨S32x32, .i1⟩
  | 45 => ⟨S32x32, .f32⟩
  | 46 => ⟨S_, .f32⟩
  | 47 => ⟨S32x32, .f32⟩
  | 48 => ⟨S32x32, .f32⟩
  | 49 => ⟨S1x32x32, .f32⟩
  | 50 => ⟨S2x32x32, .f32⟩
  | 51 => ⟨S2x32x32, .f32⟩
  | 52 => ⟨S_, .f32⟩
  | 53 => ⟨S2x1, .f32⟩
  | 54 => ⟨S2x1, .f32⟩
  | 55 => ⟨S2x1x1, .f32⟩
  | 56 => ⟨S1x32x32, .f32⟩
  | 57 => ⟨S2x32x32, .f32⟩
  | 58 => ⟨S2x32x32, .f32⟩
  | 59 => ⟨S2x32x32, .f32⟩
  | 60 => ⟨S2x1x1, .f32⟩
  | 61 => ⟨S1x32x32, .f32⟩
  | 62 => ⟨S2x32x32, .f32⟩
  | 63 => ⟨S2x32x32, .f32⟩
  | 64 => ⟨S2x32x32, .f32⟩
  | 65 => ⟨S2x32x32, .f32⟩
  | 66 => ⟨S2x32x32, .f32⟩
  | 67 => ⟨S_, .f32⟩
  | 68 => ⟨S32x32, .f32⟩
  | 69 => ⟨S_, .f32⟩
  | 70 => ⟨S32x32, .f32⟩
  | 71 => ⟨S32x32, .f32⟩
  | 72 => ⟨S_, .f32⟩
  | 73 => ⟨S32, .f32⟩
  | 74 => ⟨S32x1, .f32⟩
  | 75 => ⟨S_, .f32⟩
  | 76 => ⟨S_, .f32⟩
  | 77 => ⟨S32x1, .f32⟩
  | 78 => ⟨S32x1, .f32⟩
  | 79 => ⟨S32x32, .f32⟩
  | 80 => ⟨S32x32, .f32⟩
  | 81 => ⟨S_, .f32⟩
  | 82 => ⟨S32x32, .f32⟩
  | 83 => ⟨S32x32, .f32⟩
  | 84 => ⟨S32x32, .f32⟩
  | 85 => ⟨S_, .f32⟩
  | 86 => ⟨S32, .f32⟩
  | 87 => ⟨S32x1, .f32⟩
  | 88 => ⟨S_, .f32⟩
  | 89 => ⟨S_, .f32⟩
  | 90 => ⟨S32x1, .f32⟩
  | 91 => ⟨S32x1, .f32⟩
  | 92 => ⟨S32x32, .f32⟩
  | 93 => ⟨S32x32, .f32⟩
  | 94 => ⟨S32x32, .f32⟩
  | 95 => ⟨S32x32, .f32⟩
  | 96 => ⟨S_, .f32⟩
  | 97 => ⟨S_, .f32⟩
  | 98 => ⟨S_, .f32⟩
  | 99 => ⟨S_, .f32⟩
  | 100 => ⟨S_, .f32⟩
  | 101 => ⟨S2x1, .f32⟩
  | 102 => ⟨S2x1, .f32⟩
  | 103 => ⟨S1x32, .f32⟩
  | 104 => ⟨S2x32, .f32⟩
  | 105 => ⟨S2x32, .f32⟩
  | 106 => ⟨S2x32, .f32⟩
  | 107 => ⟨S1x32, .f32⟩
  | 108 => ⟨S2x32, .f32⟩
  | 109 => ⟨S2x32, .f32⟩
  | 110 => ⟨S2x32, .f32⟩
  | 111 => ⟨S2x32, .f32⟩
  | 112 => ⟨S_, .f32⟩
  | 113 => ⟨S2x1, .f32⟩
  | 114 => ⟨S2x1, .f32⟩
  | 115 => ⟨S1x32, .f32⟩
  | 116 => ⟨S2x32, .f32⟩
  | 117 => ⟨S2x32, .f32⟩
  | 118 => ⟨S2x32, .f32⟩
  | 119 => ⟨S1x32, .f32⟩
  | 120 => ⟨S2x32, .f32⟩
  | 121 => ⟨S2x32, .f32⟩
  | 122 => ⟨S2x32, .f32⟩
  | 123 => ⟨S2x32, .f32⟩
  | 124 => ⟨S2x32, .f32⟩
  | 125 => ⟨S_, .f32⟩
  | 126 => ⟨S2x32, .f32⟩
  | 127 => ⟨S2x32, .f32⟩
  | _ => ⟨S2x32x96x96x96, .f32⟩

abbrev hbmTy0_1 (i : Nat) : BufTy := match i % 128 with
  | 0 => ⟨S2x32, .f32⟩
  | 1 => ⟨S2x32, .f32⟩
  | 2 => ⟨S_, .f32⟩
  | 3 => ⟨S2x32, .f32⟩
  | 4 => ⟨S2x32, .i1⟩
  | 5 => ⟨S_, .f32⟩
  | 6 => ⟨S2x32, .f32⟩
  | 7 => ⟨S2x32, .f32⟩
  | 8 => ⟨S2x32, .f32⟩
  | 9 => ⟨S_, .f32⟩
  | 10 => ⟨S2x32, .f32⟩
  | 11 => ⟨S2x32, .f32⟩
  | 12 => ⟨S2x32, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | _ => ⟨S2x32x96x96x96, .f32⟩

abbrev hbmTy (i : Nat) : BufTy := match i / 128 with
  | 0 => hbmTy0_0 i
  | 1 => hbmTy0_1 i
  | _ => ⟨S2x32x96x96x96, .f32⟩

abbrev bufTy : (tb : Table) → Fin (tcTables nBuf tb) → BufTy
  | .hbm, ⟨i, _⟩ => hbmTy i
  | .local _ .vmem, ⟨0, _⟩ => ⟨S2x32x32, .f32⟩
  | .local _ .vmem, ⟨1, _⟩ => ⟨S2x32x9216, .f32⟩
  | .local _ .vmem, ⟨2, _⟩ => ⟨S2x32x9216, .f32⟩
  | .local _ .vmem, ⟨3, _⟩ => ⟨S2x32x9216, .f32⟩
  | .local _ .vmem, ⟨4, _⟩ => ⟨S2x32x9216, .f32⟩
  | .local _ .vmem, ⟨5, _⟩ => ⟨S1x2x32x32, .f32⟩
  | .local _ .vmem, ⟨6, _⟩ => ⟨S1x2x32x32, .f32⟩
  | .local _ .vmem, ⟨7, _⟩ => ⟨S1x2x32, .f32⟩
  | .local _ .vmem, ⟨8, _⟩ => ⟨S1x2x32, .f32⟩
  | .local _ .vmem, ⟨9, _⟩ => ⟨S1x2x1, .f32⟩
  | .local _ .vmem, ⟨10, _⟩ => ⟨S1x2x1, .f32⟩
  | .local _ .vmem, ⟨11, _⟩ => ⟨S2x32x32, .f32⟩
  | .local _ .vmem, ⟨12, _⟩ => ⟨S2x32, .f32⟩
  | .local _ .vmem, ⟨13, _⟩ => ⟨S2x1, .f32⟩
  | _, _ => ⟨S2x32x96x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_v4_2 : Ref sig .tc := ⟨.hbm, 21, rfl⟩
abbrev main_cst : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_v9 : Ref sig .tc := ⟨.hbm, 30, rfl⟩
abbrev main_cst_3 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_5 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_6 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_7 : Ref sig .tc := ⟨.hbm, 67, rfl⟩
abbrev main_v36 : Ref sig .tc := ⟨.hbm, 68, rfl⟩
abbrev main_cst_8 : Ref sig .tc := ⟨.hbm, 69, rfl⟩
abbrev main_v37 : Ref sig .tc := ⟨.hbm, 70, rfl⟩
abbrev main_v38 : Ref sig .tc := ⟨.hbm, 71, rfl⟩
abbrev main_cst_9 : Ref sig .tc := ⟨.hbm, 72, rfl⟩
abbrev main_v39 : Ref sig .tc := ⟨.hbm, 73, rfl⟩
abbrev main_v40 : Ref sig .tc := ⟨.hbm, 74, rfl⟩
abbrev main_cst_10 : Ref sig .tc := ⟨.hbm, 75, rfl⟩
abbrev main_call2_v0 : Ref sig .tc := ⟨.hbm, 76, rfl⟩
abbrev main_call2_v1 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_11 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_12 : Ref sig .tc := ⟨.hbm, 85, rfl⟩
abbrev main_v47 : Ref sig .tc := ⟨.hbm, 86, rfl⟩
abbrev main_v48 : Ref sig .tc := ⟨.hbm, 87, rfl⟩
abbrev main_cst_13 : Ref sig .tc := ⟨.hbm, 88, rfl⟩
abbrev main_call3_v0 : Ref sig .tc := ⟨.hbm, 89, rfl⟩
abbrev main_call3_v1 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_14 : Ref sig .tc := ⟨.hbm, 96, rfl⟩
abbrev main_v54 : Ref sig .tc := ⟨.hbm, 97, rfl⟩
abbrev main_cst_15 : Ref sig .tc := ⟨.hbm, 98, rfl⟩
abbrev main_v55 : Ref sig .tc := ⟨.hbm, 99, rfl⟩
abbrev main_cst_16 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_17 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_18 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_19 : Ref sig .tc := ⟨.hbm, 130, rfl⟩
abbrev main_v83 : Ref sig .tc := ⟨.hbm, 131, rfl⟩
abbrev main_v84 : Ref sig .tc := ⟨.hbm, 132, rfl⟩
abbrev main_cst_20 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_21 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_22 : Ref sig .tc := ⟨.hbm, 141, rfl⟩
abbrev main_v91 : Ref sig .tc := ⟨.hbm, 142, rfl⟩
abbrev main_cst_23 : Ref sig .tc := ⟨.hbm, 143, rfl⟩
abbrev main_v92 : Ref sig .tc := ⟨.hbm, 144, rfl⟩
abbrev main_cst_24 : Ref sig .tc := ⟨.hbm, 145, rfl⟩
abbrev main_v93 : Ref sig .tc := ⟨.hbm, 146, rfl⟩
abbrev main_cst_25 : Ref sig .tc := ⟨.hbm, 147, rfl⟩
abbrev main_v94 : Ref sig .tc := ⟨.hbm, 148, rfl⟩
abbrev main_cst_26 : Ref sig .tc := ⟨.hbm, 149, rfl⟩
abbrev main_v95 : Ref sig .tc := ⟨.hbm, 150, rfl⟩
abbrev main_v96 : Ref sig .tc := ⟨.hbm, 151, rfl⟩
abbrev main_cst_27 : Ref sig .tc := ⟨.hbm, 152, rfl⟩
abbrev main_v97 : Ref sig .tc := ⟨.hbm, 153, rfl⟩
abbrev main_v98 : Ref sig .tc := ⟨.hbm, 154, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 24], ![false, false]⟩

def k0_cond2 (i : grid0.Coords) : BitVec 1 :=
  let arg1 : BitVec 32 := BitVec.ofNat 32 (i 1).val
  let c23_i32 : BitVec 32 := 23#32
  let v63 : BitVec 1 := Scalar.cmpi .eq arg1 c23_i32
  let v64 : BitVec 32 := Scalar.extui v63
  let c0_i32_36 : BitVec 32 := 0#32
  let v65 : BitVec 1 := Scalar.cmpi .ne v64 c0_i32_36
  v65

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c95_i32 : BitVec 32 := 95#32
  let v2 : BitVec 32 := Scalar.subi c95_i32 v1
  let c0_i32 : BitVec 32 := 0#32
  let c0_i32_0 : BitVec 32 := 0#32
  let c0_i32_1 : BitVec 32 := 0#32
  ![c0_i32.toNat, c0_i32_0.toNat, v2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2x32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x32x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x32x9216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S2x32x96x96x96_S2x32x884736 : S2x32x96x96x96.ShapeCasts S2x32x884736
  bcast_S32_S32x1_0 : S32.BroadcastsInDim S32x1 (![0] : Fin 1 → Fin S32x1.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S32x32_S1x32x32_1_2 : S32x32.BroadcastsInDim S1x32x32 (![1, 2] : Fin 2 → Fin S1x32x32.rank)
  bcast_S1x32x32_S2x32x32_0_1_2 : S1x32x32.BroadcastsInDim S2x32x32 (![0, 1, 2] : Fin 3 → Fin S2x32x32.rank)
  inb_S2x32x32_S2x32x32_0_0_0 : ∀ a, (![0, 0, 0] : Fin 3 → Nat) a + S2x32x32.size a ≤ S2x32x32.size a
  h_S2x32x32 : 0 < S2x32x32.numel
  shapeCasts_S2x32x32_S2x32x32 : S2x32x32.ShapeCasts S2x32x32
  inb_S2x32_S2x32_0_0 : ∀ a, (![0, 0] : Fin 2 → Nat) a + S2x32.size a ≤ S2x32.size a
  h_S2x32 : 0 < S2x32.numel
  shapeCasts_S2x32_S2x32 : S2x32.ShapeCasts S2x32
  inb_S2x1_S2x1_0_0 : ∀ a, (![0, 0] : Fin 2 → Nat) a + S2x1.size a ≤ S2x1.size a
  h_S2x1 : 0 < S2x1.numel
  shapeCasts_S2x1_S2x1 : S2x1.ShapeCasts S2x1
  inb_S2x32x9216_S2x32x9216_0_0_0 : ∀ a, (![0, 0, 0] : Fin 3 → Nat) a + S2x32x9216.size a ≤ S2x32x9216.size a
  h_S2x32x9216 : 0 < S2x32x9216.numel
  shapeCasts_S2x32x9216_S2x32x9216 : S2x32x9216.ShapeCasts S2x32x9216
  reduces_S2x32x9216_S2x9216 : S2x32x9216.Reduces [1] S2x9216
  shapeCasts_S2x9216_S2x1x9216 : S2x9216.ShapeCasts S2x1x9216
  broadcasts_S2x1x9216_S2x32x9216 : S2x1x9216.Broadcasts S2x32x9216
  bitsLt_bf16_f32 : FTy.bits .bf16 < FTy.bits .f32
  reduces_S2x32x9216_S2x32 : S2x32x9216.Reduces [2] S2x32
  reduces_S2x32_S2 : S2x32.Reduces [1] S2
  shapeCasts_S2_S2x1 : S2.ShapeCasts S2x1
  inb_S1x2x32x32_S1x2x32x32_0_0_0_0 : ∀ a, (![0, 0, 0, 0] : Fin 4 → Nat) a + S1x2x32x32.size a ≤ S1x2x32x32.size a
  h_S1x2x32x32 : 0 < S1x2x32x32.numel
  shapeCasts_S1x2x32x32_S2x32x32 : S1x2x32x32.ShapeCasts S2x32x32
  shapeCasts_S2x32x32_S1x2x32x32 : S2x32x32.ShapeCasts S1x2x32x32
  inb_S1x2x32_S1x2x32_0_0_0 : ∀ a, (![0, 0, 0] : Fin 3 → Nat) a + S1x2x32.size a ≤ S1x2x32.size a
  h_S1x2x32 : 0 < S1x2x32.numel
  shapeCasts_S1x2x32_S2x32 : S1x2x32.ShapeCasts S2x32
  shapeCasts_S2x32_S1x2x32 : S2x32.ShapeCasts S1x2x32
  inb_S1x2x1_S1x2x1_0_0_0 : ∀ a, (![0, 0, 0] : Fin 3 → Nat) a + S1x2x1.size a ≤ S1x2x1.size a
  h_S1x2x1 : 0 < S1x2x1.numel
  shapeCasts_S1x2x1_S2x1 : S1x2x1.ShapeCasts S2x1
  shapeCasts_S2x1_S1x2x1 : S2x1.ShapeCasts S1x2x1
  reducesTo_S2x2x32x32_S2x32x32_d0 : S2x2x32x32.ReducesTo [0] S2x32x32
  h_S_ : 0 < S_.numel
  reducesTo_S2x2x32_S2x32_d0 : S2x2x32.ReducesTo [0] S2x32
  reducesTo_S2x2x1_S_d0_1_2 : S2x2x1.ReducesTo [0, 1, 2] S_
  bcast_S_S2x1 : S_.BroadcastsInDim S2x1 (![] : Fin 0 → Fin S2x1.rank)
  bcast_S_S32x32 : S_.BroadcastsInDim S32x32 (![] : Fin 0 → Fin S32x32.rank)
  bcast_S2x1_S2x1x1_0_1 : S2x1.BroadcastsInDim S2x1x1 (![0, 1] : Fin 2 → Fin S2x1x1.rank)
  bcast_S2x1x1_S2x32x32_0_1_2 : S2x1x1.BroadcastsInDim S2x32x32 (![0, 1, 2] : Fin 3 → Fin S2x32x32.rank)
  reducesTo_S2x32x32_S32x32_d0 : S2x32x32.ReducesTo [0] S32x32
  reducesTo_S32x32_S32_d1 : S32x32.ReducesTo [1] S32
  bcast_S_S32x1 : S_.BroadcastsInDim S32x1 (![] : Fin 0 → Fin S32x1.rank)
  reducesTo_S32x32_S_d0_1 : S32x32.ReducesTo [0, 1] S_
  bcast_S32_S1x32_1 : S32.BroadcastsInDim S1x32 (![1] : Fin 1 → Fin S1x32.rank)
  bcast_S2x1_S2x32_0_1 : S2x1.BroadcastsInDim S2x32 (![0, 1] : Fin 2 → Fin S2x32.rank)
  bcast_S1x32_S2x32_0_1 : S1x32.BroadcastsInDim S2x32 (![0, 1] : Fin 2 → Fin S2x32.rank)
  bcast_S_S2x32 : S_.BroadcastsInDim S2x32 (![] : Fin 0 → Fin S2x32.rank)
  reducesTo_S2x32_S_d0_1 : S2x32.ReducesTo [0, 1] S_
  dot_S2x32x32_S2x32x9216_S2x32x9216_2_1_1_2_0_0_wf : DotDims.WF S2x32x32 S2x32x9216 S2x32x9216 [2] [1] [1] [2] [0] [0]
  dot_S2x32x9216_S2x32x9216_S2x32x32_2_2_1_1_0_0_wf : DotDims.WF S2x32x9216 S2x32x9216 S2x32x32 [2] [2] [1] [1] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x32x32.size a ≤ S2x32x32.size a
  hwx0_0 : ∀ i : grid0.Coords, EltTy.bits .f32 = 32 ∨ (Rect.block (s := S2x32x32) S2x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x32x9216.size a ≤ S2x32x884736.size a
  hwx0_1 : ∀ i : grid0.Coords, EltTy.bits .f32 = 32 ∨ (Rect.block (s := S2x32x884736) S2x32x9216.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x32x9216.size a ≤ S2x32x884736.size a
  hwx0_2 : ∀ i : grid0.Coords, EltTy.bits .f32 = 32 ∨ (Rect.block (s := S2x32x884736) S2x32x9216.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x32x32.size a ≤ S2x2x32x32.size a
  hwx0_3 : ∀ i : grid0.Coords, EltTy.bits .f32 = 32 ∨ (Rect.block (s := S2x2x32x32) S1x2x32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x32.size a ≤ S2x2x32.size a
  hwx0_4 : ∀ i : grid0.Coords, EltTy.bits .f32 = 32 ∨ (Rect.block (s := S2x2x32) S1x2x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x1.size a ≤ S2x2x1.size a
  hwx0_5 : ∀ i : grid0.Coords, EltTy.bits .f32 = 32 ∨ (Rect.block (s := S2x2x1) S1x2x1.size (cc0_transform_5 i) (hinb0_5 i)).WholeWords (EltTy.packing .f32)

variable [Facts₀]

def dot_S2x32x32_S2x32x9216_S2x32x9216_2_1_1_2_0_0 : DotDims S2x32x32 S2x32x9216 S2x32x9216 where
  lhsContracting := [2]
  rhsContracting := [1]
  lhsNonContracting := [1]
  rhsNonContracting := [2]
  lhsBatch := [0]
  rhsBatch := [0]
  wf := dot_S2x32x32_S2x32x9216_S2x32x9216_2_1_1_2_0_0_wf
def dot_S2x32x9216_S2x32x9216_S2x32x32_2_2_1_1_0_0 : DotDims S2x32x9216 S2x32x9216 S2x32x32 where
  lhsContracting := [2]
  rhsContracting := [2]
  lhsNonContracting := [1]
  rhsNonContracting := [1]
  lhsBatch := [0]
  rhsBatch := [0]
  wf := dot_S2x32x9216_S2x32x9216_S2x32x32_2_2_1_1_0_0_wf

abbrev win0_0 : Pipeline.Window sig grid0 :=
  Pipeline.Window.ofSpec (Memref.whole main_v3) S2x32x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x32x9216.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x32x9216.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x2x32x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x2x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S1x2x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x32x96x96x96 : Shape := ⟨5, ![2, 32, 96, 96, 96]⟩
abbrev S2x1 : Shape := ⟨2, ![2, 1]⟩
abbrev S32x32 : Shape := ⟨2, ![32, 32]⟩
abbrev S32 : Shape := ⟨1, ![32]⟩
abbrev S_ : Shape := ⟨0, ![]⟩
abbrev S2x96x96x96 : Shape := ⟨4, ![2, 96, 96, 96]⟩
abbrev S2x1x96x96x96 : Shape := ⟨5, ![2, 1, 96, 96, 96]⟩
abbrev S2x32x884736 : Shape := ⟨3, ![2, 32, 884736]⟩
abbrev S2x32x32 : Shape := ⟨3, ![2, 32, 32]⟩
abbrev S1x32x32 : Shape := ⟨3, ![1, 32, 32]⟩
abbrev S2x1x1 : Shape := ⟨3, ![2, 1, 1]⟩
abbrev S32x1 : Shape := ⟨2, ![32, 1]⟩
abbrev S2x32 : Shape := ⟨2, ![2, 32]⟩
abbrev S1x32 : Shape := ⟨2, ![1, 32]⟩

abbrev nBuf : Space → Nat
  | .hbm => 176
  | .vmem => 0
  | .smem => 0
  | _ => 0

abbrev hbmTy0_0 (i : Nat) : BufTy := match i % 128 with
  | 0 => ⟨S2x32x96x96x96, .f32⟩
  | 1 => ⟨S2x1, .f32⟩
  | 2 => ⟨S32x32, .f32⟩
  | 3 => ⟨S32x32, .f32⟩
  | 4 => ⟨S32, .f32⟩
  | 5 => ⟨S32, .f32⟩
  | 6 => ⟨S32, .f32⟩
  | 7 => ⟨S32, .f32⟩
  | 8 => ⟨S32x32, .f32⟩
  | 9 => ⟨S32, .i32⟩
  | 10 => ⟨S_, .f32⟩
  | 11 => ⟨S2x96x96x96, .f32⟩
  | 12 => ⟨S_, .f32⟩
  | 13 => ⟨S2x96x96x96, .f32⟩
  | 14 => ⟨S2x96x96x96, .f32⟩
  | 15 => ⟨S2x1x96x96x96, .f32⟩
  | 16 => ⟨S2x32x96x96x96, .f32⟩
  | 17 => ⟨S2x32x96x96x96, .f32⟩
  | 18 => ⟨S2x32x96x96x96, .f32⟩
  | 19 => ⟨S_, .f32⟩
  | 20 => ⟨S2x96x96x96, .f32⟩
  | 21 => ⟨S2x1x96x96x96, .f32⟩
  | 22 => ⟨S2x32x96x96x96, .f32⟩
  | 23 => ⟨S2x32x96x96x96, .f32⟩
  | 24 => ⟨S_, .f32⟩
  | 25 => ⟨S2x1, .f32⟩
  | 26 => ⟨S2x1, .f32⟩
  | 27 => ⟨S_, .f32⟩
  | 28 => ⟨S_, .f32⟩
  | 29 => ⟨S_, .f32⟩
  | 30 => ⟨S2x1, .f32⟩
  | 31 => ⟨S2x1, .f32⟩
  | 32 => ⟨S_, .f32⟩
  | 33 => ⟨S2x1, .f32⟩
  | 34 => ⟨S2x1, .f32⟩
  | 35 => ⟨S2x32x884736, .f32⟩
  | 36 => ⟨S2x32x32, .f32⟩
  | 37 => ⟨S32x32, .i32⟩
  | 38 => ⟨S32x32, .i32⟩
  | 39 => ⟨S_, .i32⟩
  | 40 => ⟨S32x32, .i32⟩
  | 41 => ⟨S32x32, .i32⟩
  | 42 => ⟨S32x32, .i1⟩
  | 43 => ⟨S32x32, .f32⟩
  | 44 => ⟨S_, .f32⟩
  | 45 => ⟨S32x32, .f32⟩
  | 46 => ⟨S32x32, .f32⟩
  | 47 => ⟨S1x32x32, .f32⟩
  | 48 => ⟨S2x32x32, .f32⟩
  | 49 => ⟨S2x32x32, .f32⟩
  | 50 => ⟨S_, .f32⟩
  | 51 => ⟨S2x1, .f32⟩
  | 52 => ⟨S2x1, .f32⟩
  | 53 => ⟨S2x1x1, .f32⟩
  | 54 => ⟨S1x32x32, .f32⟩
  | 55 => ⟨S2x32x32, .f32⟩
  | 56 => ⟨S2x32x32, .f32⟩
  | 57 => ⟨S2x32x32, .f32⟩
  | 58 => ⟨S2x1x1, .f32⟩
  | 59 => ⟨S1x32x32, .f32⟩
  | 60 => ⟨S2x32x32, .f32⟩
  | 61 => ⟨S2x32x32, .f32⟩
  | 62 => ⟨S2x32x32, .f32⟩
  | 63 => ⟨S2x32x32, .f32⟩
  | 64 => ⟨S2x32x32, .f32⟩
  | 65 => ⟨S_, .f32⟩
  | 66 => ⟨S32x32, .f32⟩
  | 67 => ⟨S_, .f32⟩
  | 68 => ⟨S32x32, .f32⟩
  | 69 => ⟨S32x32, .f32⟩
  | 70 => ⟨S_, .f32⟩
  | 71 => ⟨S32, .f32⟩
  | 72 => ⟨S32x1, .f32⟩
  | 73 => ⟨S_, .f32⟩
  | 74 => ⟨S_, .f32⟩
  | 75 => ⟨S32x1, .f32⟩
  | 76 => ⟨S32x1, .f32⟩
  | 77 => ⟨S32x32, .f32⟩
  | 78 => ⟨S32x32, .f32⟩
  | 79 => ⟨S32x32, .i32⟩
  | 80 => ⟨S32x32, .i32⟩
  | 81 => ⟨S_, .i32⟩
  | 82 => ⟨S32x32, .i32⟩
  | 83 => ⟨S32x32, .i32⟩
  | 84 => ⟨S32x32, .i1⟩
  | 85 => ⟨S32x32, .f32⟩
  | 86 => ⟨S_, .f32⟩
  | 87 => ⟨S32x32, .f32⟩
  | 88 => ⟨S32x32, .f32⟩
  | 89 => ⟨S32x32, .f32⟩
  | 90 => ⟨S_, .f32⟩
  | 91 => ⟨S32, .f32⟩
  | 92 => ⟨S32x1, .f32⟩
  | 93 => ⟨S_, .f32⟩
  | 94 => ⟨S_, .f32⟩
  | 95 => ⟨S32x1, .f32⟩
  | 96 => ⟨S32x1, .f32⟩
  | 97 => ⟨S32x32, .f32⟩
  | 98 => ⟨S32x32, .f32⟩
  | 99 => ⟨S32x32, .f32⟩
  | 100 => ⟨S32x32, .f32⟩
  | 101 => ⟨S_, .f32⟩
  | 102 => ⟨S_, .f32⟩
  | 103 => ⟨S_, .f32⟩
  | 104 => ⟨S_, .f32⟩
  | 105 => ⟨S_, .f32⟩
  | 106 => ⟨S2x32, .f32⟩
  | 107 => ⟨S_, .f32⟩
  | 108 => ⟨S2x1, .f32⟩
  | 109 => ⟨S2x1, .f32⟩
  | 110 => ⟨S1x32, .f32⟩
  | 111 => ⟨S2x32, .f32⟩
  | 112 => ⟨S2x32, .f32⟩
  | 113 => ⟨S2x32, .f32⟩
  | 114 => ⟨S1x32, .f32⟩
  | 115 => ⟨S2x32, .f32⟩
  | 116 => ⟨S2x32, .f32⟩
  | 117 => ⟨S2x32, .f32⟩
  | 118 => ⟨S2x32, .f32⟩
  | 119 => ⟨S_, .f32⟩
  | 120 => ⟨S2x1, .f32⟩
  | 121 => ⟨S2x1, .f32⟩
  | 122 => ⟨S1x32, .f32⟩
  | 123 => ⟨S2x32, .f32⟩
  | 124 => ⟨S2x32, .f32⟩
  | 125 => ⟨S2x32, .f32⟩
  | 126 => ⟨S1x32, .f32⟩
  | 127 => ⟨S2x32, .f32⟩
  | _ => ⟨S2x32x96x96x96, .f32⟩

abbrev hbmTy0_1 (i : Nat) : BufTy := match i % 128 with
  | 0 => ⟨S2x32, .f32⟩
  | 1 => ⟨S2x32, .f32⟩
  | 2 => ⟨S2x32, .f32⟩
  | 3 => ⟨S2x32, .f32⟩
  | 4 => ⟨S_, .f32⟩
  | 5 => ⟨S2x32, .f32⟩
  | 6 => ⟨S2x32, .f32⟩
  | 7 => ⟨S2x32, .f32⟩
  | 8 => ⟨S2x32, .f32⟩
  | 9 => ⟨S_, .f32⟩
  | 10 => ⟨S2x32, .f32⟩
  | 11 => ⟨S2x32, .i1⟩
  | 12 => ⟨S_, .f32⟩
  | 13 => ⟨S2x32, .f32⟩
  | 14 => ⟨S2x32, .f32⟩
  | 15 => ⟨S2x32, .f32⟩
  | 16 => ⟨S_, .f32⟩
  | 17 => ⟨S2x32, .f32⟩
  | 18 => ⟨S2x32, .f32⟩
  | 19 => ⟨S2x32, .f32⟩
  | 20 => ⟨S_, .f32⟩
  | 21 => ⟨S_, .f32⟩
  | 22 => ⟨S_, .f32⟩
  | 23 => ⟨S_, .f32⟩
  | 24 => ⟨S2x32x96x96x96, .f32⟩
  | 25 => ⟨S_, .i32⟩
  | 26 => ⟨S32, .i32⟩
  | 27 => ⟨S32, .i1⟩
  | 28 => ⟨S_, .i32⟩
  | 29 => ⟨S32, .i32⟩
  | 30 => ⟨S32, .i32⟩
  | 31 => ⟨S32, .i32⟩
  | 32 => ⟨S32x1, .i32⟩
  | 33 => ⟨S2x32x96x96x96, .f32⟩
  | 34 => ⟨S2x32x96x96x96, .f32⟩
  | 35 => ⟨S2x32x96x96x96, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | _ => ⟨S2x32x96x96x96, .f32⟩

abbrev hbmTy (i : Nat) : BufTy := match i / 128 with
  | 0 => hbmTy0_0 i
  | 1 => hbmTy0_1 i
  | _ => ⟨S2x32x96x96x96, .f32⟩

abbrev bufTy : (tb : Table) → Fin (tcTables nBuf tb) → BufTy
  | .hbm, ⟨i, _⟩ => hbmTy i
  | _, _ => ⟨S2x32x96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_call1_v0 : Ref sig .tc := ⟨.hbm, 74, rfl⟩
abbrev main_call1_v1 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_11 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_12 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_13 : Ref sig .tc := ⟨.hbm, 90, rfl⟩
abbrev main_v58 : Ref sig .tc := ⟨.hbm, 91, rfl⟩
abbrev main_v59 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_15 : Ref sig .tc := ⟨.hbm, 101, rfl⟩
abbrev main_v65 : Ref sig .tc := ⟨.hbm, 102, rfl⟩
abbrev main_cst_16 : Ref sig .tc := ⟨.hbm, 103, rfl⟩
abbrev main_v66 : Ref sig .tc := ⟨.hbm, 104, rfl⟩
abbrev main_cst_17 : Ref sig .tc := ⟨.hbm, 105, rfl⟩
abbrev main_v67 : Ref sig .tc := ⟨.hbm, 106, rfl⟩
abbrev main_cst_18 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_19 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_20 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_21 : Ref sig .tc := ⟨.hbm, 137, rfl⟩
abbrev main_v95 : Ref sig .tc := ⟨.hbm, 138, rfl⟩
abbrev main_v96 : Ref sig .tc := ⟨.hbm, 139, rfl⟩
abbrev main_cst_22 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_23 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_24 : Ref sig .tc := ⟨.hbm, 148, rfl⟩
abbrev main_v103 : Ref sig .tc := ⟨.hbm, 149, rfl⟩
abbrev main_cst_25 : Ref sig .tc := ⟨.hbm, 150, rfl⟩
abbrev main_v104 : Ref sig .tc := ⟨.hbm, 151, rfl⟩
abbrev main_v105 : Ref sig .tc := ⟨.hbm, 152, rfl⟩
abbrev main_c_26 : Ref sig .tc := ⟨.hbm, 153, rfl⟩
abbrev main_v106 : Ref sig .tc := ⟨.hbm, 154, rfl⟩
abbrev main_v107 : Ref sig .tc := ⟨.hbm, 155, rfl⟩
abbrev main_c_27 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_28 : Ref sig .tc := ⟨.hbm, 164, rfl⟩
abbrev main_v115 : Ref sig .tc := ⟨.hbm, 165, rfl⟩
abbrev main_cst_29 : Ref sig .tc := ⟨.hbm, 166, rfl⟩
abbrev main_v116 : Ref sig .tc := ⟨.hbm, 167, rfl⟩
abbrev main_cst_30 : Ref sig .tc := ⟨.hbm, 168, rfl⟩
abbrev main_v117 : Ref sig .tc := ⟨.hbm, 169, rfl⟩
abbrev main_cst_31 : Ref sig .tc := ⟨.hbm, 170, rfl⟩
abbrev main_v118 : Ref sig .tc := ⟨.hbm, 171, rfl⟩
abbrev main_v119 : Ref sig .tc := ⟨.hbm, 172, rfl⟩
abbrev main_cst_32 : Ref sig .tc := ⟨.hbm, 173, rfl⟩
abbrev main_v120 : Ref sig .tc := ⟨.hbm, 174, rfl⟩
abbrev main_v121 : Ref sig .tc := ⟨.hbm, 175, rfl⟩

abbrev nD : Nat := 1
abbrev τ : Topo := Topo.v7x

variable {F : FTy → Type} [FloatOps F]

class Facts₀ : Prop where
  reducesTo_S2x32x96x96x96_S2x96x96x96_d1 : S2x32x96x96x96.ReducesTo [1] S2x96x96x96
  h_S_ : 0 < S_.numel
  bcast_S_S2x96x96x96 : S_.BroadcastsInDim S2x96x96x96 (![] : Fin 0 → Fin S2x96x96x96.rank)
  bcast_S2x96x96x96_S2x1x96x96x96_0_2_3_4 : S2x96x96x96.BroadcastsInDim S2x1x96x96x96 (![0, 2, 3, 4] : Fin 4 → Fin S2x1x96x96x96.rank)
  bcast_S2x1x96x96x96_S2x32x96x96x96_0_1_2_3_4 : S2x1x96x96x96.BroadcastsInDim S2x32x96x96x96 (![0, 1, 2, 3, 4] : Fin 5 → Fin S2x32x96x96x96.rank)
  bcast_S_S2x1 : S_.BroadcastsInDim S2x1 (![] : Fin 0 → Fin S2x1.rank)
  shapeCasts_S2x32x96x96x96_S2x32x884736 : S2x32x96x96x96.ShapeCasts S2x32x884736
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S2x32x32_0_1_2 : S1x32x32.BroadcastsInDim S2x32x32 (![0, 1, 2] : Fin 3 → Fin S2x32x32.rank)
  bcast_S2x1_S2x1x1_0_1 : S2x1.BroadcastsInDim S2x1x1 (![0, 1] : Fin 2 → Fin S2x1x1.rank)
  bcast_S2x1x1_S2x32x32_0_1_2 : S2x1x1.BroadcastsInDim S2x32x32 (![0, 1, 2] : Fin 3 → Fin S2x32x32.rank)
  reducesTo_S2x32x32_S32x32_d0 : S2x32x32.ReducesTo [0] S32x32
  reducesTo_S32x32_S32_d1 : S32x32.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x32_0_1 : S32x1.BroadcastsInDim S32x32 (![0, 1] : Fin 2 → Fin S32x32.rank)
  reducesTo_S32x32_S_d0_1 : S32x32.ReducesTo [0, 1] S_
  reducesTo_S2x32x96x96x96_S2x32_d2_3_4 : S2x32x96x96x96.ReducesTo [2, 3, 4] S2x32
  bcast_S32_S1x32_1 : S32.BroadcastsInDim S1x32 (![1] : Fin 1 → Fin S1x32.rank)
  bcast_S2x1_S2x32_0_1 : S2x1.BroadcastsInDim S2x32 (![0, 1] : Fin 2 → Fin S2x32.rank)
  bcast_S1x32_S2x32_0_1 : S1x32.BroadcastsInDim S2x32 (![0, 1] : Fin 2 → Fin S2x32.rank)
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S2x32x96x96x96_S_d0_1_2_3_4 : S2x32x96x96x96.ReducesTo [0, 1, 2, 3, 4] S_
  dot_S2x32x884736_S2x32x884736_S2x32x32_2_2_1_1_0_0_wf : DotDims.WF S2x32x884736 S2x32x884736 S2x32x32 [2] [2] [1] [1] [0] [0]
  gather_S2x32x96x96x96_S32x1_S2x32x96x96x96_0234_1_n_n_1_1_21969696_wf : GatherDims.WF S2x32x96x96x96 S32x1 S2x32x96x96x96 [0, 2, 3, 4] [1] [] [1] [] 1 ![2, 1, 96, 96, 96]

variable [Facts₀]

def dot_S2x32x884736_S2x32x884736_S2x32x32_2_2_1_1_0_0 : DotDims S2x32x884736 S2x32x884736 S2x32x32 where
  lhsContracting := [2]
  rhsContracting := [2]
  lhsNonContracting := [1]
  rhsNonContracting := [1]
  lhsBatch := [0]
  rhsBatch := [0]
  wf := dot_S2x32x884736_S2x32x884736_S2x32x32_2_2_1_1_0_0_wf
def gather_S2x32x96x96x96_S32x1_S2x32x96x96x96_0234_1_n_n_1_1_21969696 : GatherDims S2x32x96x96x96 S32x1 S2x32x96x96x96 where
  offsetDims := [0, 2, 3, 4]
  collapsedSliceDims := [1]
  operandBatchingDims := []
  startIndicesBatchingDims := []
  startIndexMap := [1]
  indexVectorDim := 1
  sliceSizes := ![2, 1, 96, 96, 96]
  wf := gather_S2x32x96x96x96_S32x1_S2x32x96x96x96_0234_1_n_n_1_1_21969696_wf

class Facts : Prop extends Facts₀ where

variable [Facts]
-- ==== Proof.BodyRun.lean ====
/-
  The kernel body run once at symbolic operands, in each of its three control cases.

  A grid point has coordinates `(core, step)`. At `step = 0` the body first resets its three accumulators (the
  adjacency sums, the volume sums, the symmetry sums) to zero; at every step it adds the two planes' contributions;
  at `step = 23` it also copies the accumulators into the three output blocks. Each theorem says: from the three
  input blocks and the accumulators (and, in the last case, the output blocks at anything), the body runs to its
  return handing back the inputs as they were and the accumulators (and outputs) at the stated pure terms of what
  it loaded.
-/
import proofs.«409875_j8435315769968_3_alg».proof.Proof.Gen.KernelIdeal.Skeleton
import Idealize.ShloMosaic.Lib.Tactic
import Idealize.ShloMosaic.Lib.Pipeline.Kit
import Idealize.ShloMosaic.Lib.WholeRead

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The reset condition: the step coordinate is zero (the body's first conditional, as it computes it). -/
abbrev condReset (i : grid0.Coords) : Prop :=
  (Scalar.cmpi .ne (Scalar.extui (Scalar.cmpi .eq (BitVec.ofNat 32 (i 1).val) 0#32)) 0#32) = 1#1
/-- The write-out condition: the step coordinate is the last one (the body's second conditional). -/
abbrev condLast (i : grid0.Coords) : Prop := k0_cond2 i = 1#1

/-- What a step adds to the adjacency accumulator `a`, the volume accumulator `v` and the symmetry accumulator `s`,
    from the permutation block `P`, the forward plane's logits `f` and the mirror plane's `g`. -/
abbrev nextA (f g : Vec F S2x32x9216 .f32) (a : Vec F S2x32x32 .f32) : Vec F S2x32x32 .f32 := k0_pay3 (k0_pay12 f) (k0_pay13 g) a
abbrev nextV (f g : Vec F S2x32x9216 .f32) (v : Vec F S2x32 .f32) : Vec F S2x32 .f32 := k0_pay2 (k0_pay10 f) (k0_pay11 g) v
abbrev nextS (P : Vec F S2x32x32 .f32) (f g : Vec F S2x32x9216 .f32) (s : Vec F S2x1 .f32) : Vec F S2x1 .f32 := k0_pay1 (k0_pay15 f g P) (k0_pay16 f g P) s

/-- The zero offsets of a rank-2 whole-block access, as the constant function. -/
theorem hz2 : (![0, 0] : Fin 2 → Nat) = fun _ => 0 := funext fun a => by fin_cases a <;> rfl
/-- The zero offsets of a rank-3 whole-block access, as the constant function. -/
theorem hz3 : (![0, 0, 0] : Fin 3 → Nat) = fun _ => 0 := funext fun a => by fin_cases a <;> rfl
/-- The zero offsets of a rank-4 whole-block access, as the constant function. -/
theorem hz4 : (![0, 0, 0, 0] : Fin 4 → Nat) = fun _ => 0 := funext fun a => by fin_cases a <;> rfl

/-- A store through the whole block at zero offsets, made LAST, is what the block reads afterwards, whatever was
    stored before it and whatever the buffer held. -/
theorem read_writes_cons_whole {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- The first step of a core: the accumulators are reset, then the step's contribution added. -/
theorem run_reset (c : Dev nD) (i : grid0.Coords) (arg2 : Memref sig .tc .vmem S2x32x32 .f32) (harg2 : arg2.IsWhole) (arg3 : Memref sig .tc .vmem S2x32x9216 .f32) (harg3 : arg3.IsWhole) (arg4 : Memref sig .tc .vmem S2x32x9216 .f32) (harg4 : arg4.IsWhole) (arg5 : Memref sig .tc .vmem S1x2x32x32 .f32) (harg5 : arg5.IsWhole) (arg6 : Memref sig .tc .vmem S1x2x32 .f32) (harg6 : arg6.IsWhole) (arg7 : Memref sig .tc .vmem S1x2x1 .f32) (harg7 : arg7.IsWhole) (arg8 : Memref sig .tc .vmem S2x32x32 .f32) (harg8 : arg8.IsWhole) (arg9 : Memref sig .tc .vmem S2x32 .f32) (harg9 : arg9.IsWhole) (arg10 : Memref sig .tc .vmem S2x1 .f32) (harg10 : arg10.IsWhole)
    (h1 : condReset i) (h2 : ¬ condLast i)
    (P : Vec F S2x32x32 .f32) (f g : Vec F S2x32x9216 .f32) (E : Set ℕ) (K : PUnit → sProp 𝕄) :
    iprop(owns (c : Thread nD τ) arg2 fullShare P ∗ owns (c : Thread nD τ) arg3 fullShare f ∗ owns (c : Thread nD τ) arg4 fullShare g
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare P ∗ owns (c : Thread nD τ) arg3 fullShare f ∗ owns (c : Thread nD τ) arg4 fullShare g
              ∗ owns (c : Thread nD τ) arg8 fullShare (nextA f g k0_pay7) ∗ owns (c : Thread nD τ) arg9 fullShare (nextV f g k0_pay8)
              ∗ owns (c : Thread nD τ) arg10 fullShare (nextS P f g k0_pay9)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10) K := by
  sl_unfold [cc0__fused_body, cc0__fused_body_skel]
  unfold owns
  iintro ⟨⟨%f2, %hf2, H2⟩, ⟨%f3, %hf3, H3⟩, ⟨%f4, %hf4, H4⟩, ⟨%d8, %f8, %hf8, H8⟩, ⟨%d9, %f9, %hf9, H9⟩, ⟨%d10, %f10, %hf10, H10⟩, Hk⟩
  obtain rfl := harg2.eq_unread hf2; obtain rfl := harg3.eq_unread hf3; obtain rfl := harg4.eq_unread hf4
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H8]
  · iexists _; isplitr; swap; · iexact H8
    ipureintro
    sl_unfold_words
    refine (read_writes_cons_whole _ _ hz3 _ _ _).trans ?_
    simp only [View.readAt_eq_ld, harg2.read_unread, harg3.read_unread, harg4.read_unread,
      View.ld_unit_zero (S := S2x32x32) hz3, View.ld_unit_zero (S := S2x32x9216) hz3,
      View.readCov_unit_zero (S := S2x1) _ hz2, View.readCov_unit_zero (S := S2x32) _ hz2, View.readCov_unit_zero (S := S2x32x32) _ hz3]
  isplitl [H9]
  · iexists _; isplitr; swap; · iexact H9
    ipureintro
    sl_unfold_words
    refine (read_writes_cons_whole _ _ hz2 _ _ _).trans ?_
    simp only [View.readAt_eq_ld, harg2.read_unread, harg3.read_unread, harg4.read_unread,
      View.ld_unit_zero (S := S2x32x32) hz3, View.ld_unit_zero (S := S2x32x9216) hz3,
      View.readCov_unit_zero (S := S2x1) _ hz2, View.readCov_unit_zero (S := S2x32) _ hz2, View.readCov_unit_zero (S := S2x32x32) _ hz3]
  iexists _; isplitr; swap; · iexact H10
  ipureintro
  sl_unfold_words
  refine (read_writes_cons_whole _ _ hz2 _ _ _).trans ?_
  simp only [View.readAt_eq_ld, harg2.read_unread, harg3.read_unread, harg4.read_unread,
      View.ld_unit_zero (S := S2x32x32) hz3, View.ld_unit_zero (S := S2x32x9216) hz3,
      View.readCov_unit_zero (S := S2x1) _ hz2, View.readCov_unit_zero (S := S2x32) _ hz2, View.readCov_unit_zero (S := S2x32x32) _ hz3]

/-- A middle step: the contribution added to what the step before left. -/
theorem run_mid (c : Dev nD) (i : grid0.Coords) (arg2 : Memref sig .tc .vmem S2x32x32 .f32) (harg2 : arg2.IsWhole) (arg3 : Memref sig .tc .vmem S2x32x9216 .f32) (harg3 : arg3.IsWhole) (arg4 : Memref sig .tc .vmem S2x32x9216 .f32) (harg4 : arg4.IsWhole) (arg5 : Memref sig .tc .vmem S1x2x32x32 .f32) (harg5 : arg5.IsWhole) (arg6 : Memref sig .tc .vmem S1x2x32 .f32) (harg6 : arg6.IsWhole) (arg7 : Memref sig .tc .vmem S1x2x1 .f32) (harg7 : arg7.IsWhole) (arg8 : Memref sig .tc .vmem S2x32x32 .f32) (harg8 : arg8.IsWhole) (arg9 : Memref sig .tc .vmem S2x32 .f32) (harg9 : arg9.IsWhole) (arg10 : Memref sig .tc .vmem S2x1 .f32) (harg10 : arg10.IsWhole)
    (h1 : ¬ condReset i) (h2 : ¬ condLast i)
    (P : Vec F S2x32x32 .f32) (f g : Vec F S2x32x9216 .f32) (a : Vec F S2x32x32 .f32) (v : Vec F S2x32 .f32) (s : Vec F S2x1 .f32)
    (E : Set ℕ) (K : PUnit → sProp 𝕄) :
    iprop(owns (c : Thread nD τ) arg2 fullShare P ∗ owns (c : Thread nD τ) arg3 fullShare f ∗ owns (c : Thread nD τ) arg4 fullShare g
        ∗ owns (c : Thread nD τ) arg8 fullShare a ∗ owns (c : Thread nD τ) arg9 fullShare v ∗ owns (c : Thread nD τ) arg10 fullShare s
        ∗ (iprop(owns (c : Thread nD τ) arg2 fullShare P ∗ owns (c : Thread nD τ) arg3 fullShare f ∗ owns (c : Thread nD τ) arg4 fullShare g
              ∗ owns (c : Thread nD τ) arg8 fullShare (nextA f g a) ∗ owns (c : Thread nD τ) arg9 fullShare (nextV f g v)
              ∗ owns (c : Thread nD τ) arg10 fullShare (nextS P f g s)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10) K := by
  sl_unfold [cc0__fused_body, cc0__fused_body_skel]
  unfold owns
  iintro ⟨⟨%f2, %hf2, H2⟩, ⟨%f3, %hf3, H3⟩, ⟨%f4, %hf4, H4⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg8.eq_unread hf8; obtain rfl := harg9.eq_unread hf9; obtain rfl := harg10.eq_unread hf10
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H8]
  · iexists _; isplitr; swap; · iexact H8
    ipureintro
    refine (read_writes_cons_whole _ _ hz3 _ _ _).trans ?_
    sl_unfold_words
    simp only [View.readAt_eq_ld, harg3.read_unread, harg4.read_unread, harg8.read_unread, View.ld_unit_zero (S := S2x32x32) hz3, View.ld_unit_zero (S := S2x32x9216) hz3]
  isplitl [H9]
  · iexists _; isplitr; swap; · iexact H9
    ipureintro
    refine (read_writes_cons_whole _ _ hz2 _ _ _).trans ?_
    sl_unfold_words
    simp only [View.readAt_eq_ld, harg3.read_unread, harg4.read_unread, harg9.read_unread, View.ld_unit_zero (S := S2x32) hz2, View.ld_unit_zero (S := S2x32x9216) hz3]
  iexists _; isplitr; swap; · iexact H10
  ipureintro
  refine (read_writes_cons_whole _ _ hz2 _ _ _).trans ?_
  sl_unfold_words
  simp only [View.readAt_eq_ld, harg2.read_unread, harg3.read_unread, harg4.read_unread, harg10.read_unread, View.ld_unit_zero (S := S2x1) hz2, View.ld_unit_zero (S := S2x32x32) hz3, View.ld_unit_zero (S := S2x32x9216) hz3]

/-- The last step of a core: the contribution added, then the accumulators copied into the output blocks. -/
theorem run_last (c : Dev nD) (i : grid0.Coords) (arg2 : Memref sig .tc .vmem S2x32x32 .f32) (harg2 : arg2.IsWhole) (arg3 : Memref sig .tc .vmem S2x32x9216 .f32) (harg3 : arg3.IsWhole) (arg4 : Memref sig .tc .vmem S2x32x9216 .f32) (harg4 : arg4.IsWhole) (arg5 : Memref sig .tc .vmem S1x2x32x32 .f32) (harg5 : arg5.IsWhole) (arg6 : Memref sig .tc .vmem S1x2x32 .f32) (harg6 : arg6.IsWhole) (arg7 : Memref sig .tc .vmem S1x2x1 .f32) (harg7 : arg7.IsWhole) (arg8 : Memref sig .tc .vmem S2x32x32 .f32) (harg8 : arg8.IsWhole) (arg9 : Memref sig .tc .vmem S2x32 .f32) (harg9 : arg9.IsWhole) (arg10 : Memref sig .tc .vmem S2x1 .f32) (harg10 : arg10.IsWhole)
    (h1 : ¬ condReset i) (h2 : condLast i)
    (P : Vec F S2x32x32 .f32) (f g : Vec F S2x32x9216 .f32) (a : Vec F S2x32x32 .f32) (v : Vec F S2x32 .f32) (s : Vec F S2x1 .f32)
    (E : Set ℕ) (K : PUnit → sProp 𝕄) :
    iprop(owns (c : Thread nD τ) arg2 fullShare P ∗ owns (c : Thread nD τ) arg3 fullShare f ∗ owns (c : Thread nD τ) arg4 fullShare g
        ∗ owns (c : Thread nD τ) arg8 fullShare a ∗ owns (c : Thread nD τ) arg9 fullShare v ∗ owns (c : Thread nD τ) arg10 fullShare s
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare P ∗ owns (c : Thread nD τ) arg3 fullShare f ∗ owns (c : Thread nD τ) arg4 fullShare g
              ∗ owns (c : Thread nD τ) arg8 fullShare (nextA f g a) ∗ owns (c : Thread nD τ) arg9 fullShare (nextV f g v)
              ∗ owns (c : Thread nD τ) arg10 fullShare (nextS P f g s)
              ∗ owns (c : Thread nD τ) arg5 fullShare (k0_pay4 (nextA f g a)) ∗ owns (c : Thread nD τ) arg6 fullShare (k0_pay5 (nextV f g v))
              ∗ owns (c : Thread nD τ) arg7 fullShare (k0_pay6 (nextS P f g s))) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10) K := by
  sl_unfold [cc0__fused_body, cc0__fused_body_skel]
  unfold owns
  iintro ⟨⟨%f2, %hf2, H2⟩, ⟨%f3, %hf3, H3⟩, ⟨%f4, %hf4, H4⟩, ⟨%f8, %hf8, H8⟩, ⟨%f9, %hf9, H9⟩, ⟨%f10, %hf10, H10⟩, ⟨%d5, %f5, %hf5, H5⟩, ⟨%d6, %f6, %hf6, H6⟩, ⟨%d7, %f7, %hf7, H7⟩, Hk⟩
  obtain rfl := harg2.eq_unread hf2; obtain rfl := harg3.eq_unread hf3; obtain rfl := harg4.eq_unread hf4
  obtain rfl := harg8.eq_unread hf8; obtain rfl := harg9.eq_unread hf9; obtain rfl := harg10.eq_unread hf10
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H8]
  · iexists _; isplitr; swap; · iexact H8
    ipureintro
    sl_unfold_words
    refine (read_writes_cons_whole _ _ hz3 _ _ _).trans ?_
    simp only [View.readAt_eq_ld, harg2.read_unread, harg3.read_unread, harg4.read_unread, harg8.read_unread, harg9.read_unread, harg10.read_unread,
      View.ld_unit_zero (S := S2x1) hz2, View.ld_unit_zero (S := S2x32) hz2, View.ld_unit_zero (S := S2x32x32) hz3, View.ld_unit_zero (S := S2x32x9216) hz3]
  isplitl [H9]
  · iexists _; isplitr; swap; · iexact H9
    ipureintro
    sl_unfold_words
    refine (read_writes_cons_whole _ _ hz2 _ _ _).trans ?_
    simp only [View.readAt_eq_ld, harg2.read_unread, harg3.read_unread, harg4.read_unread, harg8.read_unread, harg9.read_unread, harg10.read_unread,
      View.ld_unit_zero (S := S2x1) hz2, View.ld_unit_zero (S := S2x32) hz2, View.ld_unit_zero (S := S2x32x32) hz3, View.ld_unit_zero (S := S2x32x9216) hz3]
  isplitl [H10]
  · iexists _; isplitr; swap; · iexact H10
    ipureintro
    sl_unfold_words
    refine (read_writes_cons_whole _ _ hz2 _ _ _).trans ?_
    simp only [View.readAt_eq_ld, harg2.read_unread, harg3.read_unread, harg4.read_unread, harg8.read_unread, harg9.read_unread, harg10.read_unread,
      View.ld_unit_zero (S := S2x1) hz2, View.ld_unit_zero (S := S2x32) hz2, View.ld_unit_zero (S := S2x32x32) hz3, View.ld_unit_zero (S := S2x32x9216) hz3]
  isplitl [H5]
  · iexists _; isplitr; swap; · iexact H5
    ipureintro
    sl_unfold_words
    refine (read_writes_cons_whole _ _ hz4 _ _ _).trans ?_
    simp only [View.readAt_eq_ld, harg2.read_unread, harg3.read_unread, harg4.read_unread, harg8.read_unread, harg9.read_unread, harg10.read_unread,
      View.ld_unit_zero (S := S2x1) hz2, View.ld_unit_zero (S := S2x32) hz2, View.ld_unit_zero (S := S2x32x32) hz3, View.ld_unit_zero (S := S2x32x9216) hz3,
      View.readCov_unit_zero (S := S2x1) _ hz2, View.readCov_unit_zero (S := S2x32) _ hz2, View.readCov_unit_zero (S := S2x32x32) _ hz3]
  isplitl [H6]
  · iexists _; isplitr; swap; · iexact H6
    ipureintro
    sl_unfold_words
    refine (read_writes_cons_whole _ _ hz3 _ _ _).trans ?_
    simp only [View.readAt_eq_ld, harg2.read_unread, harg3.read_unread, harg4.read_unread, harg8.read_unread, harg9.read_unread, harg10.read_unread,
      View.ld_unit_zero (S := S2x1) hz2, View.ld_unit_zero (S := S2x32) hz2, View.ld_unit_zero (S := S2x32x32) hz3, View.ld_unit_zero (S := S2x32x9216) hz3,
      View.readCov_unit_zero (S := S2x1) _ hz2, View.readCov_unit_zero (S := S2x32) _ hz2, View.readCov_unit_zero (S := S2x32x32) _ hz3]
  iexists _; isplitr; swap; · iexact H7
  ipureintro
  sl_unfold_words
  refine (read_writes_cons_whole _ _ hz3 _ _ _).trans ?_
  simp only [View.readAt_eq_ld, harg2.read_unread, harg3.read_unread, harg4.read_unread, harg8.read_unread, harg9.read_unread, harg10.read_unread,
      View.ld_unit_zero (S := S2x1) hz2, View.ld_unit_zero (S := S2x32) hz2, View.ld_unit_zero (S := S2x32x32) hz3, View.ld_unit_zero (S := S2x32x9216) hz3,
      View.readCov_unit_zero (S := S2x1) _ hz2, View.readCov_unit_zero (S := S2x32) _ hz2, View.readCov_unit_zero (S := S2x32x32) _ hz3]

end Cert.KernelIdeal.Body

end
-- ==== Proof.FrameData.lean ====
/-
  The proof data of the fused kernel's pipeline.

  The grid's 48 points run in order; point `t` is step `t % 24` of core `t / 24`. At point `t` the pipeline stages
  the permutation block, plane `t` of the flattened logits and its mirror plane `95 - t` (two windows on ONE array),
  and the body adds their contributions to three accumulators kept in scratch memory: reset at the first step of a
  core, copied to the three output blocks at its last step. `accAt n` is what the accumulators hold after point `n`.
-/
import proofs.«409875_j8435315769968_3_alg».proof.Proof.BodyRun
import proofs.«409875_j8435315769968_3_alg».proof.Proof.Gen.KernelIdeal.Launch
import proofs.«409875_j8435315769968_3_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Frame

open Cert.KernelIdeal Cert.KernelIdeal.Gen Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main before the region -/

/-- The core's buffer contents when the region is entered: the reshape of the logits, the 0/1 matrix of the channel
    words and its broadcast over the batch have run. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) :=
  [hostOps1, hostOps1_1, hostOps1_2, hostOps1_3, hostOps1_4, hostOps1_5, hostOps1_6, hostOps1_7, hostOps1_8]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The permutation block, the forward plane and the mirror plane at point `t`, at their literal types. -/
abbrev Pblk (c : Dev nD) (t : Fin cfg0.N) : Vec F S2x32x32 .f32 := iblk m c 0 t
abbrev fblk (c : Dev nD) (t : Fin cfg0.N) : Vec F S2x32x9216 .f32 := iblk m c 1 t
abbrev gblk (c : Dev nD) (t : Fin cfg0.N) : Vec F S2x32x9216 .f32 := iblk m c 2 t

/-! ## The accumulators, point by point -/

/-- What the three accumulators hold after point `n`: at the first step of a core (`n % 24 = 0`) the step's
    contribution over zero, otherwise over what point `n - 1` left. -/
def accAt (c : Dev nD) : (n : ℕ) → n < cfg0.N → Vec F S2x32x32 .f32 × Vec F S2x32 .f32 × Vec F S2x1 .f32
  | 0, hn => (nextA (fblk m c ⟨0, hn⟩) (gblk m c ⟨0, hn⟩) k0_pay7, nextV (fblk m c ⟨0, hn⟩) (gblk m c ⟨0, hn⟩) k0_pay8,
      nextS (Pblk m c ⟨0, hn⟩) (fblk m c ⟨0, hn⟩) (gblk m c ⟨0, hn⟩) k0_pay9)
  | n + 1, hn =>
    if (n + 1) % 24 = 0 then
      (nextA (fblk m c ⟨n + 1, hn⟩) (gblk m c ⟨n + 1, hn⟩) k0_pay7, nextV (fblk m c ⟨n + 1, hn⟩) (gblk m c ⟨n + 1, hn⟩) k0_pay8,
        nextS (Pblk m c ⟨n + 1, hn⟩) (fblk m c ⟨n + 1, hn⟩) (gblk m c ⟨n + 1, hn⟩) k0_pay9)
    else
      (nextA (fblk m c ⟨n + 1, hn⟩) (gblk m c ⟨n + 1, hn⟩) (accAt c n (Nat.lt_of_succ_lt hn)).1,
        nextV (fblk m c ⟨n + 1, hn⟩) (gblk m c ⟨n + 1, hn⟩) (accAt c n (Nat.lt_of_succ_lt hn)).2.1,
        nextS (Pblk m c ⟨n + 1, hn⟩) (fblk m c ⟨n + 1, hn⟩) (gblk m c ⟨n + 1, hn⟩) (accAt c n (Nat.lt_of_succ_lt hn)).2.2)

/-- At a core's first step: the contribution over zero. -/
theorem accAt_reset (c : Dev nD) (t : Fin cfg0.N) (h : t.val % 24 = 0) :
    accAt m c t.val t.isLt = (nextA (fblk m c t) (gblk m c t) k0_pay7, nextV (fblk m c t) (gblk m c t) k0_pay8,
      nextS (Pblk m c t) (fblk m c t) (gblk m c t) k0_pay9) := by
  obtain ⟨n, hn⟩ := t
  cases n with
  | zero => rfl
  | succ n => exact if_pos h

/-- At any other step: the contribution over what the point before left. -/
theorem accAt_step (c : Dev nD) (t : Fin cfg0.N) (h : ¬ t.val % 24 = 0) :
    accAt m c t.val t.isLt
      = (nextA (fblk m c t) (gblk m c t) (accAt m c (t.val - 1) (Nat.lt_of_le_of_lt (Nat.sub_le _ _) t.isLt)).1,
        nextV (fblk m c t) (gblk m c t) (accAt m c (t.val - 1) (Nat.lt_of_le_of_lt (Nat.sub_le _ _) t.isLt)).2.1,
        nextS (Pblk m c t) (fblk m c t) (gblk m c t) (accAt m c (t.val - 1) (Nat.lt_of_le_of_lt (Nat.sub_le _ _) t.isLt)).2.2) := by
  obtain ⟨n, hn⟩ := t
  cases n with
  | zero => exact absurd (Nat.zero_mod _) h
  | succ n => exact if_neg h

/-! ## The invariant between points -/

/-- The three accumulators' scratch memrefs. -/
abbrev scA : Memref sig .tc .vmem S2x32x32 .f32 := Memref.whole cc0_scratch0
abbrev scV : Memref sig .tc .vmem S2x32 .f32 := Memref.whole cc0_scratch1
abbrev scS : Memref sig .tc .vmem S2x1 .f32 := Memref.whole cc0_scratch2

/-- Before the first point the scratch holds anything; before point `n + 1` it holds what point `n` left. The generator
    register rides along at some state. -/
def PhiS (c : Dev nD) : (n : ℕ) → n ≤ cfg0.N → sProp 𝕄
  | 0, _ => Pipeline.ΦA spec0 c
  | n + 1, hn => iprop(owns (c : Thread nD τ) scA fullShare (accAt m c n hn).1 ∗ owns (c : Thread nD τ) scV fullShare (accAt m c n hn).2.1
      ∗ owns (c : Thread nD τ) scS fullShare (accAt m c n hn).2.2 ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scA fullShare (accAt m c n hn).1 ∗ owns (c : Thread nD τ) scV fullShare (accAt m c n hn).2.1
      ∗ owns (c : Thread nD τ) scS fullShare (accAt m c n hn).2.2 ∗ (∃ r, prngReg c r)) := rfl

theorem PhiS_pos (c : Dev nD) (n : ℕ) (h : n ≤ cfg0.N) (hz : n ≠ 0) :
    PhiS m c n h = iprop(owns (c : Thread nD τ) scA fullShare (accAt m c (n - 1) (by omega)).1 ∗ owns (c : Thread nD τ) scV fullShare (accAt m c (n - 1) (by omega)).2.1
      ∗ owns (c : Thread nD τ) scS fullShare (accAt m c (n - 1) (by omega)).2.2 ∗ (∃ r, prngReg c r)) := by
  cases n with
  | zero => exact absurd rfl hz
  | succ n => rfl

/-- The class's invariant with the scratch as memrefs owned at some contents. -/
theorem PhiA_eq (c : Dev nD) :
    (Pipeline.ΦA spec0 c : sProp 𝕄)
      = iprop(iprop((∃ d, owns (c : Thread nD τ) scA fullShare d) ∗ (∃ d, owns (c : Thread nD τ) scV fullShare d) ∗ (∃ d, owns (c : Thread nD τ) scS fullShare d)) ∗ (∃ r, prngReg c r)) := by
  unfold Pipeline.ΦA; rw [scopedRest0_eq]; simp only [scA, scV, scS, owns_whole]; try rfl

/-! ## The proof data -/

/-- The arrays as the region finds them; after the body each input block in place and each output block at the copy
    of its accumulator; the invariant; the two windows on the flattened logits each at half its share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay4 (accAt m c t.val t.isLt).1
    | ⟨4, _⟩ => k0_pay5 (accAt m c t.val t.isLt).2.1
    | ⟨5, _⟩ => k0_pay6 (accAt m c t.val t.isLt).2.2
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay4 (accAt m c t.val t.isLt).1 := by dsimp only [dats]
theorem after_4 (c : Dev nD) (t : Fin cfg0.N) : (dats m 0 c).after 4 t = k0_pay5 (accAt m c t.val t.isLt).2.1 := by dsimp only [dats]
theorem after_5 (c : Dev nD) (t : Fin cfg0.N) : (dats m 0 c).after 5 t = k0_pay6 (accAt m c t.val t.isLt).2.2 := by dsimp only [dats]

end Cert.KernelIdeal.Frame

end
-- ==== Proof.FrameBody.lean ====
/-
  The body obligation of the fused kernel's pipeline: at every grid point the body, handed the invariant and each
  window's current staging buffer at what the pipeline put there, runs to the next point's invariant with each buffer
  at what the proof data says it leaves. The point's step decides the control case: step 0 resets the accumulators,
  step 23 also writes the three output blocks, the steps between only accumulate.
-/
import proofs.«409875_j8435315769968_3_alg».proof.Proof.FrameData

set_option maxRecDepth 16384

noncomputable section

namespace Cert.KernelIdeal.Frame

open Cert.KernelIdeal Cert.KernelIdeal.Gen Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions, decided over the grid -/

/-- The reset condition holds exactly at the points that are a core's first step. -/
theorem hcondReset : ∀ t : Fin cfg0.N, condReset (grid0.coords t) ↔ t.val % 24 = 0 :=
  (by decide +kernel : ∀ t : Fin grid0.N, condReset (grid0.coords t) ↔ t.val % 24 = 0)

/-- The write-out condition holds exactly at the points that are a core's last step. -/
theorem hcondLast : ∀ t : Fin cfg0.N, condLast (grid0.coords t) ↔ t.val % 24 = 23 :=
  (by decide +kernel : ∀ t : Fin grid0.N, condLast (grid0.coords t) ↔ t.val % 24 = 23)

/-! ## What the body finds in the input windows -/

/-- Each input window's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## Where the output windows are idle -/

/-- Away from a core's last step the three output windows are idle and not written back; at the last step they are live. -/
theorem idleAt_3 : ∀ t : Fin cfg0.N, ¬ t.val % 24 = 23 → cfg0.idle 3 (grid0.coords t) = true := by decide +kernel
theorem idleAt_4 : ∀ t : Fin cfg0.N, ¬ t.val % 24 = 23 → cfg0.idle 4 (grid0.coords t) = true := by decide +kernel
theorem idleAt_5 : ∀ t : Fin cfg0.N, ¬ t.val % 24 = 23 → cfg0.idle 5 (grid0.coords t) = true := by decide +kernel
theorem liveAt_3 : ∀ t : Fin cfg0.N, t.val % 24 = 23 → cfg0.idle 3 (grid0.coords t) = false := by decide +kernel
theorem liveAt_4 : ∀ t : Fin cfg0.N, t.val % 24 = 23 → cfg0.idle 4 (grid0.coords t) = false := by decide +kernel
theorem liveAt_5 : ∀ t : Fin cfg0.N, t.val % 24 = 23 → cfg0.idle 5 (grid0.coords t) = false := by decide +kernel
theorem noFlush_3 (t : Fin cfg0.N) (h : ¬ t.val % 24 = 23) : (cfg0.win 3).flush t = false :=
  Bool.eq_false_iff.mpr fun hf => h ((flush0_3 t).mp hf)
theorem noFlush_4 (t : Fin cfg0.N) (h : ¬ t.val % 24 = 23) : (cfg0.win 4).flush t = false :=
  Bool.eq_false_iff.mpr fun hf => h ((flush0_4 t).mp hf)
theorem noFlush_5 (t : Fin cfg0.N) (h : ¬ t.val % 24 = 23) : (cfg0.win 5).flush t = false :=
  Bool.eq_false_iff.mpr fun hf => h ((flush0_5 t).mp hf)

/-! ## The body at a point -/

/-- Each window's current staging memref at point `t`, and its wholeness. -/
abbrev ms0 (t : Fin cfg0.N) : Memref sig .tc .vmem S2x32x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x32x9216 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x32x9216 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2x32x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2x32 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2x1 .f32 := win0_5.stage (cfg0.slots t 5)
abbrev hs5 (t : Fin cfg0.N) : (ms5 t).IsWhole := hstage0_5 ((cfg0.slots t 5).cast nbuf0_5)

/-- What the body is called with at point `t`: the invariant, what is owed, and the six windows' current buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
/-- A middle step: the accumulators go from what the point before left to this point's; the output windows' buffers,
    idle here, are handed back as found. -/
theorem sound_mid (c : Dev nD) (t : Fin cfg0.N) (h0 : ¬ t.val % 24 = 0) (h1 : ¬ t.val % 24 = 23) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  have hz : t.val ≠ 0 := fun e => h0 (by rw [e])
  rw [PhiS_castSucc m c t, PhiS_pos m c _ _ hz]
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  rw [Dat.leavesExact_idle (dats m 0 c) 3 t (idleAt_3 t h1) (noFlush_3 t h1)]
  rw [Dat.leavesExact_idle (dats m 0 c) 4 t (idleAt_4 t h1) (noFlush_4 t h1)]
  rw [Dat.leavesExact_idle (dats m 0 c) 5 t (idleAt_5 t h1) (noFlush_5 t h1)]
  rw [accAt_step m c t h0]
  iintro ⟨⟨HA, HV, HS, Hg⟩, Ho, ⟨%d0, H0⟩, ⟨%d1, H1⟩, ⟨%d2, H2⟩, H3, H4, H5⟩
  iapply (run_mid c (grid0.coords t) (ms0 t) (hs0 t) (ms1 t) (hs1 t) (ms2 t) (hs2 t) (ms3 t) (hs3 t) (ms4 t) (hs4 t) (ms5 t) (hs5 t)
      scA (Memref.isWhole_whole _) scV (Memref.isWhole_whole _) scS (Memref.isWhole_whole _)
    (fun h => h0 ((hcondReset t).mp h)) (fun h => h1 ((hcondLast t).mp h)) (Pblk m c t) (fblk m c t) (gblk m c t)
    (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2 Set.univ _)
  isplitl [H0]; · iexact H0
  isplitl [H1]; · iexact H1
  isplitl [H2]; · iexact H2
  isplitl [HA]; · iexact HA
  isplitl [HV]; · iexact HV
  isplitl [HS]; · iexact HS
  iintro ⟨H0, H1, H2, HA, HV, HS⟩
  isplitl [HA HV HS Hg]
  · isplitl [HA]; · iexact HA
    isplitl [HV]; · iexact HV
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 4800000 in
/-- A core's first step: whatever the accumulators held (anything before the first point, the previous core's last
    sums afterwards) is reset, and they end at the step's contribution over zero; the output windows are idle. -/
theorem sound_reset (c : Dev nD) (t : Fin cfg0.N) (h0 : t.val % 24 = 0) (h1 : ¬ t.val % 24 = 23) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  rw [Dat.leavesExact_idle (dats m 0 c) 3 t (idleAt_3 t h1) (noFlush_3 t h1)]
  rw [Dat.leavesExact_idle (dats m 0 c) 4 t (idleAt_4 t h1) (noFlush_4 t h1)]
  rw [Dat.leavesExact_idle (dats m 0 c) 5 t (idleAt_5 t h1) (noFlush_5 t h1)]
  rw [accAt_reset m c t h0]
  by_cases hz : t.val = 0
  · rw [PhiS_castSucc m c t, PhiS_zero m c _ _ hz, PhiA_eq]
    iintro ⟨⟨⟨HA, HV, HS⟩, Hg⟩, Ho, ⟨%d0, H0⟩, ⟨%d1, H1⟩, ⟨%d2, H2⟩, H3, H4, H5⟩
    iapply (run_reset c (grid0.coords t) (ms0 t) (hs0 t) (ms1 t) (hs1 t) (ms2 t) (hs2 t) (ms3 t) (hs3 t) (ms4 t) (hs4 t) (ms5 t) (hs5 t)
      scA (Memref.isWhole_whole _) scV (Memref.isWhole_whole _) scS (Memref.isWhole_whole _)
      ((hcondReset t).mpr h0) (fun h => h1 ((hcondLast t).mp h)) (Pblk m c t) (fblk m c t) (gblk m c t) Set.univ _)
    isplitl [H0]; · iexact H0
    isplitl [H1]; · iexact H1
    isplitl [H2]; · iexact H2
    isplitl [HA]; · iexact HA
    isplitl [HV]; · iexact HV
    isplitl [HS]; · iexact HS
    iintro ⟨H0, H1, H2, HA, HV, HS⟩
    isplitl [HA HV HS Hg]
    · isplitl [HA]; · iexact HA
      isplitl [HV]; · iexact HV
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_castSucc m c t, PhiS_pos m c _ _ hz]
    iintro ⟨⟨HA, HV, HS, Hg⟩, Ho, ⟨%d0, H0⟩, ⟨%d1, H1⟩, ⟨%d2, H2⟩, H3, H4, H5⟩
    iapply (run_reset c (grid0.coords t) (ms0 t) (hs0 t) (ms1 t) (hs1 t) (ms2 t) (hs2 t) (ms3 t) (hs3 t) (ms4 t) (hs4 t) (ms5 t) (hs5 t)
      scA (Memref.isWhole_whole _) scV (Memref.isWhole_whole _) scS (Memref.isWhole_whole _)
      ((hcondReset t).mpr h0) (fun h => h1 ((hcondLast t).mp h)) (Pblk m c t) (fblk m c t) (gblk m c t) Set.univ _)
    isplitl [H0]; · iexact H0
    isplitl [H1]; · iexact H1
    isplitl [H2]; · iexact H2
    isplitl [HA]; · iexists _; iexact HA
    isplitl [HV]; · iexists _; iexact HV
    isplitl [HS]; · iexists _; iexact HS
    iintro ⟨H0, H1, H2, HA, HV, HS⟩
    isplitl [HA HV HS Hg]
    · isplitl [HA]; · iexact HA
      isplitl [HV]; · iexact HV
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

set_option maxHeartbeats 4800000 in
/-- A core's last step: the accumulators go to this point's sums and the three output windows' buffers, live here,
    end at the copies of them. -/
theorem sound_last (c : Dev nD) (t : Fin cfg0.N) (h0 : ¬ t.val % 24 = 0) (h1 : t.val % 24 = 23) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  have hz : t.val ≠ 0 := fun e => h0 (by rw [e])
  rw [PhiS_castSucc m c t, PhiS_pos m c _ _ hz]
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  rw [show (dats m 0 c).leavesExact 3 t = owns (c : Thread nD τ) (ms3 t) fullShare ((dats m 0 c).after 3 t) from by
    unfold Dat.leavesExact; rw [liveAt_3 t h1], after_3]
  rw [show (dats m 0 c).leavesExact 4 t = owns (c : Thread nD τ) (ms4 t) fullShare ((dats m 0 c).after 4 t) from by
    unfold Dat.leavesExact; rw [liveAt_4 t h1], after_4]
  rw [show (dats m 0 c).leavesExact 5 t = owns (c : Thread nD τ) (ms5 t) fullShare ((dats m 0 c).after 5 t) from by
    unfold Dat.leavesExact; rw [liveAt_5 t h1], after_5]
  rw [accAt_step m c t h0]
  iintro ⟨⟨HA, HV, HS, Hg⟩, Ho, ⟨%d0, H0⟩, ⟨%d1, H1⟩, ⟨%d2, H2⟩, ⟨%d3, H3⟩, ⟨%d4, H4⟩, ⟨%d5, H5⟩⟩
  iapply (run_last c (grid0.coords t) (ms0 t) (hs0 t) (ms1 t) (hs1 t) (ms2 t) (hs2 t) (ms3 t) (hs3 t) (ms4 t) (hs4 t) (ms5 t) (hs5 t)
      scA (Memref.isWhole_whole _) scV (Memref.isWhole_whole _) scS (Memref.isWhole_whole _)
    (fun h => h0 ((hcondReset t).mp h)) ((hcondLast t).mpr h1) (Pblk m c t) (fblk m c t) (gblk m c t)
    (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2 Set.univ _)
  isplitl [H0]; · iexact H0
  isplitl [H1]; · iexact H1
  isplitl [H2]; · iexact H2
  isplitl [HA]; · iexact HA
  isplitl [HV]; · iexact HV
  isplitl [HS]; · iexact HS
  isplitl [H3]; · iexists _; iexact H3
  isplitl [H4]; · iexists _; iexact H4
  isplitl [H5]; · iexists _; iexact H5
  iintro ⟨H0, H1, H2, HA, HV, HS, H3, H4, H5⟩
  isplitl [HA HV HS Hg]
  · isplitl [HA]; · iexact HA
    isplitl [HV]; · iexact HV
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at any point, by its step: the first of a core, the last, or one between (a core has 24 steps, so no
    step is both first and last). -/
theorem sound_body (c : Dev nD) (t : Fin cfg0.N) :
    bodyPre m c t ⊢ wp frame (wpE (defs₀ (F := F)) Variants.none c none) Set.univ (bodyAt0 t) (fun _ => bodyPost m c t) := by
  by_cases h0 : t.val % 24 = 0
  · exact sound_reset m c t h0 (by omega)
  · by_cases h1 : t.val % 24 = 23
    · exact sound_last m c t h0 h1
    · exact sound_mid m c t h0 h1

/-! ## The obligation -/

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the accumulators' named contents are forgotten. -/
theorem hout (c : Dev nD) : (dats m 0 c).Φ (Fin.last cfg0.N) ⊢ Pipeline.ΦA spec0 c := by
  have hN : (Fin.last cfg0.N).val ≠ 0 := by rw [Fin.val_last]; have : cfg0.N = 48 := N_0; omega
  rw [show (dats m 0 c).Φ (Fin.last cfg0.N) = PhiS m c (Fin.last cfg0.N).val (Nat.le_of_lt_succ (Fin.last cfg0.N).isLt) from rfl,
    PhiS_pos m c _ _ hN, PhiA_eq]
  iintro ⟨HA, HV, HS, Hg⟩
  isplitl [HA HV HS]
  · isplitl [HA]
    · iexists _; iexact HA
    isplitl [HV]
    · iexists _; iexact HV
    iexists _; iexact HS
  iexact Hg

end Cert.KernelIdeal.Frame

end
-- ==== Proof.FrameLaunch.lean ====
/-
  The launch of the fused kernel's program: @main is three stretches of host operations (the reshape of the logits,
  the 0/1 matrix of the channel words, its broadcast), the kernel region, and nine stretches of host operations that
  turn the region's three results into the scalar loss. Two of the region's windows read ONE array (the flattened
  logits), each holding half of it; the operations after the region touch neither that array nor the permutation
  matrix, so they run beside them and the two halves are never put back together.
-/
import proofs.«409875_j8435315769968_3_alg».proof.Proof.FrameData

set_option maxRecDepth 16384

noncomputable section

namespace Cert.KernelIdeal.Frame

open Cert.KernelIdeal Cert.KernelIdeal.Gen Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is left, and at the end -/

/-- The core's unscoped buffers when the region is left: as the region found them, the three result arrays at what
    the pipeline wrote back. -/
def Wexit (c : Dev nD) : Valuation τ sig (Elt F) :=
  Function.update (Function.update (Function.update (V0 m c)
    (Proc.devRef .tc main_v4_0) ((dats m 0 c).arrAt 3 cfg0.N))
    (Proc.devRef .tc main_v4_1) ((dats m 0 c).arrAt 4 cfg0.N))
    (Proc.devRef .tc main_v4_2) ((dats m 0 c).arrAt 5 cfg0.N)

/-- And when @main returns: the operations after the region have run. -/
def Wfin (c : Dev nD) : Valuation τ sig (Elt F) := StableHlo.after (List.flatten (tailOps (F := F))) (Wexit m c)

theorem Wexit_v4_0 (c : Dev nD) : Wexit m c (Proc.devRef .tc main_v4_0) = (dats m 0 c).arrAt 3 cfg0.N := by
  unfold Wexit
  rw [Function.update_of_ne (StableHlo.devRef_ne_of_ne (by decide)), Function.update_of_ne (StableHlo.devRef_ne_of_ne (by decide)),
    Function.update_self]
theorem Wexit_v4_1 (c : Dev nD) : Wexit m c (Proc.devRef .tc main_v4_1) = (dats m 0 c).arrAt 4 cfg0.N := by
  unfold Wexit
  rw [Function.update_of_ne (StableHlo.devRef_ne_of_ne (by decide)), Function.update_self]
theorem Wexit_v4_2 (c : Dev nD) : Wexit m c (Proc.devRef .tc main_v4_2) = (dats m 0 c).arrAt 5 cfg0.N := by
  unfold Wexit
  rw [Function.update_self]
theorem Wexit_of_ne (c : Dev nD) (b : Ref sig .tc) (h0 : b ≠ main_v4_0) (h1 : b ≠ main_v4_1) (h2 : b ≠ main_v4_2) :
    Wexit m c (Proc.devRef .tc b) = V0 m c (Proc.devRef .tc b) := by
  unfold Wexit
  rw [Function.update_of_ne (StableHlo.devRef_ne_of_ne h2), Function.update_of_ne (StableHlo.devRef_ne_of_ne h1),
    Function.update_of_ne (StableHlo.devRef_ne_of_ne h0)]

/-! ## @main around the region -/

/-- The stretches before the region allocate nothing. -/
theorem pre_fresh : ([hostOps0, hostOps0_1, hostOps0_2] : List (List (HloOp τ sig (Elt F)))).Forall fun ops => ops.Forall fun op => op.fresh = ∅ := by
  simp only [List.Forall]; repeat' constructor

/-- @main is three stretches of host operations, the region, nine stretches: it reduces to the region continued by
    the nine, at the contents after the three. -/
theorem hmain : Pipeline.HMainK (Ix := Unit) (Name := ℕ) (U := UR sig nD τ) (Lvl := ℕ) cfgs 0 defs₀ Variants.none m (main (F := F)) (V m)
      (fun _ => Pipeline.chain ((tailOps (F := F)).map StableHlo.seq)) :=
  Pipeline.hmain_around cfgs 0 defs₀ Variants.none m main [hostOps0, hostOps0_1, hostOps0_2] tailOps
    ⟨hostOps0_sub, hostOps0_1_sub, hostOps0_2_sub⟩ pre_fresh main_chain

/-! ## The arrays when the region is entered -/

/-- The five buffers behind the six windows' arrays. -/
theorem arrImage : Finset.univ.image (Pipeline.arrRef spec0) = [main_v3, main_v0, main_v4_0, main_v4_1, main_v4_2].toFinset := by decide

/-- A conjunction over them, one by one. -/
theorem bigSep_arrs {M : Type} [URA M] (Φ : Ref sig .tc → sProp M) :
    bigSep (Finset.univ.image (Pipeline.arrRef spec0)) Φ = iprop(Φ main_v3 ∗ Φ main_v0 ∗ Φ main_v4_0 ∗ Φ main_v4_1 ∗ Φ main_v4_2) :=
  bigSep_eq_bigSepL_of_eq [main_v3, main_v0, main_v4_0, main_v4_1, main_v4_2] arrImage (by decide) Φ

/-- A whole buffer at the full share is its left and its right half. -/
theorem halves (c : Dev nD) (b : Ref sig .tc) (f : Buf (Elt F) ((c.tc : Thread nD τ).loc b)) :
    ((((c.tc : Thread nD τ).loc b) ↦{fullShare} f) : sProp 𝕄)
      ⊢ iprop((((c.tc : Thread nD τ).loc b) ↦{fullShare.left} f) ∗ (((c.tc : Thread nD τ).loc b) ↦{fullShare.right} f)) :=
  (pointsTo_share (PosShare.mem_left_op_right fullShare)).1

/-- The launch hands the pipeline five whole buffers; the six windows hold the permutation matrix, the LEFT and the
    RIGHT half of the flattened logits, and the three result arrays. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_arrs, bigSep_W0]
  rw [(arr_whole0 0).set_eq_univ, (arr_whole0 1).set_eq_univ, (arr_whole0 3).set_eq_univ,
    (arr_whole0 4).set_eq_univ, (arr_whole0 5).set_eq_univ]
  iintro ⟨H3, H0, R0, R1, R2⟩
  ihave H0' := (halves c main_v0 _) $$ H0
  icases H0' with ⟨Hl, Hr⟩
  isplitl [H3]; · iexact H3
  isplitl [Hl]; · iexact Hl
  isplitl [Hr]; · iexact Hr
  isplitl [R0]; · iexact R0
  isplitl [R1]; · iexact R1
  iexact R2

/-! ## The operations after the region -/

/-- What holds of every operation after the region: it allocates nothing, touches neither the flattened logits nor the
    permutation matrix, and writes none of the three result arrays. -/
abbrev Apart (op : HloOp τ sig (Elt F)) : Prop :=
  op.fresh = ∅ ∧ Proc.devRef .tc main_v0 ∉ op.bufs ∧ Proc.devRef .tc main_v3 ∉ op.bufs
    ∧ Proc.devRef .tc main_v4_0 ∉ op.writes ∧ Proc.devRef .tc main_v4_1 ∉ op.writes ∧ Proc.devRef .tc main_v4_2 ∉ op.writes

theorem apart1 : (hostOps1 : List (HloOp τ sig (Elt F))).Forall Apart := by
  simp only [List.Forall]
  repeat' constructor
  all_goals
    simp only [StableHlo.nullary_bufs, StableHlo.unary_bufs, StableHlo.binary_bufs, StableHlo.ternary_bufs, StableHlo.reshape_bufs,
      StableHlo.nullary_writes, StableHlo.unary_writes, StableHlo.binary_writes, StableHlo.ternary_writes, StableHlo.reshape_writes,
      Finset.mem_insert, Finset.mem_singleton, not_or]
    repeat' constructor
    all_goals exact StableHlo.devRef_ne_of_ne (by decide)

theorem apart1_1 : (hostOps1_1 : List (HloOp τ sig (Elt F))).Forall Apart := by
  simp only [List.Forall]
  repeat' constructor
  all_goals
    simp only [StableHlo.nullary_bufs, StableHlo.unary_bufs, StableHlo.binary_bufs, StableHlo.ternary_bufs, StableHlo.reshape_bufs,
      StableHlo.nullary_writes, StableHlo.unary_writes, StableHlo.binary_writes, StableHlo.ternary_writes, StableHlo.reshape_writes,
      Finset.mem_insert, Finset.mem_singleton, not_or]
    repeat' constructor
    all_goals exact StableHlo.devRef_ne_of_ne (by decide)

theorem apart1_2 : (hostOps1_2 : List (HloOp τ sig (Elt F))).Forall Apart := by
  simp only [List.Forall]
  repeat' constructor
  all_goals
    simp only [StableHlo.nullary_bufs, StableHlo.unary_bufs, StableHlo.binary_bufs, StableHlo.ternary_bufs, StableHlo.reshape_bufs,
      StableHlo.nullary_writes, StableHlo.unary_writes, StableHlo.binary_writes, StableHlo.ternary_writes, StableHlo.reshape_writes,
      Finset.mem_insert, Finset.mem_singleton, not_or]
    repeat' constructor
    all_goals exact StableHlo.devRef_ne_of_ne (by decide)

theorem apart1_3 : (hostOps1_3 : List (HloOp τ sig (Elt F))).Forall Apart := by
  simp only [List.Forall]
  repeat' constructor
  all_goals
    simp only [StableHlo.nullary_bufs, StableHlo.unary_bufs, StableHlo.binary_bufs, StableHlo.ternary_bufs, StableHlo.reshape_bufs,
      StableHlo.nullary_writes, StableHlo.unary_writes, StableHlo.binary_writes, StableHlo.ternary_writes, StableHlo.reshape_writes,
      Finset.mem_insert, Finset.mem_singleton, not_or]
    repeat' constructor
    all_goals exact StableHlo.devRef_ne_of_ne (by decide)

theorem apart1_4 : (hostOps1_4 : List (HloOp τ sig (Elt F))).Forall Apart := by
  simp only [List.Forall]
  repeat' constructor
  all_goals
    simp only [StableHlo.nullary_bufs, StableHlo.unary_bufs, StableHlo.binary_bufs, StableHlo.ternary_bufs, StableHlo.reshape_bufs,
      StableHlo.nullary_writes, StableHlo.unary_writes, StableHlo.binary_writes, StableHlo.ternary_writes, StableHlo.reshape_writes,
      Finset.mem_insert, Finset.mem_singleton, not_or]
    repeat' constructor
    all_goals exact StableHlo.devRef_ne_of_ne (by decide)

theorem apart1_5 : (hostOps1_5 : List (HloOp τ sig (Elt F))).Forall Apart := by
  simp only [List.Forall]
  repeat' constructor
  all_goals
    simp only [StableHlo.nullary_bufs, StableHlo.unary_bufs, StableHlo.binary_bufs, StableHlo.ternary_bufs, StableHlo.reshape_bufs,
      StableHlo.nullary_writes, StableHlo.unary_writes, StableHlo.binary_writes, StableHlo.ternary_writes, StableHlo.reshape_writes,
      Finset.mem_insert, Finset.mem_singleton, not_or]
    repeat' constructor
    all_goals exact StableHlo.devRef_ne_of_ne (by decide)

theorem apart1_6 : (hostOps1_6 : List (HloOp τ sig (Elt F))).Forall Apart := by
  simp only [List.Forall]
  repeat' constructor
  all_goals
    simp only [StableHlo.nullary_bufs, StableHlo.unary_bufs, StableHlo.binary_bufs, StableHlo.ternary_bufs, StableHlo.reshape_bufs,
      StableHlo.nullary_writes, StableHlo.unary_writes, StableHlo.binary_writes, StableHlo.ternary_writes, StableHlo.reshape_writes,
      Finset.mem_insert, Finset.mem_singleton, not_or]
    repeat' constructor
    all_goals exact StableHlo.devRef_ne_of_ne (by decide)

theorem apart1_7 : (hostOps1_7 : List (HloOp τ sig (Elt F))).Forall Apart := by
  simp only [List.Forall]
  repeat' constructor
  all_goals
    simp only [StableHlo.nullary_bufs, StableHlo.unary_bufs, StableHlo.binary_bufs, StableHlo.ternary_bufs, StableHlo.reshape_bufs,
      StableHlo.nullary_writes, StableHlo.unary_writes, StableHlo.binary_writes, StableHlo.ternary_writes, StableHlo.reshape_writes,
      Finset.mem_insert, Finset.mem_singleton, not_or]
    repeat' constructor
    all_goals exact StableHlo.devRef_ne_of_ne (by decide)

theorem apart1_8 : (hostOps1_8 : List (HloOp τ sig (Elt F))).Forall Apart := by
  simp only [List.Forall]
  repeat' constructor
  all_goals
    simp only [StableHlo.nullary_bufs, StableHlo.unary_bufs, StableHlo.binary_bufs, StableHlo.ternary_bufs, StableHlo.reshape_bufs,
      StableHlo.nullary_writes, StableHlo.unary_writes, StableHlo.binary_writes, StableHlo.ternary_writes, StableHlo.reshape_writes,
      Finset.mem_insert, Finset.mem_singleton, not_or]
    repeat' constructor
    all_goals exact StableHlo.devRef_ne_of_ne (by decide)

/-- Of every operation of the nine stretches. -/
theorem tail_apart : ∀ ops ∈ (tailOps (F := F)), ∀ op ∈ ops, Apart op := by
  have h : (tailOps (F := F)).Forall fun ops => ops.Forall Apart :=
    ⟨apart1, apart1_1, apart1_2, apart1_3, apart1_4, apart1_5, apart1_6, apart1_7, apart1_8⟩
  exact fun ops hops => List.forall_iff_forall_mem.mp (List.forall_iff_forall_mem.mp h ops hops)

/-- Each touches TensorCore references only. -/
theorem tail_tc : ∀ ops ∈ (tailOps (F := F)), ∀ op ∈ ops, op.bufs ⊆ StableHlo.tcRefs τ sig := by
  have h : (tailOps (F := F)).Forall fun ops => ops.Forall fun op => op.bufs ⊆ StableHlo.tcRefs τ sig :=
    ⟨hostOps1_sub, hostOps1_1_sub, hostOps1_2_sub, hostOps1_3_sub, hostOps1_4_sub, hostOps1_5_sub, hostOps1_6_sub, hostOps1_7_sub, hostOps1_8_sub⟩
  exact fun ops hops => List.forall_iff_forall_mem.mp (List.forall_iff_forall_mem.mp h ops hops)

/-- The references the nine stretches run within: the buffers that bypass the region and the three result arrays. -/
abbrev tailT : Finset (Ref sig .tc) := Pipeline.restRefs sig spec0 ∪ {main_v4_0, main_v4_1, main_v4_2}
/-- The same as device buffers. -/
abbrev tailS : Finset (DevRef τ sig) := tailT.map ⟨Proc.devRef (sig := sig) .tc, Proc.devRef_injective _⟩

/-- An operation on TensorCore references that touches neither the flattened logits nor the permutation matrix runs
    within them: an unscoped reference is an array of the region (one of five) or bypasses it. -/
theorem sub_tailS (op : HloOp τ sig (Elt F)) (h₁ : op.bufs ⊆ StableHlo.tcRefs τ sig) (h : Apart op) : op.bufs ⊆ tailS := by
  intro b hb
  have hu : b ∈ Pipeline.ucRefs τ sig := Pipeline.sub_ucRefs op h₁ hb
  simp only [Pipeline.ucRefs, StableHlo.tcRefs, Finset.mem_filter, Finset.mem_map, Finset.mem_univ, true_and,
    Function.Embedding.coeFn_mk] at hu
  obtain ⟨⟨r, rfl⟩, hr⟩ := hu
  refine Finset.mem_map.mpr ⟨r, ?_, rfl⟩
  by_cases ha : r ∈ Finset.univ.image (Pipeline.arrRef spec0)
  · rw [arrImage] at ha
    simp only [List.toFinset_cons, List.toFinset_nil, insert_empty_eq, Finset.mem_insert, Finset.mem_singleton] at ha
    rcases ha with rfl | rfl | rfl | rfl | rfl
    · exact absurd hb h.2.2.1
    · exact absurd hb h.2.1
    · exact Finset.mem_union_right _ (by decide)
    · exact Finset.mem_union_right _ (by decide)
    · exact Finset.mem_union_right _ (by decide)
  · exact Finset.mem_union_left _ (Finset.mem_sdiff.mpr ⟨Finset.mem_filter.mpr ⟨Finset.mem_univ _, hr⟩, ha⟩)

/-- The nine stretches run within them, -/
theorem tail_sub : ∀ ops ∈ (tailOps (F := F)), ∀ op ∈ ops, op.bufs ⊆ tailS := fun ops hops op hop =>
  sub_tailS op (tail_tc ops hops op hop) (tail_apart ops hops op hop)
/-- allocating nothing. -/
theorem tail_fresh : ∀ ops ∈ (tailOps (F := F)), ∀ op ∈ ops, op.fresh = ∅ := fun ops hops op hop => (tail_apart ops hops op hop).1

/-- A buffer that bypasses the region is no window's array. -/
theorem ne_of_rest {b : Ref sig .tc} (hb : b ∈ Pipeline.restRefs sig spec0) (w : Fin 6) : b ≠ Pipeline.arrRef spec0 w :=
  fun e => (Finset.mem_sdiff.mp hb).2 (e ▸ Finset.mem_image.mpr ⟨w, Finset.mem_univ _, rfl⟩)

/-- Those buffers held at a valuation: the buffers that bypass the region, and the three result arrays. -/
theorem held_tailS (c : Dev nD) (W : Valuation τ sig (Elt F)) :
    (StableHlo.held (c.tc : Thread nD τ) tailS W : sProp 𝕄)
      = iprop(Pipeline.unscopedRest spec0 c (fun b => W (Proc.devRef .tc b))
          ∗ (((c.tc : Thread nD τ).loc main_v4_0) ↦{fullShare} W (Proc.devRef .tc main_v4_0))
          ∗ (((c.tc : Thread nD τ).loc main_v4_1) ↦{fullShare} W (Proc.devRef .tc main_v4_1))
          ∗ (((c.tc : Thread nD τ).loc main_v4_2) ↦{fullShare} W (Proc.devRef .tc main_v4_2))) := by
  have hdisj : Disjoint (Pipeline.restRefs sig spec0) ({main_v4_0, main_v4_1, main_v4_2} : Finset (Ref sig .tc)) :=
    Finset.disjoint_left.mpr fun b hb hr => by
      simp only [Finset.mem_insert, Finset.mem_singleton] at hr
      rcases hr with rfl | rfl | rfl
      · exact ne_of_rest hb 3 rfl
      · exact ne_of_rest hb 4 rfl
      · exact ne_of_rest hb 5 rfl
  unfold StableHlo.held Pipeline.unscopedRest
  rw [bigSep_map, bigSep_union hdisj, bigSep_insert (by decide), bigSep_insert (by decide), bigSep_singleton]
  rfl

/-- The buffers that bypass the region hold at the region's exit what they held at its entry. -/
theorem rest_Wexit (c : Dev nD) :
    (Pipeline.unscopedRest spec0 c (fun b => Wexit m c (Proc.devRef .tc b)) : sProp 𝕄) = Pipeline.unscopedRest spec0 c (V m c) := by
  unfold Pipeline.unscopedRest
  exact bigSep_congr fun b hb => by beta_reduce; rw [Wexit_of_ne m c b (ne_of_rest hb 3) (ne_of_rest hb 4) (ne_of_rest hb 5)]

/-- No operation after the region writes a result array: each holds at the end what the pipeline wrote back. -/
theorem Wfin_v4_0 (c : Dev nD) : Wfin m c (Proc.devRef .tc main_v4_0) = (dats m 0 c).arrAt 3 cfg0.N := by
  unfold Wfin
  rw [StableHlo.after_of_forall_not_mem _ _ fun op hop => ?_, Wexit_v4_0]
  obtain ⟨ops, hops, hop⟩ := List.mem_flatten.mp hop
  exact (tail_apart ops hops op hop).2.2.2.1
theorem Wfin_v4_1 (c : Dev nD) : Wfin m c (Proc.devRef .tc main_v4_1) = (dats m 0 c).arrAt 4 cfg0.N := by
  unfold Wfin
  rw [StableHlo.after_of_forall_not_mem _ _ fun op hop => ?_, Wexit_v4_1]
  obtain ⟨ops, hops, hop⟩ := List.mem_flatten.mp hop
  exact (tail_apart ops hops op hop).2.2.2.2.1
theorem Wfin_v4_2 (c : Dev nD) : Wfin m c (Proc.devRef .tc main_v4_2) = (dats m 0 c).arrAt 5 cfg0.N := by
  unfold Wfin
  rw [StableHlo.after_of_forall_not_mem _ _ fun op hop => ?_, Wexit_v4_2]
  obtain ⟨ops, hops, hop⟩ := List.mem_flatten.mp hop
  exact (tail_apart ops hops op hop).2.2.2.2.2

/-- The pipeline's arrays window by window, the three result arrays as whole buffers at the full share. -/
theorem arrays_results (c : Dev nD) (G : (w : Fin cfg0.W) → Buf (Elt F) ((cfg0.win w).arr.view.loc (c.tc : Thread nD τ))) :
    ((dats m 0 c).arrays G : sProp 𝕄)
      = iprop(((cfg0.win 0).arr.view.loc (c.tc : Thread nD τ) ↦[(cfg0.win 0).arr.view.set]{(dats m 0 c).share 0} G 0)
          ∗ ((cfg0.win 1).arr.view.loc (c.tc : Thread nD τ) ↦[(cfg0.win 1).arr.view.set]{(dats m 0 c).share 1} G 1)
          ∗ ((cfg0.win 2).arr.view.loc (c.tc : Thread nD τ) ↦[(cfg0.win 2).arr.view.set]{(dats m 0 c).share 2} G 2)
          ∗ (((c.tc : Thread nD τ).loc main_v4_0) ↦{fullShare} G 3)
          ∗ (((c.tc : Thread nD τ).loc main_v4_1) ↦{fullShare} G 4)
          ∗ (((c.tc : Thread nD τ).loc main_v4_2) ↦{fullShare} G 5)) := by
  unfold Dat.arrays
  rw [bigSep_W0, (arr_whole0 3).set_eq_univ, (arr_whole0 4).set_eq_univ, (arr_whole0 5).set_eq_univ]
  rfl

set_option backward.isDefEq.respectTransparency.types false in
/-- THE OPERATIONS AFTER THE REGION. From the region's exit — the boundary, the six windows' holdings, the buffers that
    bypass the region — the nine stretches run within the bypassing buffers and the three result arrays, beside the two
    halves of the flattened logits and the permutation matrix, and hand the windows' holdings back unchanged. -/
theorem htail (c : Dev nD) (Q' : PUnit → sProp 𝕄) :
    iprop((iprop((dats m 0 c).arrays ((dats m 0 c).arrAt · cfg0.N) ∗ Pipeline.unscopedRest spec0 c (fun b => Wfin m c (Proc.devRef .tc b))) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun q => (cfgs q).toPCfg (Val := Elt F)) defs₀) (Variants.lift Variants.none) (c.tc : Thread nD τ) none) Set.univ
          (Pipeline.chain ((tailOps (F := F)).map StableHlo.seq)) Q' := by
  have hW : (StableHlo.held (c.tc : Thread nD τ) tailS (Wexit m c) : sProp 𝕄)
      = iprop(Pipeline.unscopedRest spec0 c (V m c)
          ∗ (((c.tc : Thread nD τ).loc main_v4_0) ↦{fullShare} (dats m 0 c).arrAt 3 cfg0.N)
          ∗ (((c.tc : Thread nD τ).loc main_v4_1) ↦{fullShare} (dats m 0 c).arrAt 4 cfg0.N)
          ∗ (((c.tc : Thread nD τ).loc main_v4_2) ↦{fullShare} (dats m 0 c).arrAt 5 cfg0.N)) := by
    rw [held_tailS, rest_Wexit, Wexit_v4_0, Wexit_v4_1, Wexit_v4_2]
  have hW' : (StableHlo.held (c.tc : Thread nD τ) tailS (StableHlo.after (List.flatten (tailOps (F := F))) (Wexit m c)) : sProp 𝕄)
      = iprop(Pipeline.unscopedRest spec0 c (fun b => Wfin m c (Proc.devRef .tc b))
          ∗ (((c.tc : Thread nD τ).loc main_v4_0) ↦{fullShare} (dats m 0 c).arrAt 3 cfg0.N)
          ∗ (((c.tc : Thread nD τ).loc main_v4_1) ↦{fullShare} (dats m 0 c).arrAt 4 cfg0.N)
          ∗ (((c.tc : Thread nD τ).loc main_v4_2) ↦{fullShare} (dats m 0 c).arrAt 5 cfg0.N)) := by
    rw [show StableHlo.after (List.flatten (tailOps (F := F))) (Wexit m c) = Wfin m c from rfl, held_tailS, Wfin_v4_0, Wfin_v4_1, Wfin_v4_2]
  rw [arrays_results, ← List.append_nil ((tailOps (F := F)).map StableHlo.seq)]
  iintro ⟨Hk, Hb, ⟨H0, H1, H2, H3, H4, H5⟩, HZ⟩
  iapply (Pipeline.wp_seqs_then (fun q => (cfgs q).toPCfg (Val := Elt F)) defs₀ Variants.none c tailS [] tailOps tail_sub tail_fresh (Wexit m c)) $$ [Hb HZ H3 H4 H5]
  · rw [hW]
    isplitl [Hb]; · iexact Hb
    isplitl [HZ]; · iexact HZ
    isplitl [H3]; · iexact H3
    isplitl [H4]; · iexact H4
    iexact H5
  iintro Hb
  rw [Pipeline.chain_nil, wp_pure, hW']
  imodintro
  iapply Hk
  icases Hb with ⟨-, HZ, H3, H4, H5⟩
  isplitr [HZ]
  · isplitl [H0]; · iexact H0
    isplitl [H1]; · iexact H1
    isplitl [H2]; · iexact H2
    isplitl [H3]; · iexact H3
    isplitl [H4]; · iexact H4
    iexact H5
  · iexact HZ

/-! ## The run -/

-- the launch theorem's implicit arguments are found by unifying its conclusion with this one, which takes unfolding plain
-- definitions in a metavariable's type
set_option backward.isDefEq.respectTransparency.types false in
/-- At the compiled mesh, from any memory with zero counters: every weakly fair execution of @main terminates, nothing
    faulting, and in every final state each unscoped buffer that is no array of the region holds what the operations
    after the region leave in it. -/
theorem run_main_of
    (hbody : ∀ c, Pipeline.BodyObligationLoose (dats (F := F) m 0 c) (defs₀ (F := F)) Variants.none () Set.univ)
    (hin : ∀ c, Pipeline.ΦA spec0 c ⊢ (dats m 0 c).Φ 0)
    (hout : ∀ c, (dats m 0 c).Φ (Fin.last cfg0.N) ⊢ Pipeline.ΦA spec0 c) :
    θ_run defs (onTc (τ := τ) (main (F := F))) ⟨m, fun _ => 0, ρ⟩ (fun r => ∀ c : Dev nD,
      ∀ b ∈ Pipeline.restRefs sig spec0, r.2.mem ((c : Thread nD τ).loc b) = Wfin m c (Proc.devRef .tc b)) := by
  refine Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain ((tailOps (F := F)).map StableHlo.seq)) hbody
    block_pos0 arr_whole0 stage_whole0 (fun _ _ => rfl)
    (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := ?hm)
    (hsplit := hsplit m)
    (hpf := fun _ k => k.elim0)
    (X := fun c => iprop(∃ r, prngReg c r)) (Y := fun c => iprop(∃ r, prngReg c r))
    (Z := fun c => Pipeline.unscopedRest spec0 c (V m c))
    (Z' := fun c => Pipeline.unscopedRest spec0 c (fun b => Wfin m c (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefs sig spec0, s.mem ((c.tc : Thread nD τ).loc b) = Wfin m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => Wfin m c (Proc.devRef .tc b)) s')
      isplitl [HU] <;> iassumption)
    (hQ := fun s h c => (h c).2.2)
  case hm =>
    -- the two statements differ by unreduced applications of the configuration family only: matched part by part
    intro c Q
    have h := hmain m c Q
    convert h using 4

end Cert.KernelIdeal.Frame

end
-- ==== Proof.FrameRun.lean ====
/-
  The fused kernel's program run to its end: every weakly fair execution terminates without a fault; the ten
  argument arrays end as they began (no host operation writes one, and none is an array of the region), and the
  result is what the operations after the region compute from the region's three result arrays.
-/
import proofs.«409875_j8435315769968_3_alg».proof.Proof.FrameBody
import proofs.«409875_j8435315769968_3_alg».proof.Proof.FrameLaunch

set_option maxRecDepth 16384

noncomputable section

namespace Cert.KernelIdeal.Frame

open Cert.KernelIdeal Cert.KernelIdeal.Gen Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

/-- The run, with the body obligation and the invariant's two ends supplied. -/
theorem run_main : θ_run defs (onTc (τ := τ) (main (F := F))) ⟨m, fun _ => 0, ρ⟩ (fun r => ∀ c : Dev nD,
      ∀ b ∈ Pipeline.restRefs sig spec0, r.2.mem ((c : Thread nD τ).loc b) = Wfin m c (Proc.devRef .tc b)) :=
  run_main_of m ρ (fun c => (body_obligation m c).loose) (hin m) (hout m)

/-! ## No host operation writes an argument -/

theorem V0_arg0 (c : Dev nD) : V0 m c (Proc.devRef .tc main_arg0) = m ((c : Thread nD τ).loc main_arg0) := by
  dsimp only [V0]
  simp only [hostOps0, hostOps0_1, hostOps0_2, List.flatten_cons, List.flatten_nil, List.append_nil, List.cons_append, List.nil_append]
  after_results_simp <;> rfl

set_option maxHeartbeats 4000000 in
theorem Wfin_arg0 (c : Dev nD) : Wfin m c (Proc.devRef .tc main_arg0) = m ((c : Thread nD τ).loc main_arg0) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg0 (by decide) (by decide) (by decide)).trans (V0_arg0 m c))

theorem V0_arg1 (c : Dev nD) : V0 m c (Proc.devRef .tc main_arg1) = m ((c : Thread nD τ).loc main_arg1) := by
  dsimp only [V0]
  simp only [hostOps0, hostOps0_1, hostOps0_2, List.flatten_cons, List.flatten_nil, List.append_nil, List.cons_append, List.nil_append]
  after_results_simp <;> rfl

set_option maxHeartbeats 4000000 in
theorem Wfin_arg1 (c : Dev nD) : Wfin m c (Proc.devRef .tc main_arg1) = m ((c : Thread nD τ).loc main_arg1) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg1 (by decide) (by decide) (by decide)).trans (V0_arg1 m c))

theorem V0_arg2 (c : Dev nD) : V0 m c (Proc.devRef .tc main_arg2) = m ((c : Thread nD τ).loc main_arg2) := by
  dsimp only [V0]
  simp only [hostOps0, hostOps0_1, hostOps0_2, List.flatten_cons, List.flatten_nil, List.append_nil, List.cons_append, List.nil_append]
  after_results_simp <;> rfl

set_option maxHeartbeats 4000000 in
theorem Wfin_arg2 (c : Dev nD) : Wfin m c (Proc.devRef .tc main_arg2) = m ((c : Thread nD τ).loc main_arg2) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg2 (by decide) (by decide) (by decide)).trans (V0_arg2 m c))

theorem V0_arg3 (c : Dev nD) : V0 m c (Proc.devRef .tc main_arg3) = m ((c : Thread nD τ).loc main_arg3) := by
  dsimp only [V0]
  simp only [hostOps0, hostOps0_1, hostOps0_2, List.flatten_cons, List.flatten_nil, List.append_nil, List.cons_append, List.nil_append]
  after_results_simp <;> rfl

set_option maxHeartbeats 4000000 in
theorem Wfin_arg3 (c : Dev nD) : Wfin m c (Proc.devRef .tc main_arg3) = m ((c : Thread nD τ).loc main_arg3) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg3 (by decide) (by decide) (by decide)).trans (V0_arg3 m c))

theorem V0_arg4 (c : Dev nD) : V0 m c (Proc.devRef .tc main_arg4) = m ((c : Thread nD τ).loc main_arg4) := by
  dsimp only [V0]
  simp only [hostOps0, hostOps0_1, hostOps0_2, List.flatten_cons, List.flatten_nil, List.append_nil, List.cons_append, List.nil_append]
  after_results_simp <;> rfl

set_option maxHeartbeats 4000000 in
theorem Wfin_arg4 (c : Dev nD) : Wfin m c (Proc.devRef .tc main_arg4) = m ((c : Thread nD τ).loc main_arg4) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg4 (by decide) (by decide) (by decide)).trans (V0_arg4 m c))

theorem V0_arg5 (c : Dev nD) : V0 m c (Proc.devRef .tc main_arg5) = m ((c : Thread nD τ).loc main_arg5) := by
  dsimp only [V0]
  simp only [hostOps0, hostOps0_1, hostOps0_2, List.flatten_cons, List.flatten_nil, List.append_nil, List.cons_append, List.nil_append]
  after_results_simp <;> rfl

set_option maxHeartbeats 4000000 in
theorem Wfin_arg5 (c : Dev nD) : Wfin m c (Proc.devRef .tc main_arg5) = m ((c : Thread nD τ).loc main_arg5) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg5 (by decide) (by decide) (by decide)).trans (V0_arg5 m c))

theorem V0_arg6 (c : Dev nD) : V0 m c (Proc.devRef .tc main_arg6) = m ((c : Thread nD τ).loc main_arg6) := by
  dsimp only [V0]
  simp only [hostOps0, hostOps0_1, hostOps0_2, List.flatten_cons, List.flatten_nil, List.append_nil, List.cons_append, List.nil_append]
  after_results_simp <;> rfl

set_option maxHeartbeats 4000000 in
theorem Wfin_arg6 (c : Dev nD) : Wfin m c (Proc.devRef .tc main_arg6) = m ((c : Thread nD τ).loc main_arg6) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg6 (by decide) (by decide) (by decide)).trans (V0_arg6 m c))

theorem V0_arg7 (c : Dev nD) : V0 m c (Proc.devRef .tc main_arg7) = m ((c : Thread nD τ).loc main_arg7) := by
  dsimp only [V0]
  simp only [hostOps0, hostOps0_1, hostOps0_2, List.flatten_cons, List.flatten_nil, List.append_nil, List.cons_append, List.nil_append]
  after_results_simp <;> rfl

set_option maxHeartbeats 4000000 in
theorem Wfin_arg7 (c : Dev nD) : Wfin m c (Proc.devRef .tc main_arg7) = m ((c : Thread nD τ).loc main_arg7) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg7 (by decide) (by decide) (by decide)).trans (V0_arg7 m c))

theorem V0_arg8 (c : Dev nD) : V0 m c (Proc.devRef .tc main_arg8) = m ((c : Thread nD τ).loc main_arg8) := by
  dsimp only [V0]
  simp only [hostOps0, hostOps0_1, hostOps0_2, List.flatten_cons, List.flatten_nil, List.append_nil, List.cons_append, List.nil_append]
  after_results_simp <;> rfl

set_option maxHeartbeats 4000000 in
theorem Wfin_arg8 (c : Dev nD) : Wfin m c (Proc.devRef .tc main_arg8) = m ((c : Thread nD τ).loc main_arg8) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg8 (by decide) (by decide) (by decide)).trans (V0_arg8 m c))

theorem V0_arg9 (c : Dev nD) : V0 m c (Proc.devRef .tc main_arg9) = m ((c : Thread nD τ).loc main_arg9) := by
  dsimp only [V0]
  simp only [hostOps0, hostOps0_1, hostOps0_2, List.flatten_cons, List.flatten_nil, List.append_nil, List.cons_append, List.nil_append]
  after_results_simp <;> rfl

set_option maxHeartbeats 4000000 in
theorem Wfin_arg9 (c : Dev nD) : Wfin m c (Proc.devRef .tc main_arg9) = m ((c : Thread nD τ).loc main_arg9) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg9 (by decide) (by decide) (by decide)).trans (V0_arg9 m c))

/-! ## The frame, and the run with its result named -/

/-- Every argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c main_arg0 (by decide)).trans (Wfin_arg0 m c),
      (h c main_arg1 (by decide)).trans (Wfin_arg1 m c),
      (h c main_arg2 (by decide)).trans (Wfin_arg2 m c),
      (h c main_arg3 (by decide)).trans (Wfin_arg3 m c),
      (h c main_arg4 (by decide)).trans (Wfin_arg4 m c),
      (h c main_arg5 (by decide)).trans (Wfin_arg5 m c),
      (h c main_arg6 (by decide)).trans (Wfin_arg6 m c),
      (h c main_arg7 (by decide)).trans (Wfin_arg7 m c),
      (h c main_arg8 (by decide)).trans (Wfin_arg8 m c),
      (h c main_arg9 (by decide)).trans (Wfin_arg9 m c)⟩) (run_main m ρ)

/-- The same run, the result buffer at what the operations after the region leave in it. -/
theorem run_value : θ_run defs (onTc (τ := τ) (main (F := F))) ⟨m, fun _ => 0, ρ⟩ (fun r => ∀ c : Dev nD,
      r.2.mem ((c.tc : Thread nD τ).loc main_v98) = Wfin m c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c main_v98 (by decide),
      (h c main_arg0 (by decide)).trans (Wfin_arg0 m c),
      (h c main_arg1 (by decide)).trans (Wfin_arg1 m c),
      (h c main_arg2 (by decide)).trans (Wfin_arg2 m c),
      (h c main_arg3 (by decide)).trans (Wfin_arg3 m c),
      (h c main_arg4 (by decide)).trans (Wfin_arg4 m c),
      (h c main_arg5 (by decide)).trans (Wfin_arg5 m c),
      (h c main_arg6 (by decide)).trans (Wfin_arg6 m c),
      (h c main_arg7 (by decide)).trans (Wfin_arg7 m c),
      (h c main_arg8 (by decide)).trans (Wfin_arg8 m c),
      (h c main_arg9 (by decide)).trans (Wfin_arg9 m c)⟩) (run_main m ρ)

end Cert.KernelIdeal.Frame

end
-- ==== Proof.BodyRunBits.lean ====
/-
  The kernel body run once at symbolic operands, in each of its three control cases.

  A grid point has coordinates `(core, step)`. At `step = 0` the body first resets its three accumulators (the
  adjacency sums, the volume sums, the symmetry sums) to zero; at every step it adds the two planes' contributions;
  at `step = 23` it also copies the accumulators into the three output blocks. Each theorem says: from the three
  input blocks and the accumulators (and, in the last case, the output blocks at anything), the body runs to its
  return handing back the inputs as they were and the accumulators (and outputs) at the stated pure terms of what
  it loaded.
-/
import proofs.«409875_j8435315769968_3_alg».proof.Proof.Gen.Kernel.Skeleton
import Idealize.ShloMosaic.Lib.Tactic
import Idealize.ShloMosaic.Lib.Pipeline.Kit
import Idealize.ShloMosaic.Lib.WholeRead

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The reset condition: the step coordinate is zero (the body's first conditional, as it computes it). -/
abbrev condReset (i : grid0.Coords) : Prop :=
  (Scalar.cmpi .ne (Scalar.extui (Scalar.cmpi .eq (BitVec.ofNat 32 (i 1).val) 0#32)) 0#32) = 1#1
/-- The write-out condition: the step coordinate is the last one (the body's second conditional). -/
abbrev condLast (i : grid0.Coords) : Prop := k0_cond2 i = 1#1

/-- What a step adds to the adjacency accumulator `a`, the volume accumulator `v` and the symmetry accumulator `s`,
    from the permutation block `P`, the forward plane's logits `f` and the mirror plane's `g`. -/
abbrev nextA (f g : Vec F S2x32x9216 .f32) (a : Vec F S2x32x32 .f32) : Vec F S2x32x32 .f32 := k0_pay3 (k0_pay12 f) (k0_pay13 g) a
abbrev nextV (f g : Vec F S2x32x9216 .f32) (v : Vec F S2x32 .f32) : Vec F S2x32 .f32 := k0_pay2 (k0_pay10 f) (k0_pay11 g) v
abbrev nextS (P : Vec F S2x32x32 .f32) (f g : Vec F S2x32x9216 .f32) (s : Vec F S2x1 .f32) : Vec F S2x1 .f32 := k0_pay1 (k0_pay15 f g P) (k0_pay16 f g P) s

/-- The zero offsets of a rank-2 whole-block access, as the constant function. -/
theorem hz2 : (![0, 0] : Fin 2 → Nat) = fun _ => 0 := funext fun a => by fin_cases a <;> rfl
/-- The zero offsets of a rank-3 whole-block access, as the constant function. -/
theorem hz3 : (![0, 0, 0] : Fin 3 → Nat) = fun _ => 0 := funext fun a => by fin_cases a <;> rfl
/-- The zero offsets of a rank-4 whole-block access, as the constant function. -/
theorem hz4 : (![0, 0, 0, 0] : Fin 4 → Nat) = fun _ => 0 := funext fun a => by fin_cases a <;> rfl

/-- A store through the whole block at zero offsets, made LAST, is what the block reads afterwards, whatever was
    stored before it and whatever the buffer held. -/
theorem read_writes_cons_whole {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- The first step of a core: the accumulators are reset, then the step's contribution added. -/
theorem run_reset (c : Dev nD) (i : grid0.Coords) (arg2 : Memref sig .tc .vmem S2x32x32 .f32) (harg2 : arg2.IsWhole) (arg3 : Memref sig .tc .vmem S2x32x9216 .f32) (harg3 : arg3.IsWhole) (arg4 : Memref sig .tc .vmem S2x32x9216 .f32) (harg4 : arg4.IsWhole) (arg5 : Memref sig .tc .vmem S1x2x32x32 .f32) (harg5 : arg5.IsWhole) (arg6 : Memref sig .tc .vmem S1x2x32 .f32) (harg6 : arg6.IsWhole) (arg7 : Memref sig .tc .vmem S1x2x1 .f32) (harg7 : arg7.IsWhole) (arg8 : Memref sig .tc .vmem S2x32x32 .f32) (harg8 : arg8.IsWhole) (arg9 : Memref sig .tc .vmem S2x32 .f32) (harg9 : arg9.IsWhole) (arg10 : Memref sig .tc .vmem S2x1 .f32) (harg10 : arg10.IsWhole)
    (h1 : condReset i) (h2 : ¬ condLast i)
    (P : Vec F S2x32x32 .f32) (f g : Vec F S2x32x9216 .f32) (E : Set ℕ) (K : PUnit → sProp 𝕄) :
    iprop(owns (c : Thread nD τ) arg2 fullShare P ∗ owns (c : Thread nD τ) arg3 fullShare f ∗ owns (c : Thread nD τ) arg4 fullShare g
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare P ∗ owns (c : Thread nD τ) arg3 fullShare f ∗ owns (c : Thread nD τ) arg4 fullShare g
              ∗ owns (c : Thread nD τ) arg8 fullShare (nextA f g k0_pay7) ∗ owns (c : Thread nD τ) arg9 fullShare (nextV f g k0_pay8)
              ∗ owns (c : Thread nD τ) arg10 fullShare (nextS P f g k0_pay9)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10) K := by
  sl_unfold [cc0__fused_body, cc0__fused_body_skel]
  unfold owns
  iintro ⟨⟨%f2, %hf2, H2⟩, ⟨%f3, %hf3, H3⟩, ⟨%f4, %hf4, H4⟩, ⟨%d8, %f8, %hf8, H8⟩, ⟨%d9, %f9, %hf9, H9⟩, ⟨%d10, %f10, %hf10, H10⟩, Hk⟩
  obtain rfl := harg2.eq_unread hf2; obtain rfl := harg3.eq_unread hf3; obtain rfl := harg4.eq_unread hf4
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H8]
  · iexists _; isplitr; swap; · iexact H8
    ipureintro
    sl_unfold_words
    refine (read_writes_cons_whole _ _ hz3 _ _ _).trans ?_
    simp only [View.readAt_eq_ld, harg2.read_unread, harg3.read_unread, harg4.read_unread,
      View.ld_unit_zero (S := S2x32x32) hz3, View.ld_unit_zero (S := S2x32x9216) hz3,
      View.readCov_unit_zero (S := S2x1) _ hz2, View.readCov_unit_zero (S := S2x32) _ hz2, View.readCov_unit_zero (S := S2x32x32) _ hz3]
  isplitl [H9]
  · iexists _; isplitr; swap; · iexact H9
    ipureintro
    sl_unfold_words
    refine (read_writes_cons_whole _ _ hz2 _ _ _).trans ?_
    simp only [View.readAt_eq_ld, harg2.read_unread, harg3.read_unread, harg4.read_unread,
      View.ld_unit_zero (S := S2x32x32) hz3, View.ld_unit_zero (S := S2x32x9216) hz3,
      View.readCov_unit_zero (S := S2x1) _ hz2, View.readCov_unit_zero (S := S2x32) _ hz2, View.readCov_unit_zero (S := S2x32x32) _ hz3]
  iexists _; isplitr; swap; · iexact H10
  ipureintro
  sl_unfold_words
  refine (read_writes_cons_whole _ _ hz2 _ _ _).trans ?_
  simp only [View.readAt_eq_ld, harg2.read_unread, harg3.read_unread, harg4.read_unread,
      View.ld_unit_zero (S := S2x32x32) hz3, View.ld_unit_zero (S := S2x32x9216) hz3,
      View.readCov_unit_zero (S := S2x1) _ hz2, View.readCov_unit_zero (S := S2x32) _ hz2, View.readCov_unit_zero (S := S2x32x32) _ hz3]

/-- A middle step: the contribution added to what the step before left. -/
theorem run_mid (c : Dev nD) (i : grid0.Coords) (arg2 : Memref sig .tc .vmem S2x32x32 .f32) (harg2 : arg2.IsWhole) (arg3 : Memref sig .tc .vmem S2x32x9216 .f32) (harg3 : arg3.IsWhole) (arg4 : Memref sig .tc .vmem S2x32x9216 .f32) (harg4 : arg4.IsWhole) (arg5 : Memref sig .tc .vmem S1x2x32x32 .f32) (harg5 : arg5.IsWhole) (arg6 : Memref sig .tc .vmem S1x2x32 .f32) (harg6 : arg6.IsWhole) (arg7 : Memref sig .tc .vmem S1x2x1 .f32) (harg7 : arg7.IsWhole) (arg8 : Memref sig .tc .vmem S2x32x32 .f32) (harg8 : arg8.IsWhole) (arg9 : Memref sig .tc .vmem S2x32 .f32) (harg9 : arg9.IsWhole) (arg10 : Memref sig .tc .vmem S2x1 .f32) (harg10 : arg10.IsWhole)
    (h1 : ¬ condReset i) (h2 : ¬ condLast i)
    (P : Vec F S2x32x32 .f32) (f g : Vec F S2x32x9216 .f32) (a : Vec F S2x32x32 .f32) (v : Vec F S2x32 .f32) (s : Vec F S2x1 .f32)
    (E : Set ℕ) (K : PUnit → sProp 𝕄) :
    iprop(owns (c : Thread nD τ) arg2 fullShare P ∗ owns (c : Thread nD τ) arg3 fullShare f ∗ owns (c : Thread nD τ) arg4 fullShare g
        ∗ owns (c : Thread nD τ) arg8 fullShare a ∗ owns (c : Thread nD τ) arg9 fullShare v ∗ owns (c : Thread nD τ) arg10 fullShare s
        ∗ (iprop(owns (c : Thread nD τ) arg2 fullShare P ∗ owns (c : Thread nD τ) arg3 fullShare f ∗ owns (c : Thread nD τ) arg4 fullShare g
              ∗ owns (c : Thread nD τ) arg8 fullShare (nextA f g a) ∗ owns (c : Thread nD τ) arg9 fullShare (nextV f g v)
              ∗ owns (c : Thread nD τ) arg10 fullShare (nextS P f g s)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10) K := by
  sl_unfold [cc0__fused_body, cc0__fused_body_skel]
  unfold owns
  iintro ⟨⟨%f2, %hf2, H2⟩, ⟨%f3, %hf3, H3⟩, ⟨%f4, %hf4, H4⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg8.eq_unread hf8; obtain rfl := harg9.eq_unread hf9; obtain rfl := harg10.eq_unread hf10
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H8]
  · iexists _; isplitr; swap; · iexact H8
    ipureintro
    refine (read_writes_cons_whole _ _ hz3 _ _ _).trans ?_
    sl_unfold_words
    simp only [View.readAt_eq_ld, harg3.read_unread, harg4.read_unread, harg8.read_unread, View.ld_unit_zero (S := S2x32x32) hz3, View.ld_unit_zero (S := S2x32x9216) hz3]
  isplitl [H9]
  · iexists _; isplitr; swap; · iexact H9
    ipureintro
    refine (read_writes_cons_whole _ _ hz2 _ _ _).trans ?_
    sl_unfold_words
    simp only [View.readAt_eq_ld, harg3.read_unread, harg4.read_unread, harg9.read_unread, View.ld_unit_zero (S := S2x32) hz2, View.ld_unit_zero (S := S2x32x9216) hz3]
  iexists _; isplitr; swap; · iexact H10
  ipureintro
  refine (read_writes_cons_whole _ _ hz2 _ _ _).trans ?_
  sl_unfold_words
  simp only [View.readAt_eq_ld, harg2.read_unread, harg3.read_unread, harg4.read_unread, harg10.read_unread, View.ld_unit_zero (S := S2x1) hz2, View.ld_unit_zero (S := S2x32x32) hz3, View.ld_unit_zero (S := S2x32x9216) hz3]

/-- The last step of a core: the contribution added, then the accumulators copied into the output blocks. -/
theorem run_last (c : Dev nD) (i : grid0.Coords) (arg2 : Memref sig .tc .vmem S2x32x32 .f32) (harg2 : arg2.IsWhole) (arg3 : Memref sig .tc .vmem S2x32x9216 .f32) (harg3 : arg3.IsWhole) (arg4 : Memref sig .tc .vmem S2x32x9216 .f32) (harg4 : arg4.IsWhole) (arg5 : Memref sig .tc .vmem S1x2x32x32 .f32) (harg5 : arg5.IsWhole) (arg6 : Memref sig .tc .vmem S1x2x32 .f32) (harg6 : arg6.IsWhole) (arg7 : Memref sig .tc .vmem S1x2x1 .f32) (harg7 : arg7.IsWhole) (arg8 : Memref sig .tc .vmem S2x32x32 .f32) (harg8 : arg8.IsWhole) (arg9 : Memref sig .tc .vmem S2x32 .f32) (harg9 : arg9.IsWhole) (arg10 : Memref sig .tc .vmem S2x1 .f32) (harg10 : arg10.IsWhole)
    (h1 : ¬ condReset i) (h2 : condLast i)
    (P : Vec F S2x32x32 .f32) (f g : Vec F S2x32x9216 .f32) (a : Vec F S2x32x32 .f32) (v : Vec F S2x32 .f32) (s : Vec F S2x1 .f32)
    (E : Set ℕ) (K : PUnit → sProp 𝕄) :
    iprop(owns (c : Thread nD τ) arg2 fullShare P ∗ owns (c : Thread nD τ) arg3 fullShare f ∗ owns (c : Thread nD τ) arg4 fullShare g
        ∗ owns (c : Thread nD τ) arg8 fullShare a ∗ owns (c : Thread nD τ) arg9 fullShare v ∗ owns (c : Thread nD τ) arg10 fullShare s
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare P ∗ owns (c : Thread nD τ) arg3 fullShare f ∗ owns (c : Thread nD τ) arg4 fullShare g
              ∗ owns (c : Thread nD τ) arg8 fullShare (nextA f g a) ∗ owns (c : Thread nD τ) arg9 fullShare (nextV f g v)
              ∗ owns (c : Thread nD τ) arg10 fullShare (nextS P f g s)
              ∗ owns (c : Thread nD τ) arg5 fullShare (k0_pay4 (nextA f g a)) ∗ owns (c : Thread nD τ) arg6 fullShare (k0_pay5 (nextV f g v))
              ∗ owns (c : Thread nD τ) arg7 fullShare (k0_pay6 (nextS P f g s))) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10) K := by
  sl_unfold [cc0__fused_body, cc0__fused_body_skel]
  unfold owns
  iintro ⟨⟨%f2, %hf2, H2⟩, ⟨%f3, %hf3, H3⟩, ⟨%f4, %hf4, H4⟩, ⟨%f8, %hf8, H8⟩, ⟨%f9, %hf9, H9⟩, ⟨%f10, %hf10, H10⟩, ⟨%d5, %f5, %hf5, H5⟩, ⟨%d6, %f6, %hf6, H6⟩, ⟨%d7, %f7, %hf7, H7⟩, Hk⟩
  obtain rfl := harg2.eq_unread hf2; obtain rfl := harg3.eq_unread hf3; obtain rfl := harg4.eq_unread hf4
  obtain rfl := harg8.eq_unread hf8; obtain rfl := harg9.eq_unread hf9; obtain rfl := harg10.eq_unread hf10
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H8]
  · iexists _; isplitr; swap; · iexact H8
    ipureintro
    sl_unfold_words
    refine (read_writes_cons_whole _ _ hz3 _ _ _).trans ?_
    simp only [View.readAt_eq_ld, harg2.read_unread, harg3.read_unread, harg4.read_unread, harg8.read_unread, harg9.read_unread, harg10.read_unread,
      View.ld_unit_zero (S := S2x1) hz2, View.ld_unit_zero (S := S2x32) hz2, View.ld_unit_zero (S := S2x32x32) hz3, View.ld_unit_zero (S := S2x32x9216) hz3]
  isplitl [H9]
  · iexists _; isplitr; swap; · iexact H9
    ipureintro
    sl_unfold_words
    refine (read_writes_cons_whole _ _ hz2 _ _ _).trans ?_
    simp only [View.readAt_eq_ld, harg2.read_unread, harg3.read_unread, harg4.read_unread, harg8.read_unread, harg9.read_unread, harg10.read_unread,
      View.ld_unit_zero (S := S2x1) hz2, View.ld_unit_zero (S := S2x32) hz2, View.ld_unit_zero (S := S2x32x32) hz3, View.ld_unit_zero (S := S2x32x9216) hz3]
  isplitl [H10]
  · iexists _; isplitr; swap; · iexact H10
    ipureintro
    sl_unfold_words
    refine (read_writes_cons_whole _ _ hz2 _ _ _).trans ?_
    simp only [View.readAt_eq_ld, harg2.read_unread, harg3.read_unread, harg4.read_unread, harg8.read_unread, harg9.read_unread, harg10.read_unread,
      View.ld_unit_zero (S := S2x1) hz2, View.ld_unit_zero (S := S2x32) hz2, View.ld_unit_zero (S := S2x32x32) hz3, View.ld_unit_zero (S := S2x32x9216) hz3]
  isplitl [H5]
  · iexists _; isplitr; swap; · iexact H5
    ipureintro
    sl_unfold_words
    refine (read_writes_cons_whole _ _ hz4 _ _ _).trans ?_
    simp only [View.readAt_eq_ld, harg2.read_unread, harg3.read_unread, harg4.read_unread, harg8.read_unread, harg9.read_unread, harg10.read_unread,
      View.ld_unit_zero (S := S2x1) hz2, View.ld_unit_zero (S := S2x32) hz2, View.ld_unit_zero (S := S2x32x32) hz3, View.ld_unit_zero (S := S2x32x9216) hz3,
      View.readCov_unit_zero (S := S2x1) _ hz2, View.readCov_unit_zero (S := S2x32) _ hz2, View.readCov_unit_zero (S := S2x32x32) _ hz3]
  isplitl [H6]
  · iexists _; isplitr; swap; · iexact H6
    ipureintro
    sl_unfold_words
    refine (read_writes_cons_whole _ _ hz3 _ _ _).trans ?_
    simp only [View.readAt_eq_ld, harg2.read_unread, harg3.read_unread, harg4.read_unread, harg8.read_unread, harg9.read_unread, harg10.read_unread,
      View.ld_unit_zero (S := S2x1) hz2, View.ld_unit_zero (S := S2x32) hz2, View.ld_unit_zero (S := S2x32x32) hz3, View.ld_unit_zero (S := S2x32x9216) hz3,
      View.readCov_unit_zero (S := S2x1) _ hz2, View.readCov_unit_zero (S := S2x32) _ hz2, View.readCov_unit_zero (S := S2x32x32) _ hz3]
  iexists _; isplitr; swap; · iexact H7
  ipureintro
  sl_unfold_words
  refine (read_writes_cons_whole _ _ hz3 _ _ _).trans ?_
  simp only [View.readAt_eq_ld, harg2.read_unread, harg3.read_unread, harg4.read_unread, harg8.read_unread, harg9.read_unread, harg10.read_unread,
      View.ld_unit_zero (S := S2x1) hz2, View.ld_unit_zero (S := S2x32) hz2, View.ld_unit_zero (S := S2x32x32) hz3, View.ld_unit_zero (S := S2x32x9216) hz3,
      View.readCov_unit_zero (S := S2x1) _ hz2, View.readCov_unit_zero (S := S2x32) _ hz2, View.readCov_unit_zero (S := S2x32x32) _ hz3]

end Cert.Kernel.Body

end
-- ==== Proof.FrameDataBits.lean ====
/-
  The proof data of the fused kernel's pipeline.

  The grid's 48 points run in order; point `t` is step `t % 24` of core `t / 24`. At point `t` the pipeline stages
  the permutation block, plane `t` of the flattened logits and its mirror plane `95 - t` (two windows on ONE array),
  and the body adds their contributions to three accumulators kept in scratch memory: reset at the first step of a
  core, copied to the three output blocks at its last step. `accAt n` is what the accumulators hold after point `n`.
-/
import proofs.«409875_j8435315769968_3_alg».proof.Proof.BodyRunBits
import proofs.«409875_j8435315769968_3_alg».proof.Proof.Gen.Kernel.Launch
import proofs.«409875_j8435315769968_3_alg».proof.Proof.Gen.Kernel.Points
import Idealize.ShloMosaic.Lib.Pipeline.FrameBody
import Idealize.ShloMosaic.Lib.Pipeline.FrameSuffix

set_option maxRecDepth 16384

noncomputable section

namespace Cert.Kernel.Frame

open Cert.Kernel Cert.Kernel.Gen Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main before the region -/

/-- The core's buffer contents when the region is entered: the reshape of the logits, the 0/1 matrix of the channel
    words and its broadcast over the batch have run. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) :=
  [hostOps1, hostOps1_1, hostOps1_2, hostOps1_3, hostOps1_4, hostOps1_5, hostOps1_6, hostOps1_7, hostOps1_8]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The permutation block, the forward plane and the mirror plane at point `t`, at their literal types. -/
abbrev Pblk (c : Dev nD) (t : Fin cfg0.N) : Vec F S2x32x32 .f32 := iblk m c 0 t
abbrev fblk (c : Dev nD) (t : Fin cfg0.N) : Vec F S2x32x9216 .f32 := iblk m c 1 t
abbrev gblk (c : Dev nD) (t : Fin cfg0.N) : Vec F S2x32x9216 .f32 := iblk m c 2 t

/-! ## The accumulators, point by point -/

/-- What the three accumulators hold after point `n`: at the first step of a core (`n % 24 = 0`) the step's
    contribution over zero, otherwise over what point `n - 1` left. -/
def accAt (c : Dev nD) : (n : ℕ) → n < cfg0.N → Vec F S2x32x32 .f32 × Vec F S2x32 .f32 × Vec F S2x1 .f32
  | 0, hn => (nextA (fblk m c ⟨0, hn⟩) (gblk m c ⟨0, hn⟩) k0_pay7, nextV (fblk m c ⟨0, hn⟩) (gblk m c ⟨0, hn⟩) k0_pay8,
      nextS (Pblk m c ⟨0, hn⟩) (fblk m c ⟨0, hn⟩) (gblk m c ⟨0, hn⟩) k0_pay9)
  | n + 1, hn =>
    if (n + 1) % 24 = 0 then
      (nextA (fblk m c ⟨n + 1, hn⟩) (gblk m c ⟨n + 1, hn⟩) k0_pay7, nextV (fblk m c ⟨n + 1, hn⟩) (gblk m c ⟨n + 1, hn⟩) k0_pay8,
        nextS (Pblk m c ⟨n + 1, hn⟩) (fblk m c ⟨n + 1, hn⟩) (gblk m c ⟨n + 1, hn⟩) k0_pay9)
    else
      (nextA (fblk m c ⟨n + 1, hn⟩) (gblk m c ⟨n + 1, hn⟩) (accAt c n (Nat.lt_of_succ_lt hn)).1,
        nextV (fblk m c ⟨n + 1, hn⟩) (gblk m c ⟨n + 1, hn⟩) (accAt c n (Nat.lt_of_succ_lt hn)).2.1,
        nextS (Pblk m c ⟨n + 1, hn⟩) (fblk m c ⟨n + 1, hn⟩) (gblk m c ⟨n + 1, hn⟩) (accAt c n (Nat.lt_of_succ_lt hn)).2.2)

/-- At a core's first step: the contribution over zero. -/
theorem accAt_reset (c : Dev nD) (t : Fin cfg0.N) (h : t.val % 24 = 0) :
    accAt m c t.val t.isLt = (nextA (fblk m c t) (gblk m c t) k0_pay7, nextV (fblk m c t) (gblk m c t) k0_pay8,
      nextS (Pblk m c t) (fblk m c t) (gblk m c t) k0_pay9) := by
  obtain ⟨n, hn⟩ := t
  cases n with
  | zero => rfl
  | succ n => exact if_pos h

/-- At any other step: the contribution over what the point before left. -/
theorem accAt_step (c : Dev nD) (t : Fin cfg0.N) (h : ¬ t.val % 24 = 0) :
    accAt m c t.val t.isLt
      = (nextA (fblk m c t) (gblk m c t) (accAt m c (t.val - 1) (Nat.lt_of_le_of_lt (Nat.sub_le _ _) t.isLt)).1,
        nextV (fblk m c t) (gblk m c t) (accAt m c (t.val - 1) (Nat.lt_of_le_of_lt (Nat.sub_le _ _) t.isLt)).2.1,
        nextS (Pblk m c t) (fblk m c t) (gblk m c t) (accAt m c (t.val - 1) (Nat.lt_of_le_of_lt (Nat.sub_le _ _) t.isLt)).2.2) := by
  obtain ⟨n, hn⟩ := t
  cases n with
  | zero => exact absurd (Nat.zero_mod _) h
  | succ n => exact if_neg h

/-! ## The invariant between points -/

/-- The three accumulators' scratch memrefs. -/
abbrev scA : Memref sig .tc .vmem S2x32x32 .f32 := Memref.whole cc0_scratch0
abbrev scV : Memref sig .tc .vmem S2x32 .f32 := Memref.whole cc0_scratch1
abbrev scS : Memref sig .tc .vmem S2x1 .f32 := Memref.whole cc0_scratch2

/-- Before the first point the scratch holds anything; before point `n + 1` it holds what point `n` left. The generator
    register rides along at some state. -/
def PhiS (c : Dev nD) : (n : ℕ) → n ≤ cfg0.N → sProp 𝕄
  | 0, _ => Pipeline.ΦA spec0 c
  | n + 1, hn => iprop(owns (c : Thread nD τ) scA fullShare (accAt m c n hn).1 ∗ owns (c : Thread nD τ) scV fullShare (accAt m c n hn).2.1
      ∗ owns (c : Thread nD τ) scS fullShare (accAt m c n hn).2.2 ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scA fullShare (accAt m c n hn).1 ∗ owns (c : Thread nD τ) scV fullShare (accAt m c n hn).2.1
      ∗ owns (c : Thread nD τ) scS fullShare (accAt m c n hn).2.2 ∗ (∃ r, prngReg c r)) := rfl

theorem PhiS_pos (c : Dev nD) (n : ℕ) (h : n ≤ cfg0.N) (hz : n ≠ 0) :
    PhiS m c n h = iprop(owns (c : Thread nD τ) scA fullShare (accAt m c (n - 1) (by omega)).1 ∗ owns (c : Thread nD τ) scV fullShare (accAt m c (n - 1) (by omega)).2.1
      ∗ owns (c : Thread nD τ) scS fullShare (accAt m c (n - 1) (by omega)).2.2 ∗ (∃ r, prngReg c r)) := by
  cases n with
  | zero => exact absurd rfl hz
  | succ n => rfl

/-- The class's invariant with the scratch as memrefs owned at some contents. -/
theorem PhiA_eq (c : Dev nD) :
    (Pipeline.ΦA spec0 c : sProp 𝕄)
      = iprop(iprop((∃ d, owns (c : Thread nD τ) scA fullShare d) ∗ (∃ d, owns (c : Thread nD τ) scV fullShare d) ∗ (∃ d, owns (c : Thread nD τ) scS fullShare d)) ∗ (∃ r, prngReg c r)) := by
  unfold Pipeline.ΦA; rw [scopedRest0_eq]; simp only [scA, scV, scS, owns_whole]; try rfl

/-! ## The proof data -/

/-- The arrays as the region finds them; after the body each input block in place and each output block at the copy
    of its accumulator; the invariant; the two windows on the flattened logits each at half its share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay4 (accAt m c t.val t.isLt).1
    | ⟨4, _⟩ => k0_pay5 (accAt m c t.val t.isLt).2.1
    | ⟨5, _⟩ => k0_pay6 (accAt m c t.val t.isLt).2.2
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay4 (accAt m c t.val t.isLt).1 := by dsimp only [dats]
theorem after_4 (c : Dev nD) (t : Fin cfg0.N) : (dats m 0 c).after 4 t = k0_pay5 (accAt m c t.val t.isLt).2.1 := by dsimp only [dats]
theorem after_5 (c : Dev nD) (t : Fin cfg0.N) : (dats m 0 c).after 5 t = k0_pay6 (accAt m c t.val t.isLt).2.2 := by dsimp only [dats]

end Cert.Kernel.Frame

end
-- ==== Proof.FrameBodyBits.lean ====
/-
  The body obligation of the fused kernel's pipeline: at every grid point the body, handed the invariant and each
  window's current staging buffer at what the pipeline put there, runs to the next point's invariant with each buffer
  at what the proof data says it leaves. The point's step decides the control case: step 0 resets the accumulators,
  step 23 also writes the three output blocks, the steps between only accumulate.
-/
import proofs.«409875_j8435315769968_3_alg».proof.Proof.FrameDataBits

set_option maxRecDepth 16384

noncomputable section

namespace Cert.Kernel.Frame

open Cert.Kernel Cert.Kernel.Gen Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions, decided over the grid -/

/-- The reset condition holds exactly at the points that are a core's first step. -/
theorem hcondReset : ∀ t : Fin cfg0.N, condReset (grid0.coords t) ↔ t.val % 24 = 0 :=
  (by decide +kernel : ∀ t : Fin grid0.N, condReset (grid0.coords t) ↔ t.val % 24 = 0)

/-- The write-out condition holds exactly at the points that are a core's last step. -/
theorem hcondLast : ∀ t : Fin cfg0.N, condLast (grid0.coords t) ↔ t.val % 24 = 23 :=
  (by decide +kernel : ∀ t : Fin grid0.N, condLast (grid0.coords t) ↔ t.val % 24 = 23)

/-! ## What the body finds in the input windows -/

/-- Each input window's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## Where the output windows are idle -/

/-- Away from a core's last step the three output windows are idle and not written back; at the last step they are live. -/
theorem idleAt_3 : ∀ t : Fin cfg0.N, ¬ t.val % 24 = 23 → cfg0.idle 3 (grid0.coords t) = true := by decide +kernel
theorem idleAt_4 : ∀ t : Fin cfg0.N, ¬ t.val % 24 = 23 → cfg0.idle 4 (grid0.coords t) = true := by decide +kernel
theorem idleAt_5 : ∀ t : Fin cfg0.N, ¬ t.val % 24 = 23 → cfg0.idle 5 (grid0.coords t) = true := by decide +kernel
theorem liveAt_3 : ∀ t : Fin cfg0.N, t.val % 24 = 23 → cfg0.idle 3 (grid0.coords t) = false := by decide +kernel
theorem liveAt_4 : ∀ t : Fin cfg0.N, t.val % 24 = 23 → cfg0.idle 4 (grid0.coords t) = false := by decide +kernel
theorem liveAt_5 : ∀ t : Fin cfg0.N, t.val % 24 = 23 → cfg0.idle 5 (grid0.coords t) = false := by decide +kernel
theorem noFlush_3 (t : Fin cfg0.N) (h : ¬ t.val % 24 = 23) : (cfg0.win 3).flush t = false :=
  Bool.eq_false_iff.mpr fun hf => h ((flush0_3 t).mp hf)
theorem noFlush_4 (t : Fin cfg0.N) (h : ¬ t.val % 24 = 23) : (cfg0.win 4).flush t = false :=
  Bool.eq_false_iff.mpr fun hf => h ((flush0_4 t).mp hf)
theorem noFlush_5 (t : Fin cfg0.N) (h : ¬ t.val % 24 = 23) : (cfg0.win 5).flush t = false :=
  Bool.eq_false_iff.mpr fun hf => h ((flush0_5 t).mp hf)

/-! ## The body at a point -/

/-- Each window's current staging memref at point `t`, and its wholeness. -/
abbrev ms0 (t : Fin cfg0.N) : Memref sig .tc .vmem S2x32x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x32x9216 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x32x9216 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2x32x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2x32 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2x1 .f32 := win0_5.stage (cfg0.slots t 5)
abbrev hs5 (t : Fin cfg0.N) : (ms5 t).IsWhole := hstage0_5 ((cfg0.slots t 5).cast nbuf0_5)

/-- What the body is called with at point `t`: the invariant, what is owed, and the six windows' current buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
/-- A middle step: the accumulators go from what the point before left to this point's; the output windows' buffers,
    idle here, are handed back as found. -/
theorem sound_mid (c : Dev nD) (t : Fin cfg0.N) (h0 : ¬ t.val % 24 = 0) (h1 : ¬ t.val % 24 = 23) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  have hz : t.val ≠ 0 := fun e => h0 (by rw [e])
  rw [PhiS_castSucc m c t, PhiS_pos m c _ _ hz]
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  rw [Dat.leavesExact_idle (dats m 0 c) 3 t (idleAt_3 t h1) (noFlush_3 t h1)]
  rw [Dat.leavesExact_idle (dats m 0 c) 4 t (idleAt_4 t h1) (noFlush_4 t h1)]
  rw [Dat.leavesExact_idle (dats m 0 c) 5 t (idleAt_5 t h1) (noFlush_5 t h1)]
  rw [accAt_step m c t h0]
  iintro ⟨⟨HA, HV, HS, Hg⟩, Ho, ⟨%d0, H0⟩, ⟨%d1, H1⟩, ⟨%d2, H2⟩, H3, H4, H5⟩
  iapply (run_mid c (grid0.coords t) (ms0 t) (hs0 t) (ms1 t) (hs1 t) (ms2 t) (hs2 t) (ms3 t) (hs3 t) (ms4 t) (hs4 t) (ms5 t) (hs5 t)
      scA (Memref.isWhole_whole _) scV (Memref.isWhole_whole _) scS (Memref.isWhole_whole _)
    (fun h => h0 ((hcondReset t).mp h)) (fun h => h1 ((hcondLast t).mp h)) (Pblk m c t) (fblk m c t) (gblk m c t)
    (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2 Set.univ _)
  isplitl [H0]; · iexact H0
  isplitl [H1]; · iexact H1
  isplitl [H2]; · iexact H2
  isplitl [HA]; · iexact HA
  isplitl [HV]; · iexact HV
  isplitl [HS]; · iexact HS
  iintro ⟨H0, H1, H2, HA, HV, HS⟩
  isplitl [HA HV HS Hg]
  · isplitl [HA]; · iexact HA
    isplitl [HV]; · iexact HV
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 4800000 in
/-- A core's first step: whatever the accumulators held (anything before the first point, the previous core's last
    sums afterwards) is reset, and they end at the step's contribution over zero; the output windows are idle. -/
theorem sound_reset (c : Dev nD) (t : Fin cfg0.N) (h0 : t.val % 24 = 0) (h1 : ¬ t.val % 24 = 23) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  rw [Dat.leavesExact_idle (dats m 0 c) 3 t (idleAt_3 t h1) (noFlush_3 t h1)]
  rw [Dat.leavesExact_idle (dats m 0 c) 4 t (idleAt_4 t h1) (noFlush_4 t h1)]
  rw [Dat.leavesExact_idle (dats m 0 c) 5 t (idleAt_5 t h1) (noFlush_5 t h1)]
  rw [accAt_reset m c t h0]
  by_cases hz : t.val = 0
  · rw [PhiS_castSucc m c t, PhiS_zero m c _ _ hz, PhiA_eq]
    iintro ⟨⟨⟨HA, HV, HS⟩, Hg⟩, Ho, ⟨%d0, H0⟩, ⟨%d1, H1⟩, ⟨%d2, H2⟩, H3, H4, H5⟩
    iapply (run_reset c (grid0.coords t) (ms0 t) (hs0 t) (ms1 t) (hs1 t) (ms2 t) (hs2 t) (ms3 t) (hs3 t) (ms4 t) (hs4 t) (ms5 t) (hs5 t)
      scA (Memref.isWhole_whole _) scV (Memref.isWhole_whole _) scS (Memref.isWhole_whole _)
      ((hcondReset t).mpr h0) (fun h => h1 ((hcondLast t).mp h)) (Pblk m c t) (fblk m c t) (gblk m c t) Set.univ _)
    isplitl [H0]; · iexact H0
    isplitl [H1]; · iexact H1
    isplitl [H2]; · iexact H2
    isplitl [HA]; · iexact HA
    isplitl [HV]; · iexact HV
    isplitl [HS]; · iexact HS
    iintro ⟨H0, H1, H2, HA, HV, HS⟩
    isplitl [HA HV HS Hg]
    · isplitl [HA]; · iexact HA
      isplitl [HV]; · iexact HV
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_castSucc m c t, PhiS_pos m c _ _ hz]
    iintro ⟨⟨HA, HV, HS, Hg⟩, Ho, ⟨%d0, H0⟩, ⟨%d1, H1⟩, ⟨%d2, H2⟩, H3, H4, H5⟩
    iapply (run_reset c (grid0.coords t) (ms0 t) (hs0 t) (ms1 t) (hs1 t) (ms2 t) (hs2 t) (ms3 t) (hs3 t) (ms4 t) (hs4 t) (ms5 t) (hs5 t)
      scA (Memref.isWhole_whole _) scV (Memref.isWhole_whole _) scS (Memref.isWhole_whole _)
      ((hcondReset t).mpr h0) (fun h => h1 ((hcondLast t).mp h)) (Pblk m c t) (fblk m c t) (gblk m c t) Set.univ _)
    isplitl [H0]; · iexact H0
    isplitl [H1]; · iexact H1
    isplitl [H2]; · iexact H2
    isplitl [HA]; · iexists _; iexact HA
    isplitl [HV]; · iexists _; iexact HV
    isplitl [HS]; · iexists _; iexact HS
    iintro ⟨H0, H1, H2, HA, HV, HS⟩
    isplitl [HA HV HS Hg]
    · isplitl [HA]; · iexact HA
      isplitl [HV]; · iexact HV
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

set_option maxHeartbeats 4800000 in
/-- A core's last step: the accumulators go to this point's sums and the three output windows' buffers, live here,
    end at the copies of them. -/
theorem sound_last (c : Dev nD) (t : Fin cfg0.N) (h0 : ¬ t.val % 24 = 0) (h1 : t.val % 24 = 23) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  have hz : t.val ≠ 0 := fun e => h0 (by rw [e])
  rw [PhiS_castSucc m c t, PhiS_pos m c _ _ hz]
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  rw [show (dats m 0 c).leavesExact 3 t = owns (c : Thread nD τ) (ms3 t) fullShare ((dats m 0 c).after 3 t) from by
    unfold Dat.leavesExact; rw [liveAt_3 t h1], after_3]
  rw [show (dats m 0 c).leavesExact 4 t = owns (c : Thread nD τ) (ms4 t) fullShare ((dats m 0 c).after 4 t) from by
    unfold Dat.leavesExact; rw [liveAt_4 t h1], after_4]
  rw [show (dats m 0 c).leavesExact 5 t = owns (c : Thread nD τ) (ms5 t) fullShare ((dats m 0 c).after 5 t) from by
    unfold Dat.leavesExact; rw [liveAt_5 t h1], after_5]
  rw [accAt_step m c t h0]
  iintro ⟨⟨HA, HV, HS, Hg⟩, Ho, ⟨%d0, H0⟩, ⟨%d1, H1⟩, ⟨%d2, H2⟩, ⟨%d3, H3⟩, ⟨%d4, H4⟩, ⟨%d5, H5⟩⟩
  iapply (run_last c (grid0.coords t) (ms0 t) (hs0 t) (ms1 t) (hs1 t) (ms2 t) (hs2 t) (ms3 t) (hs3 t) (ms4 t) (hs4 t) (ms5 t) (hs5 t)
      scA (Memref.isWhole_whole _) scV (Memref.isWhole_whole _) scS (Memref.isWhole_whole _)
    (fun h => h0 ((hcondReset t).mp h)) ((hcondLast t).mpr h1) (Pblk m c t) (fblk m c t) (gblk m c t)
    (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2 Set.univ _)
  isplitl [H0]; · iexact H0
  isplitl [H1]; · iexact H1
  isplitl [H2]; · iexact H2
  isplitl [HA]; · iexact HA
  isplitl [HV]; · iexact HV
  isplitl [HS]; · iexact HS
  isplitl [H3]; · iexists _; iexact H3
  isplitl [H4]; · iexists _; iexact H4
  isplitl [H5]; · iexists _; iexact H5
  iintro ⟨H0, H1, H2, HA, HV, HS, H3, H4, H5⟩
  isplitl [HA HV HS Hg]
  · isplitl [HA]; · iexact HA
    isplitl [HV]; · iexact HV
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at any point, by its step: the first of a core, the last, or one between (a core has 24 steps, so no
    step is both first and last). -/
theorem sound_body (c : Dev nD) (t : Fin cfg0.N) :
    bodyPre m c t ⊢ wp frame (wpE (defs₀ (F := F)) Variants.none c none) Set.univ (bodyAt0 t) (fun _ => bodyPost m c t) := by
  by_cases h0 : t.val % 24 = 0
  · exact sound_reset m c t h0 (by omega)
  · by_cases h1 : t.val % 24 = 23
    · exact sound_last m c t h0 h1
    · exact sound_mid m c t h0 h1

/-! ## The obligation -/

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the accumulators' named contents are forgotten. -/
theorem hout (c : Dev nD) : (dats m 0 c).Φ (Fin.last cfg0.N) ⊢ Pipeline.ΦA spec0 c := by
  have hN : (Fin.last cfg0.N).val ≠ 0 := by rw [Fin.val_last]; have : cfg0.N = 48 := N_0; omega
  rw [show (dats m 0 c).Φ (Fin.last cfg0.N) = PhiS m c (Fin.last cfg0.N).val (Nat.le_of_lt_succ (Fin.last cfg0.N).isLt) from rfl,
    PhiS_pos m c _ _ hN, PhiA_eq]
  iintro ⟨HA, HV, HS, Hg⟩
  isplitl [HA HV HS]
  · isplitl [HA]
    · iexists _; iexact HA
    isplitl [HV]
    · iexists _; iexact HV
    iexists _; iexact HS
  iexact Hg

end Cert.Kernel.Frame

end
-- ==== Proof.FrameLaunchBits.lean ====
/-
  The launch of the fused kernel's program: @main is three stretches of host operations (the reshape of the logits,
  the 0/1 matrix of the channel words, its broadcast), the kernel region, and nine stretches of host operations that
  turn the region's three results into the scalar loss. Two of the region's windows read ONE array (the flattened
  logits), each holding half of it; the operations after the region touch neither that array nor the permutation
  matrix, so they run beside them and the two halves are never put back together.
-/
import proofs.«409875_j8435315769968_3_alg».proof.Proof.FrameDataBits

set_option maxRecDepth 16384

noncomputable section

namespace Cert.Kernel.Frame

open Cert.Kernel Cert.Kernel.Gen Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is left, and at the end -/

/-- The core's unscoped buffers when the region is left: as the region found them, the three result arrays at what
    the pipeline wrote back. -/
def Wexit (c : Dev nD) : Valuation τ sig (Elt F) :=
  Function.update (Function.update (Function.update (V0 m c)
    (Proc.devRef .tc main_v4_0) ((dats m 0 c).arrAt 3 cfg0.N))
    (Proc.devRef .tc main_v4_1) ((dats m 0 c).arrAt 4 cfg0.N))
    (Proc.devRef .tc main_v4_2) ((dats m 0 c).arrAt 5 cfg0.N)

/-- And when @main returns: the operations after the region have run. -/
def Wfin (c : Dev nD) : Valuation τ sig (Elt F) := StableHlo.after (List.flatten (tailOps (F := F))) (Wexit m c)

theorem Wexit_v4_0 (c : Dev nD) : Wexit m c (Proc.devRef .tc main_v4_0) = (dats m 0 c).arrAt 3 cfg0.N := by
  unfold Wexit
  rw [Function.update_of_ne (StableHlo.devRef_ne_of_ne (by decide)), Function.update_of_ne (StableHlo.devRef_ne_of_ne (by decide)),
    Function.update_self]
theorem Wexit_v4_1 (c : Dev nD) : Wexit m c (Proc.devRef .tc main_v4_1) = (dats m 0 c).arrAt 4 cfg0.N := by
  unfold Wexit
  rw [Function.update_of_ne (StableHlo.devRef_ne_of_ne (by decide)), Function.update_self]
theorem Wexit_v4_2 (c : Dev nD) : Wexit m c (Proc.devRef .tc main_v4_2) = (dats m 0 c).arrAt 5 cfg0.N := by
  unfold Wexit
  rw [Function.update_self]
theorem Wexit_of_ne (c : Dev nD) (b : Ref sig .tc) (h0 : b ≠ main_v4_0) (h1 : b ≠ main_v4_1) (h2 : b ≠ main_v4_2) :
    Wexit m c (Proc.devRef .tc b) = V0 m c (Proc.devRef .tc b) := by
  unfold Wexit
  rw [Function.update_of_ne (StableHlo.devRef_ne_of_ne h2), Function.update_of_ne (StableHlo.devRef_ne_of_ne h1),
    Function.update_of_ne (StableHlo.devRef_ne_of_ne h0)]

/-! ## @main around the region -/

/-- The stretches before the region allocate nothing. -/
theorem pre_fresh : ([hostOps0, hostOps0_1, hostOps0_2] : List (List (HloOp τ sig (Elt F)))).Forall fun ops => ops.Forall fun op => op.fresh = ∅ := by
  simp only [List.Forall]; repeat' constructor

/-- @main is three stretches of host operations, the region, nine stretches: it reduces to the region continued by
    the nine, at the contents after the three. -/
theorem hmain : Pipeline.HMainK (Ix := Unit) (Name := ℕ) (U := UR sig nD τ) (Lvl := ℕ) cfgs 0 defs₀ Variants.none m (main (F := F)) (V m)
      (fun _ => Pipeline.chain ((tailOps (F := F)).map StableHlo.seq)) :=
  Pipeline.hmain_around cfgs 0 defs₀ Variants.none m main [hostOps0, hostOps0_1, hostOps0_2] tailOps
    ⟨hostOps0_sub, hostOps0_1_sub, hostOps0_2_sub⟩ pre_fresh main_chain

/-! ## The arrays when the region is entered -/

/-- The five buffers behind the six windows' arrays. -/
theorem arrImage : Finset.univ.image (Pipeline.arrRef spec0) = [main_v3, main_v0, main_v4_0, main_v4_1, main_v4_2].toFinset := by decide

/-- A conjunction over them, one by one. -/
theorem bigSep_arrs {M : Type} [URA M] (Φ : Ref sig .tc → sProp M) :
    bigSep (Finset.univ.image (Pipeline.arrRef spec0)) Φ = iprop(Φ main_v3 ∗ Φ main_v0 ∗ Φ main_v4_0 ∗ Φ main_v4_1 ∗ Φ main_v4_2) :=
  bigSep_eq_bigSepL_of_eq [main_v3, main_v0, main_v4_0, main_v4_1, main_v4_2] arrImage (by decide) Φ

/-- A whole buffer at the full share is its left and its right half. -/
theorem halves (c : Dev nD) (b : Ref sig .tc) (f : Buf (Elt F) ((c.tc : Thread nD τ).loc b)) :
    ((((c.tc : Thread nD τ).loc b) ↦{fullShare} f) : sProp 𝕄)
      ⊢ iprop((((c.tc : Thread nD τ).loc b) ↦{fullShare.left} f) ∗ (((c.tc : Thread nD τ).loc b) ↦{fullShare.right} f)) :=
  (pointsTo_share (PosShare.mem_left_op_right fullShare)).1

/-- The launch hands the pipeline five whole buffers; the six windows hold the permutation matrix, the LEFT and the
    RIGHT half of the flattened logits, and the three result arrays. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_arrs, bigSep_W0]
  rw [(arr_whole0 0).set_eq_univ, (arr_whole0 1).set_eq_univ, (arr_whole0 3).set_eq_univ,
    (arr_whole0 4).set_eq_univ, (arr_whole0 5).set_eq_univ]
  iintro ⟨H3, H0, R0, R1, R2⟩
  ihave H0' := (halves c main_v0 _) $$ H0
  icases H0' with ⟨Hl, Hr⟩
  isplitl [H3]; · iexact H3
  isplitl [Hl]; · iexact Hl
  isplitl [Hr]; · iexact Hr
  isplitl [R0]; · iexact R0
  isplitl [R1]; · iexact R1
  iexact R2

/-! ## The operations after the region -/

/-- What holds of every operation after the region: it allocates nothing, touches neither the flattened logits nor the
    permutation matrix, and writes none of the three result arrays. -/
abbrev Apart (op : HloOp τ sig (Elt F)) : Prop :=
  op.fresh = ∅ ∧ Proc.devRef .tc main_v0 ∉ op.bufs ∧ Proc.devRef .tc main_v3 ∉ op.bufs
    ∧ Proc.devRef .tc main_v4_0 ∉ op.writes ∧ Proc.devRef .tc main_v4_1 ∉ op.writes ∧ Proc.devRef .tc main_v4_2 ∉ op.writes

theorem apart1 : (hostOps1 : List (HloOp τ sig (Elt F))).Forall Apart := by
  simp only [List.Forall]
  repeat' constructor
  all_goals
    simp only [StableHlo.nullary_bufs, StableHlo.unary_bufs, StableHlo.binary_bufs, StableHlo.ternary_bufs, StableHlo.reshape_bufs,
      StableHlo.nullary_writes, StableHlo.unary_writes, StableHlo.binary_writes, StableHlo.ternary_writes, StableHlo.reshape_writes,
      Finset.mem_insert, Finset.mem_singleton, not_or]
    repeat' constructor
    all_goals exact StableHlo.devRef_ne_of_ne (by decide)

theorem apart1_1 : (hostOps1_1 : List (HloOp τ sig (Elt F))).Forall Apart := by
  simp only [List.Forall]
  repeat' constructor
  all_goals
    simp only [StableHlo.nullary_bufs, StableHlo.unary_bufs, StableHlo.binary_bufs, StableHlo.ternary_bufs, StableHlo.reshape_bufs,
      StableHlo.nullary_writes, StableHlo.unary_writes, StableHlo.binary_writes, StableHlo.ternary_writes, StableHlo.reshape_writes,
      Finset.mem_insert, Finset.mem_singleton, not_or]
    repeat' constructor
    all_goals exact StableHlo.devRef_ne_of_ne (by decide)

theorem apart1_2 : (hostOps1_2 : List (HloOp τ sig (Elt F))).Forall Apart := by
  simp only [List.Forall]
  repeat' constructor
  all_goals
    simp only [StableHlo.nullary_bufs, StableHlo.unary_bufs, StableHlo.binary_bufs, StableHlo.ternary_bufs, StableHlo.reshape_bufs,
      StableHlo.nullary_writes, StableHlo.unary_writes, StableHlo.binary_writes, StableHlo.ternary_writes, StableHlo.reshape_writes,
      Finset.mem_insert, Finset.mem_singleton, not_or]
    repeat' constructor
    all_goals exact StableHlo.devRef_ne_of_ne (by decide)

theorem apart1_3 : (hostOps1_3 : List (HloOp τ sig (Elt F))).Forall Apart := by
  simp only [List.Forall]
  repeat' constructor
  all_goals
    simp only [StableHlo.nullary_bufs, StableHlo.unary_bufs, StableHlo.binary_bufs, StableHlo.ternary_bufs, StableHlo.reshape_bufs,
      StableHlo.nullary_writes, StableHlo.unary_writes, StableHlo.binary_writes, StableHlo.ternary_writes, StableHlo.reshape_writes,
      Finset.mem_insert, Finset.mem_singleton, not_or]
    repeat' constructor
    all_goals exact StableHlo.devRef_ne_of_ne (by decide)

theorem apart1_4 : (hostOps1_4 : List (HloOp τ sig (Elt F))).Forall Apart := by
  simp only [List.Forall]
  repeat' constructor
  all_goals
    simp only [StableHlo.nullary_bufs, StableHlo.unary_bufs, StableHlo.binary_bufs, StableHlo.ternary_bufs, StableHlo.reshape_bufs,
      StableHlo.nullary_writes, StableHlo.unary_writes, StableHlo.binary_writes, StableHlo.ternary_writes, StableHlo.reshape_writes,
      Finset.mem_insert, Finset.mem_singleton, not_or]
    repeat' constructor
    all_goals exact StableHlo.devRef_ne_of_ne (by decide)

theorem apart1_5 : (hostOps1_5 : List (HloOp τ sig (Elt F))).Forall Apart := by
  simp only [List.Forall]
  repeat' constructor
  all_goals
    simp only [StableHlo.nullary_bufs, StableHlo.unary_bufs, StableHlo.binary_bufs, StableHlo.ternary_bufs, StableHlo.reshape_bufs,
      StableHlo.nullary_writes, StableHlo.unary_writes, StableHlo.binary_writes, StableHlo.ternary_writes, StableHlo.reshape_writes,
      Finset.mem_insert, Finset.mem_singleton, not_or]
    repeat' constructor
    all_goals exact StableHlo.devRef_ne_of_ne (by decide)

theorem apart1_6 : (hostOps1_6 : List (HloOp τ sig (Elt F))).Forall Apart := by
  simp only [List.Forall]
  repeat' constructor
  all_goals
    simp only [StableHlo.nullary_bufs, StableHlo.unary_bufs, StableHlo.binary_bufs, StableHlo.ternary_bufs, StableHlo.reshape_bufs,
      StableHlo.nullary_writes, StableHlo.unary_writes, StableHlo.binary_writes, StableHlo.ternary_writes, StableHlo.reshape_writes,
      Finset.mem_insert, Finset.mem_singleton, not_or]
    repeat' constructor
    all_goals exact StableHlo.devRef_ne_of_ne (by decide)

theorem apart1_7 : (hostOps1_7 : List (HloOp τ sig (Elt F))).Forall Apart := by
  simp only [List.Forall]
  repeat' constructor
  all_goals
    simp only [StableHlo.nullary_bufs, StableHlo.unary_bufs, StableHlo.binary_bufs, StableHlo.ternary_bufs, StableHlo.reshape_bufs,
      StableHlo.nullary_writes, StableHlo.unary_writes, StableHlo.binary_writes, StableHlo.ternary_writes, StableHlo.reshape_writes,
      Finset.mem_insert, Finset.mem_singleton, not_or]
    repeat' constructor
    all_goals exact StableHlo.devRef_ne_of_ne (by decide)

theorem apart1_8 : (hostOps1_8 : List (HloOp τ sig (Elt F))).Forall Apart := by
  simp only [List.Forall]
  repeat' constructor
  all_goals
    simp only [StableHlo.nullary_bufs, StableHlo.unary_bufs, StableHlo.binary_bufs, StableHlo.ternary_bufs, StableHlo.reshape_bufs,
      StableHlo.nullary_writes, StableHlo.unary_writes, StableHlo.binary_writes, StableHlo.ternary_writes, StableHlo.reshape_writes,
      Finset.mem_insert, Finset.mem_singleton, not_or]
    repeat' constructor
    all_goals exact StableHlo.devRef_ne_of_ne (by decide)

/-- Of every operation of the nine stretches. -/
theorem tail_apart : ∀ ops ∈ (tailOps (F := F)), ∀ op ∈ ops, Apart op := by
  have h : (tailOps (F := F)).Forall fun ops => ops.Forall Apart :=
    ⟨apart1, apart1_1, apart1_2, apart1_3, apart1_4, apart1_5, apart1_6, apart1_7, apart1_8⟩
  exact fun ops hops => List.forall_iff_forall_mem.mp (List.forall_iff_forall_mem.mp h ops hops)

/-- Each touches TensorCore references only. -/
theorem tail_tc : ∀ ops ∈ (tailOps (F := F)), ∀ op ∈ ops, op.bufs ⊆ StableHlo.tcRefs τ sig := by
  have h : (tailOps (F := F)).Forall fun ops => ops.Forall fun op => op.bufs ⊆ StableHlo.tcRefs τ sig :=
    ⟨hostOps1_sub, hostOps1_1_sub, hostOps1_2_sub, hostOps1_3_sub, hostOps1_4_sub, hostOps1_5_sub, hostOps1_6_sub, hostOps1_7_sub, hostOps1_8_sub⟩
  exact fun ops hops => List.forall_iff_forall_mem.mp (List.forall_iff_forall_mem.mp h ops hops)

/-- The references the nine stretches run within: the buffers that bypass the region and the three result arrays. -/
abbrev tailT : Finset (Ref sig .tc) := Pipeline.restRefs sig spec0 ∪ {main_v4_0, main_v4_1, main_v4_2}
/-- The same as device buffers. -/
abbrev tailS : Finset (DevRef τ sig) := tailT.map ⟨Proc.devRef (sig := sig) .tc, Proc.devRef_injective _⟩

/-- An operation on TensorCore references that touches neither the flattened logits nor the permutation matrix runs
    within them: an unscoped reference is an array of the region (one of five) or bypasses it. -/
theorem sub_tailS (op : HloOp τ sig (Elt F)) (h₁ : op.bufs ⊆ StableHlo.tcRefs τ sig) (h : Apart op) : op.bufs ⊆ tailS := by
  intro b hb
  have hu : b ∈ Pipeline.ucRefs τ sig := Pipeline.sub_ucRefs op h₁ hb
  simp only [Pipeline.ucRefs, StableHlo.tcRefs, Finset.mem_filter, Finset.mem_map, Finset.mem_univ, true_and,
    Function.Embedding.coeFn_mk] at hu
  obtain ⟨⟨r, rfl⟩, hr⟩ := hu
  refine Finset.mem_map.mpr ⟨r, ?_, rfl⟩
  by_cases ha : r ∈ Finset.univ.image (Pipeline.arrRef spec0)
  · rw [arrImage] at ha
    simp only [List.toFinset_cons, List.toFinset_nil, insert_empty_eq, Finset.mem_insert, Finset.mem_singleton] at ha
    rcases ha with rfl | rfl | rfl | rfl | rfl
    · exact absurd hb h.2.2.1
    · exact absurd hb h.2.1
    · exact Finset.mem_union_right _ (by decide)
    · exact Finset.mem_union_right _ (by decide)
    · exact Finset.mem_union_right _ (by decide)
  · exact Finset.mem_union_left _ (Finset.mem_sdiff.mpr ⟨Finset.mem_filter.mpr ⟨Finset.mem_univ _, hr⟩, ha⟩)

/-- The nine stretches run within them, -/
theorem tail_sub : ∀ ops ∈ (tailOps (F := F)), ∀ op ∈ ops, op.bufs ⊆ tailS := fun ops hops op hop =>
  sub_tailS op (tail_tc ops hops op hop) (tail_apart ops hops op hop)
/-- allocating nothing. -/
theorem tail_fresh : ∀ ops ∈ (tailOps (F := F)), ∀ op ∈ ops, op.fresh = ∅ := fun ops hops op hop => (tail_apart ops hops op hop).1

/-- A buffer that bypasses the region is no window's array. -/
theorem ne_of_rest {b : Ref sig .tc} (hb : b ∈ Pipeline.restRefs sig spec0) (w : Fin 6) : b ≠ Pipeline.arrRef spec0 w :=
  fun e => (Finset.mem_sdiff.mp hb).2 (e ▸ Finset.mem_image.mpr ⟨w, Finset.mem_univ _, rfl⟩)

/-- Those buffers held at a valuation: the buffers that bypass the region, and the three result arrays. -/
theorem held_tailS (c : Dev nD) (W : Valuation τ sig (Elt F)) :
    (StableHlo.held (c.tc : Thread nD τ) tailS W : sProp 𝕄)
      = iprop(Pipeline.unscopedRest spec0 c (fun b => W (Proc.devRef .tc b))
          ∗ (((c.tc : Thread nD τ).loc main_v4_0) ↦{fullShare} W (Proc.devRef .tc main_v4_0))
          ∗ (((c.tc : Thread nD τ).loc main_v4_1) ↦{fullShare} W (Proc.devRef .tc main_v4_1))
          ∗ (((c.tc : Thread nD τ).loc main_v4_2) ↦{fullShare} W (Proc.devRef .tc main_v4_2))) := by
  have hdisj : Disjoint (Pipeline.restRefs sig spec0) ({main_v4_0, main_v4_1, main_v4_2} : Finset (Ref sig .tc)) :=
    Finset.disjoint_left.mpr fun b hb hr => by
      simp only [Finset.mem_insert, Finset.mem_singleton] at hr
      rcases hr with rfl | rfl | rfl
      · exact ne_of_rest hb 3 rfl
      · exact ne_of_rest hb 4 rfl
      · exact ne_of_rest hb 5 rfl
  unfold StableHlo.held Pipeline.unscopedRest
  rw [bigSep_map, bigSep_union hdisj, bigSep_insert (by decide), bigSep_insert (by decide), bigSep_singleton]
  rfl

/-- The buffers that bypass the region hold at the region's exit what they held at its entry. -/
theorem rest_Wexit (c : Dev nD) :
    (Pipeline.unscopedRest spec0 c (fun b => Wexit m c (Proc.devRef .tc b)) : sProp 𝕄) = Pipeline.unscopedRest spec0 c (V m c) := by
  unfold Pipeline.unscopedRest
  exact bigSep_congr fun b hb => by beta_reduce; rw [Wexit_of_ne m c b (ne_of_rest hb 3) (ne_of_rest hb 4) (ne_of_rest hb 5)]

/-- No operation after the region writes a result array: each holds at the end what the pipeline wrote back. -/
theorem Wfin_v4_0 (c : Dev nD) : Wfin m c (Proc.devRef .tc main_v4_0) = (dats m 0 c).arrAt 3 cfg0.N := by
  unfold Wfin
  rw [StableHlo.after_of_forall_not_mem _ _ fun op hop => ?_, Wexit_v4_0]
  obtain ⟨ops, hops, hop⟩ := List.mem_flatten.mp hop
  exact (tail_apart ops hops op hop).2.2.2.1
theorem Wfin_v4_1 (c : Dev nD) : Wfin m c (Proc.devRef .tc main_v4_1) = (dats m 0 c).arrAt 4 cfg0.N := by
  unfold Wfin
  rw [StableHlo.after_of_forall_not_mem _ _ fun op hop => ?_, Wexit_v4_1]
  obtain ⟨ops, hops, hop⟩ := List.mem_flatten.mp hop
  exact (tail_apart ops hops op hop).2.2.2.2.1
theorem Wfin_v4_2 (c : Dev nD) : Wfin m c (Proc.devRef .tc main_v4_2) = (dats m 0 c).arrAt 5 cfg0.N := by
  unfold Wfin
  rw [StableHlo.after_of_forall_not_mem _ _ fun op hop => ?_, Wexit_v4_2]
  obtain ⟨ops, hops, hop⟩ := List.mem_flatten.mp hop
  exact (tail_apart ops hops op hop).2.2.2.2.2

/-- The pipeline's arrays window by window, the three result arrays as whole buffers at the full share. -/
theorem arrays_results (c : Dev nD) (G : (w : Fin cfg0.W) → Buf (Elt F) ((cfg0.win w).arr.view.loc (c.tc : Thread nD τ))) :
    ((dats m 0 c).arrays G : sProp 𝕄)
      = iprop(((cfg0.win 0).arr.view.loc (c.tc : Thread nD τ) ↦[(cfg0.win 0).arr.view.set]{(dats m 0 c).share 0} G 0)
          ∗ ((cfg0.win 1).arr.view.loc (c.tc : Thread nD τ) ↦[(cfg0.win 1).arr.view.set]{(dats m 0 c).share 1} G 1)
          ∗ ((cfg0.win 2).arr.view.loc (c.tc : Thread nD τ) ↦[(cfg0.win 2).arr.view.set]{(dats m 0 c).share 2} G 2)
          ∗ (((c.tc : Thread nD τ).loc main_v4_0) ↦{fullShare} G 3)
          ∗ (((c.tc : Thread nD τ).loc main_v4_1) ↦{fullShare} G 4)
          ∗ (((c.tc : Thread nD τ).loc main_v4_2) ↦{fullShare} G 5)) := by
  unfold Dat.arrays
  rw [bigSep_W0, (arr_whole0 3).set_eq_univ, (arr_whole0 4).set_eq_univ, (arr_whole0 5).set_eq_univ]
  rfl

set_option backward.isDefEq.respectTransparency.types false in
/-- THE OPERATIONS AFTER THE REGION. From the region's exit — the boundary, the six windows' holdings, the buffers that
    bypass the region — the nine stretches run within the bypassing buffers and the three result arrays, beside the two
    halves of the flattened logits and the permutation matrix, and hand the windows' holdings back unchanged. -/
theorem htail (c : Dev nD) (Q' : PUnit → sProp 𝕄) :
    iprop((iprop((dats m 0 c).arrays ((dats m 0 c).arrAt · cfg0.N) ∗ Pipeline.unscopedRest spec0 c (fun b => Wfin m c (Proc.devRef .tc b))) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun q => (cfgs q).toPCfg (Val := Elt F)) defs₀) (Variants.lift Variants.none) (c.tc : Thread nD τ) none) Set.univ
          (Pipeline.chain ((tailOps (F := F)).map StableHlo.seq)) Q' := by
  have hW : (StableHlo.held (c.tc : Thread nD τ) tailS (Wexit m c) : sProp 𝕄)
      = iprop(Pipeline.unscopedRest spec0 c (V m c)
          ∗ (((c.tc : Thread nD τ).loc main_v4_0) ↦{fullShare} (dats m 0 c).arrAt 3 cfg0.N)
          ∗ (((c.tc : Thread nD τ).loc main_v4_1) ↦{fullShare} (dats m 0 c).arrAt 4 cfg0.N)
          ∗ (((c.tc : Thread nD τ).loc main_v4_2) ↦{fullShare} (dats m 0 c).arrAt 5 cfg0.N)) := by
    rw [held_tailS, rest_Wexit, Wexit_v4_0, Wexit_v4_1, Wexit_v4_2]
  have hW' : (StableHlo.held (c.tc : Thread nD τ) tailS (StableHlo.after (List.flatten (tailOps (F := F))) (Wexit m c)) : sProp 𝕄)
      = iprop(Pipeline.unscopedRest spec0 c (fun b => Wfin m c (Proc.devRef .tc b))
          ∗ (((c.tc : Thread nD τ).loc main_v4_0) ↦{fullShare} (dats m 0 c).arrAt 3 cfg0.N)
          ∗ (((c.tc : Thread nD τ).loc main_v4_1) ↦{fullShare} (dats m 0 c).arrAt 4 cfg0.N)
          ∗ (((c.tc : Thread nD τ).loc main_v4_2) ↦{fullShare} (dats m 0 c).arrAt 5 cfg0.N)) := by
    rw [show StableHlo.after (List.flatten (tailOps (F := F))) (Wexit m c) = Wfin m c from rfl, held_tailS, Wfin_v4_0, Wfin_v4_1, Wfin_v4_2]
  rw [arrays_results, ← List.append_nil ((tailOps (F := F)).map StableHlo.seq)]
  iintro ⟨Hk, Hb, ⟨H0, H1, H2, H3, H4, H5⟩, HZ⟩
  iapply (Pipeline.wp_seqs_then (fun q => (cfgs q).toPCfg (Val := Elt F)) defs₀ Variants.none c tailS [] tailOps tail_sub tail_fresh (Wexit m c)) $$ [Hb HZ H3 H4 H5]
  · rw [hW]
    isplitl [Hb]; · iexact Hb
    isplitl [HZ]; · iexact HZ
    isplitl [H3]; · iexact H3
    isplitl [H4]; · iexact H4
    iexact H5
  iintro Hb
  rw [Pipeline.chain_nil, wp_pure, hW']
  imodintro
  iapply Hk
  icases Hb with ⟨-, HZ, H3, H4, H5⟩
  isplitr [HZ]
  · isplitl [H0]; · iexact H0
    isplitl [H1]; · iexact H1
    isplitl [H2]; · iexact H2
    isplitl [H3]; · iexact H3
    isplitl [H4]; · iexact H4
    iexact H5
  · iexact HZ

/-! ## The run -/

-- the launch theorem's implicit arguments are found by unifying its conclusion with this one, which takes unfolding plain
-- definitions in a metavariable's type
set_option backward.isDefEq.respectTransparency.types false in
/-- At the compiled mesh, from any memory with zero counters: every weakly fair execution of @main terminates, nothing
    faulting, and in every final state each unscoped buffer that is no array of the region holds what the operations
    after the region leave in it. -/
theorem run_main_of
    (hbody : ∀ c, Pipeline.BodyObligationLoose (dats (F := F) m 0 c) (defs₀ (F := F)) Variants.none () Set.univ)
    (hin : ∀ c, Pipeline.ΦA spec0 c ⊢ (dats m 0 c).Φ 0)
    (hout : ∀ c, (dats m 0 c).Φ (Fin.last cfg0.N) ⊢ Pipeline.ΦA spec0 c) :
    θ_run defs (onTc (τ := τ) (main (F := F))) ⟨m, fun _ => 0, ρ⟩ (fun r => ∀ c : Dev nD,
      ∀ b ∈ Pipeline.restRefs sig spec0, r.2.mem ((c : Thread nD τ).loc b) = Wfin m c (Proc.devRef .tc b)) := by
  refine Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain ((tailOps (F := F)).map StableHlo.seq)) hbody
    block_pos0 arr_whole0 stage_whole0 (fun _ _ => rfl)
    (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := ?hm)
    (hsplit := hsplit m)
    (hpf := fun _ k => k.elim0)
    (X := fun c => iprop(∃ r, prngReg c r)) (Y := fun c => iprop(∃ r, prngReg c r))
    (Z := fun c => Pipeline.unscopedRest spec0 c (V m c))
    (Z' := fun c => Pipeline.unscopedRest spec0 c (fun b => Wfin m c (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefs sig spec0, s.mem ((c.tc : Thread nD τ).loc b) = Wfin m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => Wfin m c (Proc.devRef .tc b)) s')
      isplitl [HU] <;> iassumption)
    (hQ := fun s h c => (h c).2.2)
  case hm =>
    -- the two statements differ by unreduced applications of the configuration family only: matched part by part
    intro c Q
    have h := hmain m c Q
    convert h using 4

end Cert.Kernel.Frame

end
-- ==== Proof.FrameRunBits.lean ====
/-
  The fused kernel's program run to its end: every weakly fair execution terminates without a fault; the ten
  argument arrays end as they began (no host operation writes one, and none is an array of the region), and the
  result is what the operations after the region compute from the region's three result arrays.
-/
import proofs.«409875_j8435315769968_3_alg».proof.Proof.FrameBodyBits
import proofs.«409875_j8435315769968_3_alg».proof.Proof.FrameLaunchBits

set_option maxRecDepth 16384

noncomputable section

namespace Cert.Kernel.Frame

open Cert.Kernel Cert.Kernel.Gen Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

/-- The run, with the body obligation and the invariant's two ends supplied. -/
theorem run_main : θ_run defs (onTc (τ := τ) (main (F := F))) ⟨m, fun _ => 0, ρ⟩ (fun r => ∀ c : Dev nD,
      ∀ b ∈ Pipeline.restRefs sig spec0, r.2.mem ((c : Thread nD τ).loc b) = Wfin m c (Proc.devRef .tc b)) :=
  run_main_of m ρ (fun c => (body_obligation m c).loose) (hin m) (hout m)

/-! ## No host operation writes an argument -/

theorem V0_arg0 (c : Dev nD) : V0 m c (Proc.devRef .tc main_arg0) = m ((c : Thread nD τ).loc main_arg0) := by
  dsimp only [V0]
  simp only [hostOps0, hostOps0_1, hostOps0_2, List.flatten_cons, List.flatten_nil, List.append_nil, List.cons_append, List.nil_append]
  after_results_simp <;> rfl

set_option maxHeartbeats 4000000 in
theorem Wfin_arg0 (c : Dev nD) : Wfin m c (Proc.devRef .tc main_arg0) = m ((c : Thread nD τ).loc main_arg0) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg0 (by decide) (by decide) (by decide)).trans (V0_arg0 m c))

theorem V0_arg1 (c : Dev nD) : V0 m c (Proc.devRef .tc main_arg1) = m ((c : Thread nD τ).loc main_arg1) := by
  dsimp only [V0]
  simp only [hostOps0, hostOps0_1, hostOps0_2, List.flatten_cons, List.flatten_nil, List.append_nil, List.cons_append, List.nil_append]
  after_results_simp <;> rfl

set_option maxHeartbeats 4000000 in
theorem Wfin_arg1 (c : Dev nD) : Wfin m c (Proc.devRef .tc main_arg1) = m ((c : Thread nD τ).loc main_arg1) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg1 (by decide) (by decide) (by decide)).trans (V0_arg1 m c))

theorem V0_arg2 (c : Dev nD) : V0 m c (Proc.devRef .tc main_arg2) = m ((c : Thread nD τ).loc main_arg2) := by
  dsimp only [V0]
  simp only [hostOps0, hostOps0_1, hostOps0_2, List.flatten_cons, List.flatten_nil, List.append_nil, List.cons_append, List.nil_append]
  after_results_simp <;> rfl

set_option maxHeartbeats 4000000 in
theorem Wfin_arg2 (c : Dev nD) : Wfin m c (Proc.devRef .tc main_arg2) = m ((c : Thread nD τ).loc main_arg2) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg2 (by decide) (by decide) (by decide)).trans (V0_arg2 m c))

theorem V0_arg3 (c : Dev nD) : V0 m c (Proc.devRef .tc main_arg3) = m ((c : Thread nD τ).loc main_arg3) := by
  dsimp only [V0]
  simp only [hostOps0, hostOps0_1, hostOps0_2, List.flatten_cons, List.flatten_nil, List.append_nil, List.cons_append, List.nil_append]
  after_results_simp <;> rfl

set_option maxHeartbeats 4000000 in
theorem Wfin_arg3 (c : Dev nD) : Wfin m c (Proc.devRef .tc main_arg3) = m ((c : Thread nD τ).loc main_arg3) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg3 (by decide) (by decide) (by decide)).trans (V0_arg3 m c))

theorem V0_arg4 (c : Dev nD) : V0 m c (Proc.devRef .tc main_arg4) = m ((c : Thread nD τ).loc main_arg4) := by
  dsimp only [V0]
  simp only [hostOps0, hostOps0_1, hostOps0_2, List.flatten_cons, List.flatten_nil, List.append_nil, List.cons_append, List.nil_append]
  after_results_simp <;> rfl

set_option maxHeartbeats 4000000 in
theorem Wfin_arg4 (c : Dev nD) : Wfin m c (Proc.devRef .tc main_arg4) = m ((c : Thread nD τ).loc main_arg4) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg4 (by decide) (by decide) (by decide)).trans (V0_arg4 m c))

theorem V0_arg5 (c : Dev nD) : V0 m c (Proc.devRef .tc main_arg5) = m ((c : Thread nD τ).loc main_arg5) := by
  dsimp only [V0]
  simp only [hostOps0, hostOps0_1, hostOps0_2, List.flatten_cons, List.flatten_nil, List.append_nil, List.cons_append, List.nil_append]
  after_results_simp <;> rfl

set_option maxHeartbeats 4000000 in
theorem Wfin_arg5 (c : Dev nD) : Wfin m c (Proc.devRef .tc main_arg5) = m ((c : Thread nD τ).loc main_arg5) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg5 (by decide) (by decide) (by decide)).trans (V0_arg5 m c))

theorem V0_arg6 (c : Dev nD) : V0 m c (Proc.devRef .tc main_arg6) = m ((c : Thread nD τ).loc main_arg6) := by
  dsimp only [V0]
  simp only [hostOps0, hostOps0_1, hostOps0_2, List.flatten_cons, List.flatten_nil, List.append_nil, List.cons_append, List.nil_append]
  after_results_simp <;> rfl

set_option maxHeartbeats 4000000 in
theorem Wfin_arg6 (c : Dev nD) : Wfin m c (Proc.devRef .tc main_arg6) = m ((c : Thread nD τ).loc main_arg6) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg6 (by decide) (by decide) (by decide)).trans (V0_arg6 m c))

theorem V0_arg7 (c : Dev nD) : V0 m c (Proc.devRef .tc main_arg7) = m ((c : Thread nD τ).loc main_arg7) := by
  dsimp only [V0]
  simp only [hostOps0, hostOps0_1, hostOps0_2, List.flatten_cons, List.flatten_nil, List.append_nil, List.cons_append, List.nil_append]
  after_results_simp <;> rfl

set_option maxHeartbeats 4000000 in
theorem Wfin_arg7 (c : Dev nD) : Wfin m c (Proc.devRef .tc main_arg7) = m ((c : Thread nD τ).loc main_arg7) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg7 (by decide) (by decide) (by decide)).trans (V0_arg7 m c))

theorem V0_arg8 (c : Dev nD) : V0 m c (Proc.devRef .tc main_arg8) = m ((c : Thread nD τ).loc main_arg8) := by
  dsimp only [V0]
  simp only [hostOps0, hostOps0_1, hostOps0_2, List.flatten_cons, List.flatten_nil, List.append_nil, List.cons_append, List.nil_append]
  after_results_simp <;> rfl

set_option maxHeartbeats 4000000 in
theorem Wfin_arg8 (c : Dev nD) : Wfin m c (Proc.devRef .tc main_arg8) = m ((c : Thread nD τ).loc main_arg8) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg8 (by decide) (by decide) (by decide)).trans (V0_arg8 m c))

theorem V0_arg9 (c : Dev nD) : V0 m c (Proc.devRef .tc main_arg9) = m ((c : Thread nD τ).loc main_arg9) := by
  dsimp only [V0]
  simp only [hostOps0, hostOps0_1, hostOps0_2, List.flatten_cons, List.flatten_nil, List.append_nil, List.cons_append, List.nil_append]
  after_results_simp <;> rfl

set_option maxHeartbeats 4000000 in
theorem Wfin_arg9 (c : Dev nD) : Wfin m c (Proc.devRef .tc main_arg9) = m ((c : Thread nD τ).loc main_arg9) := by
  unfold Wfin
  simp only [tailOps, hostOps1, hostOps1_1, hostOps1_2, hostOps1_3, hostOps1_4, hostOps1_5, hostOps1_6, hostOps1_7, hostOps1_8,
    List.flatten_cons, List.flatten_nil, List.append_nil, List.cons_append, List.nil_append]
  refine Eq.trans (by after_results_simp <;> rfl) ((Wexit_of_ne m c main_arg9 (by decide) (by decide) (by decide)).trans (V0_arg9 m c))

/-! ## The frame, and the run with its result named -/

/-- Every argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c main_arg0 (by decide)).trans (Wfin_arg0 m c),
      (h c main_arg1 (by decide)).trans (Wfin_arg1 m c),
      (h c main_arg2 (by decide)).trans (Wfin_arg2 m c),
      (h c main_arg3 (by decide)).trans (Wfin_arg3 m c),
      (h c main_arg4 (by decide)).trans (Wfin_arg4 m c),
      (h c main_arg5 (by decide)).trans (Wfin_arg5 m c),
      (h c main_arg6 (by decide)).trans (Wfin_arg6 m c),
      (h c main_arg7 (by decide)).trans (Wfin_arg7 m c),
      (h c main_arg8 (by decide)).trans (Wfin_arg8 m c),
      (h c main_arg9 (by decide)).trans (Wfin_arg9 m c)⟩) (run_main m ρ)

/-- The same run, the result buffer at what the operations after the region leave in it. -/
theorem run_value : θ_run defs (onTc (τ := τ) (main (F := F))) ⟨m, fun _ => 0, ρ⟩ (fun r => ∀ c : Dev nD,
      r.2.mem ((c.tc : Thread nD τ).loc main_v98) = Wfin m c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c main_v98 (by decide),
      (h c main_arg0 (by decide)).trans (Wfin_arg0 m c),
      (h c main_arg1 (by decide)).trans (Wfin_arg1 m c),
      (h c main_arg2 (by decide)).trans (Wfin_arg2 m c),
      (h c main_arg3 (by decide)).trans (Wfin_arg3 m c),
      (h c main_arg4 (by decide)).trans (Wfin_arg4 m c),
      (h c main_arg5 (by decide)).trans (Wfin_arg5 m c),
      (h c main_arg6 (by decide)).trans (Wfin_arg6 m c),
      (h c main_arg7 (by decide)).trans (Wfin_arg7 m c),
      (h c main_arg8 (by decide)).trans (Wfin_arg8 m c),
      (h c main_arg9 (by decide)).trans (Wfin_arg9 m c)⟩) (run_main m ρ)

end Cert.Kernel.Frame

end
-- ==== Proof.Spec.lean ====
/-
  The mathematics both programs compute, at the ideal instance (floats are extended reals).

  For a voxel, the 32 channel logits `v` are turned into probabilities by the shifted softmax
  `SM v ch = exp (v ch - max v) / ∑ k, exp (v k - max v)`, the maximum taken as a fold of `max` from `-∞`.
  A channel permutation given by integer words `p e` acts on a channel vector through the 0/1 matrix
  `oneHot p e k = 1` when the word `p e` is `k`, else `0`.
-/
import Idealize.ShloMosaic.PureOps.Ideal
import Idealize.ShloMosaic.PureOps.Ideal.Laws

noncomputable section

namespace Cert.Proof.Spec

open Idealize.ShloMosaic

/-- The extended real the pattern of `-∞` denotes. -/
abbrev negInf : EReal := Ideal.ofBits .f32 0xFF800000#32

/-- The maximum of a channel vector, as a fold of `max` from `-∞`. -/
def vmax (v : Fin 32 → EReal) : EReal := (Finset.univ : Finset (Fin 32)).fold max negInf v

/-- The shifted exponential of one channel. -/
def sexp (v : Fin 32 → EReal) (ch : Fin 32) : EReal :=
  FloatOps.exp (F := Ideal) (φ := .f32) (FloatOps.subf (F := Ideal) (φ := .f32) (v ch) (vmax v))

/-- The softmax of a channel vector at one channel. -/
def SM (v : Fin 32 → EReal) (ch : Fin 32) : EReal :=
  FloatOps.divf (F := Ideal) (φ := .f32) (sexp v ch) (∑ k : Fin 32, sexp v k)

/-- The 0/1 matrix of the channel words `p`: row `e` has its one in column `(p e).toNat`. -/
def oneHot (p : Fin 32 → BitVec 32) (e k : Fin 32) : EReal := if p e = BitVec.ofNat 32 k.val then 1 else 0

/-- A row of the 0/1 matrix applied to a channel vector picks the channel the word names, when the word is in range. -/
theorem oneHot_sum (p : Fin 32 → BitVec 32) (e : Fin 32) (h : (p e).toNat < 32) (x : Fin 32 → EReal) :
    ∑ k : Fin 32, oneHot p e k * x k = x ⟨(p e).toNat, h⟩ := by
  rw [Finset.sum_eq_single (⟨(p e).toNat, h⟩ : Fin 32)]
  · have : p e = BitVec.ofNat 32 (p e).toNat := by simp
    simp [oneHot]
  · intro k _ hk
    have : p e ≠ BitVec.ofNat 32 k.val := by
      intro hh
      apply hk
      apply Fin.ext
      show k.val = (p e).toNat
      rw [hh, BitVec.toNat_ofNat]
      exact (Nat.mod_eq_of_lt (by have := k.isLt; omega)).symm
    simp [oneHot, this]
  · intro hh; exact absurd (Finset.mem_univ _) hh

/-! ## The three whole-volume quantities

  `L b ch n` are the logits with the 96·96·96 voxels flattened row-major to `n < 884736`, so that the plane
  `x` is the stretch `x·9216 ≤ n < (x+1)·9216`. -/

/-- The logits with the voxel coordinates `(x, y, z)` flattened row-major: `n = x·9216 + y·96 + z`. -/
def flat (X : Fin 2 → Fin 32 → Fin 96 → Fin 96 → Fin 96 → EReal) (b : Fin 2) (ch : Fin 32) (n : Fin 884736) : EReal :=
  X b ch ⟨n.val / 9216, by have := n.isLt; omega⟩ ⟨n.val / 96 % 96, Nat.mod_lt _ (by decide)⟩ ⟨n.val % 96, Nat.mod_lt _ (by decide)⟩

/-- The voxel of the mirrored plane: plane `x` goes to plane `95 - x`, the position inside the plane kept. -/
def mirror (n : Fin 884736) : Fin 884736 :=
  ⟨(95 - n.val / 9216) * 9216 + n.val % 9216, by
    have h1 : n.val % 9216 < 9216 := Nat.mod_lt _ (by decide)
    have h2 : 95 - n.val / 9216 ≤ 95 := Nat.sub_le _ _
    calc (95 - n.val / 9216) * 9216 + n.val % 9216 < 95 * 9216 + 9216 :=
          Nat.add_lt_add_of_le_of_lt (Nat.mul_le_mul_right _ h2) h1
      _ = 884736 := by decide⟩

/-- The probability of channel `ch` at voxel `n` of batch entry `b`. -/
def PR (L : Fin 2 → Fin 32 → Fin 884736 → EReal) (b : Fin 2) (ch : Fin 32) (n : Fin 884736) : EReal :=
  SM (fun k => L b k n) ch

/-- The channel adjacency: the probabilities' second moments over all voxels. -/
def Amat (L : Fin 2 → Fin 32 → Fin 884736 → EReal) (b : Fin 2) (ch d : Fin 32) : EReal :=
  ∑ n : Fin 884736, PR L b ch n * PR L b d n

/-- The channel volumes: the probabilities summed over all voxels. -/
def Vvec (L : Fin 2 → Fin 32 → Fin 884736 → EReal) (b : Fin 2) (ch : Fin 32) : EReal :=
  ∑ n : Fin 884736, PR L b ch n

/-- The channel a word names, as an index (the word reduced into range; in range it is the word itself). -/
def pidx (p : Fin 32 → BitVec 32) (e : Fin 32) : Fin 32 := ⟨(p e).toNat % 32, Nat.mod_lt _ (by decide)⟩

/-- The symmetry defect: every probability against the permuted channel's at the mirrored voxel, in absolute
    value, summed over everything. -/
def Ssum (L : Fin 2 → Fin 32 → Fin 884736 → EReal) (p : Fin 32 → BitVec 32) : EReal :=
  ∑ b : Fin 2, ∑ ch : Fin 32, ∑ n : Fin 884736,
    FloatOps.absf (F := Ideal) (φ := .f32) (FloatOps.subf (F := Ideal) (φ := .f32) (PR L b ch n) (PR L b (pidx p ch) (mirror n)))

end Cert.Proof.Spec

end
-- ==== Proof.LibSums.lean ====
/-
  Re-indexing identities for finite sums over a commutative additive monoid.

  A sum over a range of length `C * J` splits into `C` consecutive blocks of length `J`; a sum over
  `2 * H` consecutive blocks may be taken by pairing block `i` with its mirror block `2 * H - 1 - i`;
  reversing the order of the blocks does not change the sum; and a running accumulator that restarts at
  every multiple of `J` holds the partial sum of its block.  Only commutativity and associativity of
  addition are used.
-/
import Mathlib.Algebra.BigOperators.Intervals
import Mathlib.Algebra.BigOperators.Fin

namespace Cert.Proof.LibSums

open Finset

variable {M : Type*} [AddCommMonoid M]

/-- A sum over `C * J` consecutive indices is the sum over `C` blocks of the sums over each block of
length `J`: the index `i` is written `c * J + j` with `j < J`. -/
theorem sum_blocks (C J : ℕ) (h : ℕ → M) :
    ∑ c ∈ Finset.range C, ∑ j ∈ Finset.range J, h (c * J + j) = ∑ i ∈ Finset.range (C * J), h i := by
  induction C with
  | zero => simp
  | succ C ih =>
    rw [Finset.sum_range_succ, ih, Nat.succ_mul, Finset.sum_range_add]

/-- Reversing the order of `X` blocks of length `Y` does not change the sum of the blocks. -/
theorem sum_blocks_reflect (X Y : ℕ) (g : ℕ → M) :
    ∑ x ∈ Finset.range X, ∑ y ∈ Finset.range Y, g ((X - 1 - x) * Y + y)
      = ∑ x ∈ Finset.range X, ∑ y ∈ Finset.range Y, g (x * Y + y) :=
  Finset.sum_range_reflect (fun x => ∑ y ∈ Finset.range Y, g (x * Y + y)) X

/-- Pairing block `i` with its mirror block `2 * H - 1 - i`, for `i < H`, exhausts the `2 * H` blocks of
length `Y`, so the sum of the pair sums is the sum over all `2 * H * Y` indices. -/
theorem sum_mirror_pairs (H Y : ℕ) (g : ℕ → M) :
    ∑ i ∈ Finset.range H, (∑ y ∈ Finset.range Y, g (i * Y + y)
        + ∑ y ∈ Finset.range Y, g ((2 * H - 1 - i) * Y + y))
      = ∑ n ∈ Finset.range (2 * H * Y), g n := by
  -- the mirror blocks, read in reverse order, are the blocks `H, …, 2 * H - 1`
  have hmirror : ∑ i ∈ Finset.range H, ∑ y ∈ Finset.range Y, g ((2 * H - 1 - i) * Y + y)
      = ∑ i ∈ Finset.range H, ∑ y ∈ Finset.range Y, g ((H + i) * Y + y) := by
    rw [← Finset.sum_range_reflect (fun i => ∑ y ∈ Finset.range Y, g ((H + i) * Y + y)) H]
    refine Finset.sum_congr rfl fun i hi => ?_
    have hi' : i < H := Finset.mem_range.mp hi
    have e : 2 * H - 1 - i = H + (H - 1 - i) := by omega
    rw [e]
  rw [Finset.sum_add_distrib, hmirror, ← sum_blocks (2 * H) Y g, two_mul,
    Finset.sum_range_add (fun i => ∑ y ∈ Finset.range Y, g (i * Y + y)) H H]

/-- The `96` planes of `9216` voxels, walked as `2 * 24` mirror pairs (plane `c * 24 + j` together with
plane `95 - (c * 24 + j)`), cover all `884736` voxels exactly once. -/
theorem sum_planes (g : ℕ → M) :
    ∑ c : Fin 2, ∑ j : Fin 24, (∑ y : Fin 9216, g ((c.val * 24 + j.val) * 9216 + y.val)
        + ∑ y : Fin 9216, g ((95 - (c.val * 24 + j.val)) * 9216 + y.val))
      = ∑ n : Fin 884736, g n.val := by
  have hy : ∀ i : ℕ, (∑ y : Fin 9216, g (i * 9216 + y.val)
        + ∑ y : Fin 9216, g ((95 - i) * 9216 + y.val))
      = (∑ y ∈ Finset.range 9216, g (i * 9216 + y)
        + ∑ y ∈ Finset.range 9216, g ((2 * 48 - 1 - i) * 9216 + y)) := by
    intro i
    rw [Fin.sum_univ_eq_sum_range (fun y => g (i * 9216 + y)) 9216,
      Fin.sum_univ_eq_sum_range (fun y => g ((95 - i) * 9216 + y)) 9216]
  simp only [hy]
  rw [Fin.sum_univ_eq_sum_range
      (fun c => ∑ j : Fin 24, (∑ y ∈ Finset.range 9216, g ((c * 24 + j.val) * 9216 + y)
        + ∑ y ∈ Finset.range 9216, g ((2 * 48 - 1 - (c * 24 + j.val)) * 9216 + y))) 2]
  have hj : ∀ c : ℕ, ∑ j : Fin 24, (∑ y ∈ Finset.range 9216, g ((c * 24 + j.val) * 9216 + y)
        + ∑ y ∈ Finset.range 9216, g ((2 * 48 - 1 - (c * 24 + j.val)) * 9216 + y))
      = ∑ j ∈ Finset.range 24, (∑ y ∈ Finset.range 9216, g ((c * 24 + j) * 9216 + y)
        + ∑ y ∈ Finset.range 9216, g ((2 * 48 - 1 - (c * 24 + j)) * 9216 + y)) := fun c =>
    Fin.sum_univ_eq_sum_range
      (fun j => (∑ y ∈ Finset.range 9216, g ((c * 24 + j) * 9216 + y)
        + ∑ y ∈ Finset.range 9216, g ((2 * 48 - 1 - (c * 24 + j)) * 9216 + y))) 24
  simp only [hj]
  rw [sum_blocks 2 24 (fun i => (∑ y ∈ Finset.range 9216, g (i * 9216 + y)
        + ∑ y ∈ Finset.range 9216, g ((2 * 48 - 1 - i) * 9216 + y))),
    sum_mirror_pairs 48 9216 g, Fin.sum_univ_eq_sum_range g 884736]

/-- The voxels of a `96 × 96 × 96` volume, indexed by their three coordinates, are the `884736` indices
`x * 9216 + y * 96 + z` exactly once. -/
theorem sum_voxels (g : ℕ → M) :
    ∑ x : Fin 96, ∑ y : Fin 96, ∑ z : Fin 96, g (x.val * 9216 + y.val * 96 + z.val)
      = ∑ n : Fin 884736, g n.val := by
  have hz : ∀ x y : ℕ, ∑ z : Fin 96, g (x * 9216 + y * 96 + z.val)
      = ∑ z ∈ Finset.range 96, g (x * 9216 + (y * 96 + z)) := by
    intro x y
    rw [Fin.sum_univ_eq_sum_range (fun z => g (x * 9216 + y * 96 + z)) 96]
    refine Finset.sum_congr rfl fun z _ => ?_
    rw [Nat.add_assoc]
  simp only [hz]
  have hyy : ∀ x : ℕ, ∑ y : Fin 96, ∑ z ∈ Finset.range 96, g (x * 9216 + (y.val * 96 + z))
      = ∑ m ∈ Finset.range 9216, g (x * 9216 + m) := by
    intro x
    rw [Fin.sum_univ_eq_sum_range (fun y => ∑ z ∈ Finset.range 96, g (x * 9216 + (y * 96 + z))) 96,
      sum_blocks 96 96 (fun m => g (x * 9216 + m))]
  simp only [hyy]
  rw [Fin.sum_univ_eq_sum_range (fun x => ∑ m ∈ Finset.range 9216, g (x * 9216 + m)) 96,
    sum_blocks 96 9216 g, Fin.sum_univ_eq_sum_range g 884736]

/-- A running accumulator `s` that restarts from `0` at every multiple of `J` and otherwise adds the
term `a t` to its previous value holds, at position `j` of block `c`, the sum of the first `j + 1` terms of
that block. -/
theorem acc_eq_sum (J : ℕ) (hJ : 0 < J) (a s : ℕ → M)
    (hreset : ∀ t, t % J = 0 → s t = 0 + a t)
    (hstep : ∀ t, t % J ≠ 0 → s t = s (t - 1) + a t) :
    ∀ c j, j < J → s (c * J + j) = ∑ k ∈ Finset.range (j + 1), a (c * J + k) := by
  intro c j
  induction j with
  | zero =>
    intro _
    rw [hreset (c * J + 0) (by simp), zero_add, Finset.sum_range_one]
  | succ j ih =>
    intro hj
    have hmod : (c * J + (j + 1)) % J ≠ 0 := by
      rw [Nat.mul_add_mod_of_lt hj]
      exact Nat.succ_ne_zero j
    have hpred : c * J + (j + 1) - 1 = c * J + j := by omega
    rw [hstep _ hmod, hpred, ih (by omega), Finset.sum_range_succ _ (j + 1)]

/-- Reading every block of a range of `X * Y` indices from the mirrored block `X - 1 - n / Y`, at the same
offset `n % Y`, does not change the sum. -/
theorem sum_mirror_image_range (X Y : ℕ) (hY : 0 < Y) (g : ℕ → M) :
    ∑ n ∈ Finset.range (X * Y), g ((X - 1 - n / Y) * Y + n % Y) = ∑ n ∈ Finset.range (X * Y), g n := by
  rw [← sum_blocks X Y (fun n => g ((X - 1 - n / Y) * Y + n % Y)), ← sum_blocks X Y g,
    ← sum_blocks_reflect X Y g]
  refine Finset.sum_congr rfl fun x _ => Finset.sum_congr rfl fun y hy => ?_
  have hy' : y < Y := Finset.mem_range.mp hy
  have hdiv : (x * Y + y) / Y = x := by
    rw [Nat.mul_comm, Nat.mul_add_div hY, Nat.div_eq_of_lt hy', Nat.add_zero]
  have hmod : (x * Y + y) % Y = y := Nat.mul_add_mod_of_lt hy'
  simp only [hdiv, hmod]

/-- Summing over the `884736` voxels the value at the voxel mirrored in its plane index (plane `x` sent
to plane `95 - x`, the offset within the plane kept) is the plain sum over the voxels. -/
theorem sum_mirror_image (g : ℕ → M) :
    ∑ n : Fin 884736, g ((95 - n.val / 9216) * 9216 + n.val % 9216) = ∑ n : Fin 884736, g n.val := by
  rw [Fin.sum_univ_eq_sum_range (fun n => g ((95 - n / 9216) * 9216 + n % 9216)) 884736,
    Fin.sum_univ_eq_sum_range g 884736]
  exact sum_mirror_image_range 96 9216 (by decide) g

end Cert.Proof.LibSums
-- ==== Proof.PayValue.lean ====
/-
  The kernel body's arithmetic, read one index at a time at the ideal instance (floats are extended reals).

  A block of logits `f` of shape [2, 32, 9216] (batch, channel, position inside a plane) is turned into
  probabilities by the shifted softmax over the channel axis: the maximum over the 32 channels, taken as a fold of
  `max` from -∞, is subtracted, the exponentials are divided by their sum over the channels. From the probabilities
  of a plane and of its mirror plane the body adds to three accumulators: the channel sums of the probabilities,
  the sums over positions of products of two channels' probabilities, and the sum of the absolute differences
  between each plane's probabilities and the permuted channels of the other plane's.
-/
import proofs.«409875_j8435315769968_3_alg».proof.Proof.Gen.KernelIdeal.Skeleton
import proofs.«409875_j8435315769968_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Idealize.ShloMosaic Idealize.ShloMosaic.ValueIdx Cert.KernelIdeal Cert.KernelIdeal.Gen
open Cert.Proof

/-- A value per (batch, position), kept as a unit channel axis and copied to all 32 channels, reads at
    (b, c, y) the value at (b, y). -/
theorem keepdims_apply {α : Type} (r : S2x9216.Idx → α) (b : Fin 2) (c : Fin 32) (y : Fin 9216) :
    broadcastTo S2x32x9216 (shapeCast S2x1x9216 r shapeCasts_S2x9216_S2x1x9216) broadcasts_S2x1x9216_S2x32x9216 (ix3 b c y)
      = r (ix2 b y) := by
  refine (broadcastTo_apply _ broadcasts_S2x1x9216_S2x32x9216 (ix3 b c y) (ix3 b (0 : Fin 1) y) (fun a => ?_)).trans ?_
  · match a with
    | ⟨0, _⟩ => rfl
    | ⟨1, _⟩ => rfl
    | ⟨2, _⟩ => rfl
  · refine shapeCast_apply r shapeCasts_S2x9216_S2x1x9216 (ix3 b (0 : Fin 1) y) (ix2 b y) ?_
    rw [Shape.rowMajor_val_two, Shape.rowMajor_val_three]
    show b.val * 9216 + y.val = (b.val * 1 + 0) * 9216 + y.val
    omega

/-- The index over (b, y) with channel k inserted is (b, k, y). -/
theorem lift_chan (b : Fin 2) (y : Fin 9216) (k : Fin 32) :
    reduces_S2x32x9216_S2x9216.lift (ix2 b y) k = ix3 b k y :=
  funext fun a => Fin.ext (by
    match a with
    | ⟨0, _⟩ => rfl
    | ⟨1, _⟩ => rfl
    | ⟨2, _⟩ => rfl)

/-- The maximum over the channel axis, from the pattern of -∞, is the fold of max over the 32 channels. -/
theorem chanMax_apply (x : FVec Ideal S2x32x9216 .f32) (hφ : FKind.Formats .f32)
    (hacc : (0xFF800000#32 : BitVec 32) = FKind.maximumf.neutral .f32 hφ) (b : Fin 2) (y : Fin 9216) :
    multiReduction (F := Ideal) .maximumf [1] S2x9216 x 0xFF800000#32 reduces_S2x32x9216_S2x9216 hφ hacc (ix2 b y)
      = Spec.vmax (fun k => x (ix3 b k y)) := by
  refine (Ideal.multiReduction_maximumf_single x 0xFF800000#32 reduces_S2x32x9216_S2x9216 hφ hacc (ix2 b y)).trans ?_
  have e : (x ∘ reduces_S2x32x9216_S2x9216.lift (ix2 b y)) = (fun k : Fin 32 => x (ix3 b k y)) :=
    funext fun k => congrArg x (lift_chan b y k)
  rw [e]
  rfl

/-- The sum over the channel axis is the sum over the 32 channels. -/
theorem chanSum_apply (x : FVec Ideal S2x32x9216 .f32) (hφ : FKind.Formats .f32)
    (hacc : (0x00000000#32 : BitVec 32) = FKind.add.neutral .f32 hφ) (b : Fin 2) (y : Fin 9216) :
    multiReduction (F := Ideal) .add [1] S2x9216 x 0x00000000#32 reduces_S2x32x9216_S2x9216 hφ hacc (ix2 b y)
      = ∑ k : Fin 32, x (ix3 b k y) := by
  refine (Ideal.multiReduction_add_single x 0x00000000#32 reduces_S2x32x9216_S2x9216 hφ hacc (ix2 b y)).trans ?_
  exact Finset.sum_congr rfl fun k _ => congrArg x (lift_chan b y k)

/-- The shifted softmax over the channel axis, read at (b, ch, y): when `M` is the channel maximum at every
    channel of (b, ·, y) and `Z` the channel sum of the shifted exponentials there, the quotient is the softmax of
    the 32 channel values at (b, ·, y). -/
theorem softmax_of (x M Z : FVec Ideal S2x32x9216 .f32) (b : Fin 2) (ch : Fin 32) (y : Fin 9216)
    (hM : ∀ c : Fin 32, M (ix3 b c y) = Spec.vmax (fun k => x (ix3 b k y)))
    (hZ : Z (ix3 b ch y) = ∑ k : Fin 32, exp (subf x M) (ix3 b k y)) :
    divf (exp (subf x M)) Z (ix3 b ch y) = Spec.SM (fun k => x (ix3 b k y)) ch := by
  show Ideal.div (FloatOps.exp (FloatOps.subf (x (ix3 b ch y)) (M (ix3 b ch y)))) (Z (ix3 b ch y)) = _
  rw [hZ, hM]
  unfold Spec.SM Spec.sexp
  refine congrArg (Ideal.div _) (Finset.sum_congr rfl fun k _ => ?_)
  show FloatOps.exp (FloatOps.subf (x (ix3 b k y)) (M (ix3 b k y))) = _
  rw [hM]

theorem pay10_apply (f : Vec Ideal S2x32x9216 .f32) (b : Fin 2) (ch : Fin 32) (y : Fin 9216) :
    Gen.k0_pay10 (F := Ideal) f (ix3 b ch y) = Spec.SM (fun k => f (ix3 b k y)) ch := by
  unfold Gen.k0_pay10
  rw [shapeCast_self f shapeCasts_S2x32x9216_S2x32x9216]
  exact softmax_of f _ _ b ch y
    (fun c => (keepdims_apply _ b c y).trans (chanMax_apply f _ _ b y))
    ((keepdims_apply _ b ch y).trans (chanSum_apply _ _ _ b y))

theorem pay11_apply (m : Vec Ideal S2x32x9216 .f32) (b : Fin 2) (ch : Fin 32) (y : Fin 9216) :
    Gen.k0_pay11 (F := Ideal) m (ix3 b ch y) = Spec.SM (fun k => m (ix3 b k y)) ch := by
  unfold Gen.k0_pay11
  rw [shapeCast_self m shapeCasts_S2x32x9216_S2x32x9216]
  exact softmax_of m _ _ b ch y
    (fun c => (keepdims_apply _ b c y).trans (chanMax_apply m _ _ b y))
    ((keepdims_apply _ b ch y).trans (chanSum_apply _ _ _ b y))

/-- The three accumulators' resets: the zero pattern copied to every entry. -/
theorem pay7_apply (i : S2x32x32.Idx) : Gen.k0_pay7 (F := Ideal) i = 0 := by
  unfold Gen.k0_pay7
  rw [shapeCast_self]
  exact Ideal.ofBits_zero_f32

theorem pay8_apply (i : S2x32.Idx) : Gen.k0_pay8 (F := Ideal) i = 0 := by
  unfold Gen.k0_pay8
  rw [shapeCast_self]
  exact Ideal.ofBits_zero_f32

theorem pay9_apply (i : S2x1.Idx) : Gen.k0_pay9 (F := Ideal) i = 0 := by
  unfold Gen.k0_pay9
  rw [shapeCast_self]
  exact Ideal.ofBits_zero_f32

/-- The accumulators written out as blocks with a leading unit axis: entry (0, b, …) is entry (b, …). -/
theorem pay4_apply (a : Vec Ideal S2x32x32 .f32) (b : Fin 2) (ch d : Fin 32) :
    Gen.k0_pay4 (F := Ideal) a (ix4 (0 : Fin 1) b ch d) = a (ix3 b ch d) := by
  unfold Gen.k0_pay4
  exact shapeCast_abc_1abc_apply a shapeCasts_S2x32x32_S1x2x32x32 0 b ch d

theorem pay5_apply (v : Vec Ideal S2x32 .f32) (b : Fin 2) (ch : Fin 32) :
    Gen.k0_pay5 (F := Ideal) v (ix3 (0 : Fin 1) b ch) = v (ix2 b ch) := by
  unfold Gen.k0_pay5
  exact shapeCast_ab_1ab_apply v shapeCasts_S2x32_S1x2x32 0 b ch

theorem pay6_apply (s : Vec Ideal S2x1 .f32) (b : Fin 2) :
    Gen.k0_pay6 (F := Ideal) s (ix3 (0 : Fin 1) b (0 : Fin 1)) = s (ix2 b (0 : Fin 1)) := by
  unfold Gen.k0_pay6
  exact shapeCast_ab_1ab_apply s shapeCasts_S2x1_S1x2x1 0 b 0

/-- The index over (b, ch) with position y inserted is (b, ch, y). -/
theorem lift_pos (b : Fin 2) (ch : Fin 32) (y : Fin 9216) :
    reduces_S2x32x9216_S2x32.lift (ix2 b ch) y = ix3 b ch y :=
  funext fun a => Fin.ext (by
    match a with
    | ⟨0, _⟩ => rfl
    | ⟨1, _⟩ => rfl
    | ⟨2, _⟩ => rfl)

/-- The sum over the position axis is the sum over the 9216 positions of the plane. -/
theorem posSum_apply (x : FVec Ideal S2x32x9216 .f32) (hφ : FKind.Formats .f32)
    (hacc : (0x00000000#32 : BitVec 32) = FKind.add.neutral .f32 hφ) (b : Fin 2) (ch : Fin 32) :
    multiReduction (F := Ideal) .add [2] S2x32 x 0x00000000#32 reduces_S2x32x9216_S2x32 hφ hacc (ix2 b ch)
      = ∑ y : Fin 9216, x (ix3 b ch y) := by
  refine (Ideal.multiReduction_add_single x 0x00000000#32 reduces_S2x32x9216_S2x32 hφ hacc (ix2 b ch)).trans ?_
  exact Finset.sum_congr rfl fun y _ => congrArg x (lift_pos b ch y)

/-- The channel volumes' update, for any two blocks of probabilities: the accumulator plus the two planes'
    sums over positions. -/
theorem pay2_apply_of (p q : FVec Ideal S2x32x9216 .f32) (v : Vec Ideal S2x32 .f32) (b : Fin 2) (ch : Fin 32) :
    Gen.k0_pay2 (F := Ideal) p q v (ix2 b ch)
      = v (ix2 b ch) + ((∑ y : Fin 9216, p (ix3 b ch y)) + (∑ y : Fin 9216, q (ix3 b ch y))) := by
  unfold Gen.k0_pay2
  rw [shapeCast_self]
  exact congrArg₂ (fun s t => v (ix2 b ch) + (s + t)) (posSum_apply p _ _ b ch) (posSum_apply q _ _ b ch)

theorem pay2_apply (f m : Vec Ideal S2x32x9216 .f32) (v : Vec Ideal S2x32 .f32) (b : Fin 2) (ch : Fin 32) :
    Gen.k0_pay2 (F := Ideal) (Gen.k0_pay10 (F := Ideal) f) (Gen.k0_pay11 (F := Ideal) m) v (ix2 b ch)
      = v (ix2 b ch) + ((∑ y : Fin 9216, Gen.k0_pay10 (F := Ideal) f (ix3 b ch y))
          + (∑ y : Fin 9216, Gen.k0_pay11 (F := Ideal) m (ix3 b ch y))) :=
  pay2_apply_of _ _ v b ch

/-! ## The product of a block with itself over positions

  The dot contracts the position axis of both operands, keeps the batch axis, and pairs the two channel axes:
  at output (b, ch, d) and position y the left operand is read at (b, ch, y), the right at (b, d, y). -/

theorem lhs_gram_0 (i : S2x32x32.Idx) (q : dot_S2x32x9216_S2x32x9216_S2x32x32_2_2_1_1_0_0.contr.Idx) :
    (dot_S2x32x9216_S2x32x9216_S2x32x32_2_2_1_1_0_0.lhsIdx i q 0).val = (i 0).val := by
  unfold DotDims.lhsIdx
  rw [dif_pos (show (0 : Fin S2x32x9216.rank) ∈ dot_S2x32x9216_S2x32x9216_S2x32x32_2_2_1_1_0_0.lhsBatch by decide)]
  rfl
theorem lhs_gram_1 (i : S2x32x32.Idx) (q : dot_S2x32x9216_S2x32x9216_S2x32x32_2_2_1_1_0_0.contr.Idx) :
    (dot_S2x32x9216_S2x32x9216_S2x32x32_2_2_1_1_0_0.lhsIdx i q 1).val = (i 1).val := by
  unfold DotDims.lhsIdx
  rw [dif_neg (show ¬(1 : Fin S2x32x9216.rank) ∈ dot_S2x32x9216_S2x32x9216_S2x32x32_2_2_1_1_0_0.lhsBatch by decide), dif_pos (show (1 : Fin S2x32x9216.rank) ∈ dot_S2x32x9216_S2x32x9216_S2x32x32_2_2_1_1_0_0.lhsNonContracting by decide)]
  rfl
theorem lhs_gram_2 (i : S2x32x32.Idx) (q : dot_S2x32x9216_S2x32x9216_S2x32x32_2_2_1_1_0_0.contr.Idx) :
    (dot_S2x32x9216_S2x32x9216_S2x32x32_2_2_1_1_0_0.lhsIdx i q 2).val = (q ⟨0, by decide⟩).val :=
  dot_S2x32x9216_S2x32x9216_S2x32x32_2_2_1_1_0_0.lhsIdx_val_of_single rfl i q
theorem rhs_gram_0 (i : S2x32x32.Idx) (q : dot_S2x32x9216_S2x32x9216_S2x32x32_2_2_1_1_0_0.contr.Idx) :
    (dot_S2x32x9216_S2x32x9216_S2x32x32_2_2_1_1_0_0.rhsIdx i q 0).val = (i 0).val := by
  unfold DotDims.rhsIdx
  rw [dif_pos (show (0 : Fin S2x32x9216.rank) ∈ dot_S2x32x9216_S2x32x9216_S2x32x32_2_2_1_1_0_0.rhsBatch by decide)]
  rfl
theorem rhs_gram_1 (i : S2x32x32.Idx) (q : dot_S2x32x9216_S2x32x9216_S2x32x32_2_2_1_1_0_0.contr.Idx) :
    (dot_S2x32x9216_S2x32x9216_S2x32x32_2_2_1_1_0_0.rhsIdx i q 1).val = (i 2).val := by
  unfold DotDims.rhsIdx
  rw [dif_neg (show ¬(1 : Fin S2x32x9216.rank) ∈ dot_S2x32x9216_S2x32x9216_S2x32x32_2_2_1_1_0_0.rhsBatch by decide), dif_pos (show (1 : Fin S2x32x9216.rank) ∈ dot_S2x32x9216_S2x32x9216_S2x32x32_2_2_1_1_0_0.rhsNonContracting by decide)]
  rfl
theorem rhs_gram_2 (i : S2x32x32.Idx) (q : dot_S2x32x9216_S2x32x9216_S2x32x32_2_2_1_1_0_0.contr.Idx) :
    (dot_S2x32x9216_S2x32x9216_S2x32x32_2_2_1_1_0_0.rhsIdx i q 2).val = (q ⟨0, by decide⟩).val :=
  dot_S2x32x9216_S2x32x9216_S2x32x32_2_2_1_1_0_0.rhsIdx_val_of_single rfl i q

/-- The product into the zero block, read at (b, ch, d): the sum over the plane's positions of the two
    channels' entries. -/
theorem gram_apply {φ₁ φ₂ : FTy} (l : FVec Ideal S2x32x9216 φ₁) (r : FVec Ideal S2x32x9216 φ₂) (b : Fin 2) (ch d : Fin 32) :
    matmul dot_S2x32x9216_S2x32x9216_S2x32x32_2_2_1_1_0_0 none l r (constant (F := Ideal) S2x32x32 .f32 0x00000000#32) (ix3 b ch d)
      = ∑ y : Fin 9216, l (ix3 b ch y) * r (ix3 b d y) := by
  simp only [matmul]
  rw [Ideal.matmul_constant_zero_apply, ← Equiv.sum_comp (contrEquiv1 dot_S2x32x9216_S2x32x9216_S2x32x32_2_2_1_1_0_0 9216 rfl rfl).symm]
  refine Finset.sum_congr rfl fun k _ => ?_
  have hk := contrEquiv1_symm_val dot_S2x32x9216_S2x32x9216_S2x32x32_2_2_1_1_0_0 9216 rfl rfl k
  have el : dot_S2x32x9216_S2x32x9216_S2x32x32_2_2_1_1_0_0.lhsIdx (ix3 b ch d) ((contrEquiv1 dot_S2x32x9216_S2x32x9216_S2x32x32_2_2_1_1_0_0 9216 rfl rfl).symm k) = ix3 b ch k := funext fun a => Fin.ext (by
    match a with
    | ⟨0, _⟩ => exact lhs_gram_0 _ _
    | ⟨1, _⟩ => exact lhs_gram_1 _ _
    | ⟨2, _⟩ => exact (lhs_gram_2 _ _).trans hk)
  have er : dot_S2x32x9216_S2x32x9216_S2x32x32_2_2_1_1_0_0.rhsIdx (ix3 b ch d) ((contrEquiv1 dot_S2x32x9216_S2x32x9216_S2x32x32_2_2_1_1_0_0 9216 rfl rfl).symm k) = ix3 b d k := funext fun a => Fin.ext (by
    match a with
    | ⟨0, _⟩ => exact rhs_gram_0 _ _
    | ⟨1, _⟩ => exact rhs_gram_1 _ _
    | ⟨2, _⟩ => exact (rhs_gram_2 _ _).trans hk)
  rw [el, er]

/-- The channel adjacency's update, for any two blocks: the accumulator plus the two planes' second moments. -/
theorem pay3_apply_of (p q : FVec Ideal S2x32x9216 .bf16) (a : Vec Ideal S2x32x32 .f32) (b : Fin 2) (ch d : Fin 32) :
    Gen.k0_pay3 (F := Ideal) p q a (ix3 b ch d)
      = a (ix3 b ch d) + ((∑ y : Fin 9216, p (ix3 b ch y) * p (ix3 b d y)) + (∑ y : Fin 9216, q (ix3 b ch y) * q (ix3 b d y))) := by
  unfold Gen.k0_pay3
  rw [shapeCast_self]
  exact congrArg₂ (fun s t => a (ix3 b ch d) + (s + t)) (gram_apply p p b ch d) (gram_apply q q b ch d)

/-- Narrowing the probabilities to the shorter format changes nothing at the ideal instance. -/
theorem pay12_apply (f : Vec Ideal S2x32x9216 .f32) (i : S2x32x9216.Idx) :
    Gen.k0_pay12 (F := Ideal) f i = Gen.k0_pay10 (F := Ideal) f i := rfl
theorem pay13_apply (m : Vec Ideal S2x32x9216 .f32) (i : S2x32x9216.Idx) :
    Gen.k0_pay13 (F := Ideal) m i = Gen.k0_pay11 (F := Ideal) m i := rfl

theorem pay3_apply (f m : Vec Ideal S2x32x9216 .f32) (a : Vec Ideal S2x32x32 .f32) (b : Fin 2) (ch d : Fin 32) :
    Gen.k0_pay3 (F := Ideal) (Gen.k0_pay12 (F := Ideal) f) (Gen.k0_pay13 (F := Ideal) m) a (ix3 b ch d)
      = a (ix3 b ch d) + ((∑ y : Fin 9216, Gen.k0_pay10 (F := Ideal) f (ix3 b ch y) * Gen.k0_pay10 (F := Ideal) f (ix3 b d y))
          + (∑ y : Fin 9216, Gen.k0_pay11 (F := Ideal) m (ix3 b ch y) * Gen.k0_pay11 (F := Ideal) m (ix3 b d y))) :=
  pay3_apply_of _ _ a b ch d

/-! ## The permuted channels

  The dot contracts the second channel axis of the 0/1 matrix block with the channel axis of the probabilities
  and keeps the batch axis: at output (b, ch, y) and channel k the matrix is read at (b, ch, k), the
  probabilities at (b, k, y). -/

theorem lhs_perm_0 (i : S2x32x9216.Idx) (q : dot_S2x32x32_S2x32x9216_S2x32x9216_2_1_1_2_0_0.contr.Idx) :
    (dot_S2x32x32_S2x32x9216_S2x32x9216_2_1_1_2_0_0.lhsIdx i q 0).val = (i 0).val := by
  unfold DotDims.lhsIdx
  rw [dif_pos (show (0 : Fin S2x32x32.rank) ∈ dot_S2x32x32_S2x32x9216_S2x32x9216_2_1_1_2_0_0.lhsBatch by decide)]
  rfl
theorem lhs_perm_1 (i : S2x32x9216.Idx) (q : dot_S2x32x32_S2x32x9216_S2x32x9216_2_1_1_2_0_0.contr.Idx) :
    (dot_S2x32x32_S2x32x9216_S2x32x9216_2_1_1_2_0_0.lhsIdx i q 1).val = (i 1).val := by
  unfold DotDims.lhsIdx
  rw [dif_neg (show ¬(1 : Fin S2x32x32.rank) ∈ dot_S2x32x32_S2x32x9216_S2x32x9216_2_1_1_2_0_0.lhsBatch by decide), dif_pos (show (1 : Fin S2x32x32.rank) ∈ dot_S2x32x32_S2x32x9216_S2x32x9216_2_1_1_2_0_0.lhsNonContracting by decide)]
  rfl
theorem lhs_perm_2 (i : S2x32x9216.Idx) (q : dot_S2x32x32_S2x32x9216_S2x32x9216_2_1_1_2_0_0.contr.Idx) :
    (dot_S2x32x32_S2x32x9216_S2x32x9216_2_1_1_2_0_0.lhsIdx i q 2).val = (q ⟨0, by decide⟩).val :=
  dot_S2x32x32_S2x32x9216_S2x32x9216_2_1_1_2_0_0.lhsIdx_val_of_single rfl i q
theorem rhs_perm_0 (i : S2x32x9216.Idx) (q : dot_S2x32x32_S2x32x9216_S2x32x9216_2_1_1_2_0_0.contr.Idx) :
    (dot_S2x32x32_S2x32x9216_S2x32x9216_2_1_1_2_0_0.rhsIdx i q 0).val = (i 0).val := by
  unfold DotDims.rhsIdx
  rw [dif_pos (show (0 : Fin S2x32x9216.rank) ∈ dot_S2x32x32_S2x32x9216_S2x32x9216_2_1_1_2_0_0.rhsBatch by decide)]
  rfl
theorem rhs_perm_1 (i : S2x32x9216.Idx) (q : dot_S2x32x32_S2x32x9216_S2x32x9216_2_1_1_2_0_0.contr.Idx) :
    (dot_S2x32x32_S2x32x9216_S2x32x9216_2_1_1_2_0_0.rhsIdx i q 1).val = (q ⟨0, by decide⟩).val :=
  dot_S2x32x32_S2x32x9216_S2x32x9216_2_1_1_2_0_0.rhsIdx_val_of_single rfl i q
theorem rhs_perm_2 (i : S2x32x9216.Idx) (q : dot_S2x32x32_S2x32x9216_S2x32x9216_2_1_1_2_0_0.contr.Idx) :
    (dot_S2x32x32_S2x32x9216_S2x32x9216_2_1_1_2_0_0.rhsIdx i q 2).val = (i 2).val := by
  unfold DotDims.rhsIdx
  rw [dif_neg (show ¬(2 : Fin S2x32x9216.rank) ∈ dot_S2x32x32_S2x32x9216_S2x32x9216_2_1_1_2_0_0.rhsBatch by decide), dif_pos (show (2 : Fin S2x32x9216.rank) ∈ dot_S2x32x32_S2x32x9216_S2x32x9216_2_1_1_2_0_0.rhsNonContracting by decide)]
  rfl

/-- The matrix block applied to a block of probabilities, into the zero block, read at (b, ch, y): the sum over
    the 32 channels k of the matrix's entry (b, ch, k) times the probability (b, k, y). -/
theorem perm_apply {φ₁ φ₂ : FTy} (A : FVec Ideal S2x32x32 φ₁) (r : FVec Ideal S2x32x9216 φ₂) (b : Fin 2) (ch : Fin 32) (y : Fin 9216) :
    matmul dot_S2x32x32_S2x32x9216_S2x32x9216_2_1_1_2_0_0 none A r (constant (F := Ideal) S2x32x9216 .f32 0x00000000#32) (ix3 b ch y)
      = ∑ k : Fin 32, A (ix3 b ch k) * r (ix3 b k y) := by
  simp only [matmul]
  rw [Ideal.matmul_constant_zero_apply, ← Equiv.sum_comp (contrEquiv1 dot_S2x32x32_S2x32x9216_S2x32x9216_2_1_1_2_0_0 32 rfl rfl).symm]
  refine Finset.sum_congr rfl fun k _ => ?_
  have hk := contrEquiv1_symm_val dot_S2x32x32_S2x32x9216_S2x32x9216_2_1_1_2_0_0 32 rfl rfl k
  have el : dot_S2x32x32_S2x32x9216_S2x32x9216_2_1_1_2_0_0.lhsIdx (ix3 b ch y) ((contrEquiv1 dot_S2x32x32_S2x32x9216_S2x32x9216_2_1_1_2_0_0 32 rfl rfl).symm k) = ix3 b ch k := funext fun a => Fin.ext (by
    match a with
    | ⟨0, _⟩ => exact lhs_perm_0 _ _
    | ⟨1, _⟩ => exact lhs_perm_1 _ _
    | ⟨2, _⟩ => exact (lhs_perm_2 _ _).trans hk)
  have er : dot_S2x32x32_S2x32x9216_S2x32x9216_2_1_1_2_0_0.rhsIdx (ix3 b ch y) ((contrEquiv1 dot_S2x32x32_S2x32x9216_S2x32x9216_2_1_1_2_0_0 32 rfl rfl).symm k) = ix3 b k y := funext fun a => Fin.ext (by
    match a with
    | ⟨0, _⟩ => exact rhs_perm_0 _ _
    | ⟨1, _⟩ => exact (rhs_perm_1 _ _).trans hk
    | ⟨2, _⟩ => exact rhs_perm_2 _ _)
  rw [el, er]

/-- The matrix block narrowed to the shorter format is the matrix block. -/
theorem pay14_apply (P : Vec Ideal S2x32x32 .f32) (i : S2x32x32.Idx) : Gen.k0_pay14 (F := Ideal) P i = P i := by
  unfold Gen.k0_pay14
  rw [shapeCast_self]
  rfl

/-- The mirror plane's defect at (b, ch, y): its probability against the permuted channels of the forward plane's. -/
theorem pay15_apply (f m : Vec Ideal S2x32x9216 .f32) (P : Vec Ideal S2x32x32 .f32) (b : Fin 2) (ch : Fin 32) (y : Fin 9216) :
    Gen.k0_pay15 (F := Ideal) f m P (ix3 b ch y)
      = FloatOps.absf (F := Ideal) (φ := .f32) (FloatOps.subf (F := Ideal) (φ := .f32) (Gen.k0_pay11 (F := Ideal) m (ix3 b ch y))
          (∑ k : Fin 32, P (ix3 b ch k) * Gen.k0_pay10 (F := Ideal) f (ix3 b k y))) := by
  unfold Gen.k0_pay15
  refine congrArg (fun t => FloatOps.absf (F := Ideal) (φ := .f32) (FloatOps.subf (F := Ideal) (φ := .f32) (Gen.k0_pay11 (F := Ideal) m (ix3 b ch y)) t))
    ((perm_apply _ _ b ch y).trans (Finset.sum_congr rfl fun k _ => ?_))
  rw [pay14_apply, pay12_apply]

/-- The index over b with channel ch inserted is (b, ch). -/
theorem lift_chan2 (b : Fin 2) (ch : Fin 32) : reduces_S2x32_S2.lift (ix1 b) ch = ix2 b ch :=
  funext fun a => Fin.ext (by
    match a with
    | ⟨0, _⟩ => rfl
    | ⟨1, _⟩ => rfl)

/-- The sum over the channel axis of a [2, 32] block is the sum over the 32 channels. -/
theorem chanSum2_apply (x : FVec Ideal S2x32 .f32) (hφ : FKind.Formats .f32)
    (hacc : (0x00000000#32 : BitVec 32) = FKind.add.neutral .f32 hφ) (b : Fin 2) :
    multiReduction (F := Ideal) .add [1] S2 x 0x00000000#32 reduces_S2x32_S2 hφ hacc (ix1 b)
      = ∑ ch : Fin 32, x (ix2 b ch) := by
  refine (Ideal.multiReduction_add_single x 0x00000000#32 reduces_S2x32_S2 hφ hacc (ix1 b)).trans ?_
  exact Finset.sum_congr rfl fun ch _ => congrArg x (lift_chan2 b ch)

/-- A block summed over positions, then over channels, read at b. -/
theorem totalSum_apply (x : FVec Ideal S2x32x9216 .f32) (hφ : FKind.Formats .f32)
    (hacc : (0x00000000#32 : BitVec 32) = FKind.add.neutral .f32 hφ) (b : Fin 2) :
    multiReduction (F := Ideal) .add [1] S2
        (multiReduction (F := Ideal) .add [2] S2x32 x 0x00000000#32 reduces_S2x32x9216_S2x32 hφ hacc)
        0x00000000#32 reduces_S2x32_S2 hφ hacc (ix1 b)
      = ∑ ch : Fin 32, ∑ y : Fin 9216, x (ix3 b ch y) := by
  refine (chanSum2_apply _ hφ hacc b).trans ?_
  exact Finset.sum_congr rfl fun ch _ => posSum_apply x hφ hacc b ch

/-- The forward plane's defect summed over positions and channels, at b: its probabilities against the permuted
    channels of the mirror plane's. -/
theorem pay16_apply (f m : Vec Ideal S2x32x9216 .f32) (P : Vec Ideal S2x32x32 .f32) (b : Fin 2) :
    Gen.k0_pay16 (F := Ideal) f m P (ix1 b)
      = ∑ ch : Fin 32, ∑ y : Fin 9216,
          FloatOps.absf (F := Ideal) (φ := .f32) (FloatOps.subf (F := Ideal) (φ := .f32) (Gen.k0_pay10 (F := Ideal) f (ix3 b ch y))
            (∑ k : Fin 32, P (ix3 b ch k) * Gen.k0_pay11 (F := Ideal) m (ix3 b k y))) := by
  unfold Gen.k0_pay16
  refine (totalSum_apply _ _ _ b).trans (Finset.sum_congr rfl fun ch _ => Finset.sum_congr rfl fun y _ => ?_)
  refine congrArg (fun t => FloatOps.absf (F := Ideal) (φ := .f32) (FloatOps.subf (F := Ideal) (φ := .f32) (Gen.k0_pay10 (F := Ideal) f (ix3 b ch y)) t))
    ((perm_apply _ _ b ch y).trans (Finset.sum_congr rfl fun k _ => ?_))
  rw [pay14_apply, pay13_apply]

/-- A value per batch entry written as a column reads at (b, 0) the value at b. -/
theorem column_apply {α : Type} (r : S2.Idx → α) (b : Fin 2) :
    shapeCast S2x1 r shapeCasts_S2_S2x1 (ix2 b (0 : Fin 1)) = r (ix1 b) := by
  refine shapeCast_apply r shapeCasts_S2_S2x1 (ix2 b (0 : Fin 1)) (ix1 b) ?_
  rw [Shape.rowMajor_val_one, Shape.rowMajor_val_two]
  show b.val = b.val * 1 + 0
  omega

/-- The defect's update, for any block `D` and any per-batch sums `w`: the accumulator plus `w` plus the sum of
    `D` over positions and channels. -/
theorem pay1_apply_of (D : FVec Ideal S2x32x9216 .f32) (w : FVec Ideal S2 .f32) (s : Vec Ideal S2x1 .f32) (b : Fin 2) :
    Gen.k0_pay1 (F := Ideal) D w s (ix2 b (0 : Fin 1))
      = s (ix2 b (0 : Fin 1)) + (w (ix1 b) + ∑ ch : Fin 32, ∑ y : Fin 9216, D (ix3 b ch y)) := by
  unfold Gen.k0_pay1
  rw [shapeCast_self]
  refine congrArg (fun t => s (ix2 b (0 : Fin 1)) + t) ((column_apply _ b).trans ?_)
  exact congrArg (fun t => w (ix1 b) + t) (totalSum_apply D _ _ b)

theorem pay1_apply (f m : Vec Ideal S2x32x9216 .f32) (P : Vec Ideal S2x32x32 .f32) (s : Vec Ideal S2x1 .f32) (b : Fin 2) :
    Gen.k0_pay1 (F := Ideal) (Gen.k0_pay15 (F := Ideal) f m P) (Gen.k0_pay16 (F := Ideal) f m P) s (ix2 b (0 : Fin 1))
      = s (ix2 b (0 : Fin 1))
        + ((∑ ch : Fin 32, ∑ y : Fin 9216,
              FloatOps.absf (F := Ideal) (φ := .f32) (FloatOps.subf (F := Ideal) (φ := .f32) (Gen.k0_pay10 (F := Ideal) f (ix3 b ch y))
                (∑ k : Fin 32, P (ix3 b ch k) * Gen.k0_pay11 (F := Ideal) m (ix3 b k y))))
          + (∑ ch : Fin 32, ∑ y : Fin 9216,
              FloatOps.absf (F := Ideal) (φ := .f32) (FloatOps.subf (F := Ideal) (φ := .f32) (Gen.k0_pay11 (F := Ideal) m (ix3 b ch y))
                (∑ k : Fin 32, P (ix3 b ch k) * Gen.k0_pay10 (F := Ideal) f (ix3 b k y))))) := by
  rw [pay1_apply_of, pay16_apply]
  refine congrArg (fun t => s (ix2 b (0 : Fin 1)) + (_ + t)) ?_
  exact Finset.sum_congr rfl fun ch _ => Finset.sum_congr rfl fun y _ => pay15_apply f m P b ch y

end Cert.KernelIdeal.PayValue
end
-- ==== Proof.KAccum.lean ====
/-
  The fused kernel's three result arrays, read entry by entry.

  The grid's 48 points are two cores' 24 steps each. A core's three accumulators (the channel adjacency sums, the
  channel volume sums, the symmetry sums) are reset at its first step, every step adds the contribution of its two
  planes, and at the last step they are copied into the core's slab of the three result arrays. So entry
  (core, …) of a result array is the accumulator after that core's last step, and that is the sum of the core's 24
  contributions.
-/
import proofs.«409875_j8435315769968_3_alg».proof.Proof.FrameData
import proofs.«409875_j8435315769968_3_alg».proof.Proof.Spec
import proofs.«409875_j8435315769968_3_alg».proof.Proof.LibSums
import proofs.«409875_j8435315769968_3_alg».proof.Proof.PayValue
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Body Cert.KernelIdeal.Frame
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-! ## The result arrays after the region

  Each result window is written back only at a core's last step, and its block there is the whole slab of its
  array belonging to that core. So the array ends, slab by slab, at the copy of the accumulator after the core's
  last step. -/

/-- The accumulators at equal points and equal indices are equal (the bound proofs do not matter). -/
theorem accAt_fst_congr (c : Dev nD) {n n' : ℕ} (e : n = n') (h : n < cfg0.N) (h' : n' < cfg0.N)
    {i i' : S2x32x32.Idx} (ei : i = i') : (Frame.accAt m c n h).1 i = (Frame.accAt m c n' h').1 i' := by
  subst e; subst ei; rfl
theorem accAt_snd_congr (c : Dev nD) {n n' : ℕ} (e : n = n') (h : n < cfg0.N) (h' : n' < cfg0.N)
    {i i' : S2x32.Idx} (ei : i = i') : (Frame.accAt m c n h).2.1 i = (Frame.accAt m c n' h').2.1 i' := by
  subst e; subst ei; rfl
theorem accAt_trd_congr (c : Dev nD) {n n' : ℕ} (e : n = n') (h : n < cfg0.N) (h' : n' < cfg0.N)
    {i i' : S2x1.Idx} (ei : i = i') : (Frame.accAt m c n h).2.2 i = (Frame.accAt m c n' h').2.2 i' := by
  subst e; subst ei; rfl

/-- The last step of core `cc` is a point of the grid. -/
theorem lastPt_lt (cc : Fin 2) : 24 * cc.val + 23 < cfg0.N := by
  have := cc.isLt; have : cfg0.N = 48 := Gen.N_0; omega

/-- What the three result arrays end holding: slab `i 0` is the accumulator after core `i 0`'s last step. -/
def G3 (c : Dev nD) : Vec Ideal S2x2x32x32 .f32 := fun i =>
  (Frame.accAt m c (24 * (i 0).val + 23) (lastPt_lt (i 0))).1 (ix3 (n0 := 2) (n1 := 32) (n2 := 32) (i 1) (i 2) (i 3))
def G4 (c : Dev nD) : Vec Ideal S2x2x32 .f32 := fun i =>
  (Frame.accAt m c (24 * (i 0).val + 23) (lastPt_lt (i 0))).2.1 (ix2 (n0 := 2) (n1 := 32) (i 1) (i 2))
def G5 (c : Dev nD) : Vec Ideal S2x2x1 .f32 := fun i =>
  (Frame.accAt m c (24 * (i 0).val + 23) (lastPt_lt (i 0))).2.2 (ix2 (n0 := 2) (n1 := 1) (i 1) (i 2))

/-- The result windows' block indices over the grid: the core on the leading axis, zero on the others. -/
theorem idx3 : ∀ t : Fin cfg0.N, win0_3.index t (0 : Fin 4) = t.val / 24 ∧ win0_3.index t (1 : Fin 4) = 0
    ∧ win0_3.index t (2 : Fin 4) = 0 ∧ win0_3.index t (3 : Fin 4) = 0 :=
  (by decide +kernel : ∀ t : Fin grid0.N, _)
theorem idx4 : ∀ t : Fin cfg0.N, win0_4.index t (0 : Fin 3) = t.val / 24 ∧ win0_4.index t (1 : Fin 3) = 0
    ∧ win0_4.index t (2 : Fin 3) = 0 :=
  (by decide +kernel : ∀ t : Fin grid0.N, _)
theorem idx5 : ∀ t : Fin cfg0.N, win0_5.index t (0 : Fin 3) = t.val / 24 ∧ win0_5.index t (1 : Fin 3) = 0
    ∧ win0_5.index t (2 : Fin 3) = 0 :=
  (by decide +kernel : ∀ t : Fin grid0.N, _)

/-- The output blocks carry a leading unit axis: entry (·, b, …) of the block is entry (b, …) of the accumulator. -/
theorem pay4_at (a : Vec Ideal S2x32x32 .f32) (y : S1x2x32x32.Idx) :
    Gen.k0_pay4 (F := Ideal) a y = a (ix3 (n0 := 2) (n1 := 32) (n2 := 32) (y 1) (y 2) (y 3)) := by
  have hy : y = ix4 (n0 := 1) (n1 := 2) (n2 := 32) (n3 := 32) (0 : Fin 1) (y 1) (y 2) (y 3) := by
    funext e
    match e with
    | ⟨0, _⟩ => exact Fin.ext (by have : (y 0).val < 1 := (y 0).isLt; show (y 0).val = 0; omega)
    | ⟨1, _⟩ => rfl
    | ⟨2, _⟩ => rfl
    | ⟨3, _⟩ => rfl
  exact (congrArg (Gen.k0_pay4 (F := Ideal) a) hy).trans (PayValue.pay4_apply a (y 1) (y 2) (y 3))
theorem pay5_at (v : Vec Ideal S2x32 .f32) (y : S1x2x32.Idx) :
    Gen.k0_pay5 (F := Ideal) v y = v (ix2 (n0 := 2) (n1 := 32) (y 1) (y 2)) := by
  have hy : y = ix3 (n0 := 1) (n1 := 2) (n2 := 32) (0 : Fin 1) (y 1) (y 2) := by
    funext e
    match e with
    | ⟨0, _⟩ => exact Fin.ext (by have : (y 0).val < 1 := (y 0).isLt; show (y 0).val = 0; omega)
    | ⟨1, _⟩ => rfl
    | ⟨2, _⟩ => rfl
  exact (congrArg (Gen.k0_pay5 (F := Ideal) v) hy).trans (PayValue.pay5_apply v (y 1) (y 2))
theorem pay6_at (s : Vec Ideal S2x1 .f32) (y : S1x2x1.Idx) :
    Gen.k0_pay6 (F := Ideal) s y = s (ix2 (n0 := 2) (n1 := 1) (y 1) (y 2)) := by
  have hy : y = ix3 (n0 := 1) (n1 := 2) (n2 := 1) (0 : Fin 1) (y 1) (0 : Fin 1) := by
    funext e
    match e with
    | ⟨0, _⟩ => exact Fin.ext (by have : (y 0).val < 1 := (y 0).isLt; show (y 0).val = 0; omega)
    | ⟨1, _⟩ => rfl
    | ⟨2, _⟩ => exact Fin.ext (by have : (y 2).val < 1 := (y 2).isLt; show (y 2).val = 0; omega)
  have h2 : (y 2 : Fin 1) = (0 : Fin 1) := Fin.ext (by have : (y 2).val < 1 := (y 2).isLt; show (y 2).val = 0; omega)
  refine (congrArg (Gen.k0_pay6 (F := Ideal) s) hy).trans ((PayValue.pay6_apply s (y 1)).trans ?_)
  rw [h2]

/-- What a write-back of window 3 writes is its block of `G3`. -/
theorem flushed3_eq (c : Dev nD) (t : Fin cfg0.N) (hf : (cfg0.win 3).flush t = true) :
    (dats m 0 c).flushed 3 t = ((cfg0.win 3).blk t).view.read (Elt Ideal) (G3 m c) := by
  have h23 : t.val % 24 = 23 := (flush0_3 t).mp hf
  obtain ⟨e0, e1, e2, e3⟩ := idx3 t
  show (cfg0.win 3).cut (grid0.coords t) ((dats m 0 c).after 3 t) = _
  rw [after_3]
  funext y
  rw [View.read_apply]
  show Gen.k0_pay4 (F := Ideal) (accAt m c t.val t.isLt).1 ((cfg0.win 3).xinj (grid0.coords t) y) = G3 m c (((cfg0.win 3).blk t).view.emb y)
  refine (pay4_at _ _).trans ?_
  unfold G3
  refine accAt_fst_congr m c ?_ _ _ ?_
  · have hy0 : (y 0).val < 1 := (y 0).isLt
    show t.val = 24 * (win0_3.index t (0 : Fin 4) * 1 + 1 * (y 0).val) + 23
    rw [e0]; omega
  · funext a
    apply Fin.ext
    match a with
    | ⟨0, _⟩ => show (y 1).val = win0_3.index t (1 : Fin 4) * 2 + 1 * (y 1).val; rw [e1]; omega
    | ⟨1, _⟩ => show (y 2).val = win0_3.index t (2 : Fin 4) * 32 + 1 * (y 2).val; rw [e2]; omega
    | ⟨2, _⟩ => show (y 3).val = win0_3.index t (3 : Fin 4) * 32 + 1 * (y 3).val; rw [e3]; omega
theorem flushed4_eq (c : Dev nD) (t : Fin cfg0.N) (hf : (cfg0.win 4).flush t = true) :
    (dats m 0 c).flushed 4 t = ((cfg0.win 4).blk t).view.read (Elt Ideal) (G4 m c) := by
  have h23 : t.val % 24 = 23 := (flush0_4 t).mp hf
  obtain ⟨e0, e1, e2⟩ := idx4 t
  show (cfg0.win 4).cut (grid0.coords t) ((dats m 0 c).after 4 t) = _
  rw [after_4]
  funext y
  rw [View.read_apply]
  show Gen.k0_pay5 (F := Ideal) (accAt m c t.val t.isLt).2.1 ((cfg0.win 4).xinj (grid0.coords t) y) = G4 m c (((cfg0.win 4).blk t).view.emb y)
  refine (pay5_at _ _).trans ?_
  unfold G4
  refine accAt_snd_congr m c ?_ _ _ ?_
  · have hy0 : (y 0).val < 1 := (y 0).isLt
    show t.val = 24 * (win0_4.index t (0 : Fin 3) * 1 + 1 * (y 0).val) + 23
    rw [e0]; omega
  · funext a
    apply Fin.ext
    match a with
    | ⟨0, _⟩ => show (y 1).val = win0_4.index t (1 : Fin 3) * 2 + 1 * (y 1).val; rw [e1]; omega
    | ⟨1, _⟩ => show (y 2).val = win0_4.index t (2 : Fin 3) * 32 + 1 * (y 2).val; rw [e2]; omega
theorem flushed5_eq (c : Dev nD) (t : Fin cfg0.N) (hf : (cfg0.win 5).flush t = true) :
    (dats m 0 c).flushed 5 t = ((cfg0.win 5).blk t).view.read (Elt Ideal) (G5 m c) := by
  have h23 : t.val % 24 = 23 := (flush0_5 t).mp hf
  obtain ⟨e0, e1, e2⟩ := idx5 t
  show (cfg0.win 5).cut (grid0.coords t) ((dats m 0 c).after 5 t) = _
  rw [after_5]
  funext y
  rw [View.read_apply]
  show Gen.k0_pay6 (F := Ideal) (accAt m c t.val t.isLt).2.2 ((cfg0.win 5).xinj (grid0.coords t) y) = G5 m c (((cfg0.win 5).blk t).view.emb y)
  refine (pay6_at _ _).trans ?_
  unfold G5
  refine accAt_trd_congr m c ?_ _ _ ?_
  · have hy0 : (y 0).val < 1 := (y 0).isLt
    show t.val = 24 * (win0_5.index t (0 : Fin 3) * 1 + 1 * (y 0).val) + 23
    rw [e0]; omega
  · funext a
    apply Fin.ext
    match a with
    | ⟨0, _⟩ => show (y 1).val = win0_5.index t (1 : Fin 3) * 2 + 1 * (y 1).val; rw [e1]; omega
    | ⟨1, _⟩ => show (y 2).val = win0_5.index t (2 : Fin 3) * 1 + 1 * (y 2).val; rw [e2]; omega

/-- An index of a result array is in point `t`'s block iff each coordinate is in the block's range on its axis. -/
theorem mem_blk3 (t : Fin cfg0.N) (i : S2x2x32x32.Idx) :
    i ∈ ((cfg0.win 3).blk t).view.set ↔ ∀ a : Fin 4, win0_3.index t a * S1x2x32x32.size a ≤ (i a).val ∧ (i a).val < win0_3.index t a * S1x2x32x32.size a + S1x2x32x32.size a := by
  show i ∈ ((View.whole main_v4_0).slice (win0_3.rect t)).set ↔ _
  rw [View.set_slice_whole, Rect.mem_set_unit]
  exact Iff.rfl
theorem mem_blk4 (t : Fin cfg0.N) (i : S2x2x32.Idx) :
    i ∈ ((cfg0.win 4).blk t).view.set ↔ ∀ a : Fin 3, win0_4.index t a * S1x2x32.size a ≤ (i a).val ∧ (i a).val < win0_4.index t a * S1x2x32.size a + S1x2x32.size a := by
  show i ∈ ((View.whole main_v4_1).slice (win0_4.rect t)).set ↔ _
  rw [View.set_slice_whole, Rect.mem_set_unit]
  exact Iff.rfl
theorem mem_blk5 (t : Fin cfg0.N) (i : S2x2x1.Idx) :
    i ∈ ((cfg0.win 5).blk t).view.set ↔ ∀ a : Fin 3, win0_5.index t a * S1x2x1.size a ≤ (i a).val ∧ (i a).val < win0_5.index t a * S1x2x1.size a + S1x2x1.size a := by
  show i ∈ ((View.whole main_v4_2).slice (win0_5.rect t)).set ↔ _
  rw [View.set_slice_whole, Rect.mem_set_unit]
  exact Iff.rfl

/-- The two write-backs of each result window, at the cores' last steps, cover its array: it ends at `G`. -/
theorem final3 (c : Dev nD) : (dats m 0 c).arrAt 3 cfg0.N = G3 m c :=
  (dats m 0 c).arrAt_eq_of_cover 3 (G3 m c) (flushed3_eq m c) fun i => by
    have hi0 : (i 0).val < 2 := (i 0).isLt
    have hi1 : (i 1).val < 2 := (i 1).isLt
    have hi2 : (i 2).val < 32 := (i 2).isLt
    have hi3 : (i 3).val < 32 := (i 3).isLt
    refine ⟨⟨24 * (i 0).val + 23, lastPt_lt (i 0)⟩, (flush0_3 _).mpr (by show (24 * (i 0).val + 23) % 24 = 23; omega), ?_⟩
    obtain ⟨e0, e1, e2, e3⟩ := idx3 ⟨24 * (i 0).val + 23, lastPt_lt (i 0)⟩
    have e0' : win0_3.index ⟨24 * (i 0).val + 23, lastPt_lt (i 0)⟩ (0 : Fin 4) = (i 0).val := by
      rw [e0]; show (24 * (i 0).val + 23) / 24 = (i 0).val; omega
    rw [mem_blk3]
    intro a
    match a with
    | ⟨0, _⟩ => show win0_3.index _ (0 : Fin 4) * 1 ≤ (i 0).val ∧ (i 0).val < win0_3.index _ (0 : Fin 4) * 1 + 1; rw [e0']; omega
    | ⟨1, _⟩ => show win0_3.index _ (1 : Fin 4) * 2 ≤ (i 1).val ∧ (i 1).val < win0_3.index _ (1 : Fin 4) * 2 + 2; rw [e1]; omega
    | ⟨2, _⟩ => show win0_3.index _ (2 : Fin 4) * 32 ≤ (i 2).val ∧ (i 2).val < win0_3.index _ (2 : Fin 4) * 32 + 32; rw [e2]; omega
    | ⟨3, _⟩ => show win0_3.index _ (3 : Fin 4) * 32 ≤ (i 3).val ∧ (i 3).val < win0_3.index _ (3 : Fin 4) * 32 + 32; rw [e3]; omega
theorem final4 (c : Dev nD) : (dats m 0 c).arrAt 4 cfg0.N = G4 m c :=
  (dats m 0 c).arrAt_eq_of_cover 4 (G4 m c) (flushed4_eq m c) fun i => by
    have hi0 : (i 0).val < 2 := (i 0).isLt
    have hi1 : (i 1).val < 2 := (i 1).isLt
    have hi2 : (i 2).val < 32 := (i 2).isLt
    refine ⟨⟨24 * (i 0).val + 23, lastPt_lt (i 0)⟩, (flush0_4 _).mpr (by show (24 * (i 0).val + 23) % 24 = 23; omega), ?_⟩
    obtain ⟨e0, e1, e2⟩ := idx4 ⟨24 * (i 0).val + 23, lastPt_lt (i 0)⟩
    have e0' : win0_4.index ⟨24 * (i 0).val + 23, lastPt_lt (i 0)⟩ (0 : Fin 3) = (i 0).val := by
      rw [e0]; show (24 * (i 0).val + 23) / 24 = (i 0).val; omega
    rw [mem_blk4]
    intro a
    match a with
    | ⟨0, _⟩ => show win0_4.index _ (0 : Fin 3) * 1 ≤ (i 0).val ∧ (i 0).val < win0_4.index _ (0 : Fin 3) * 1 + 1; rw [e0']; omega
    | ⟨1, _⟩ => show win0_4.index _ (1 : Fin 3) * 2 ≤ (i 1).val ∧ (i 1).val < win0_4.index _ (1 : Fin 3) * 2 + 2; rw [e1]; omega
    | ⟨2, _⟩ => show win0_4.index _ (2 : Fin 3) * 32 ≤ (i 2).val ∧ (i 2).val < win0_4.index _ (2 : Fin 3) * 32 + 32; rw [e2]; omega
theorem final5 (c : Dev nD) : (dats m 0 c).arrAt 5 cfg0.N = G5 m c :=
  (dats m 0 c).arrAt_eq_of_cover 5 (G5 m c) (flushed5_eq m c) fun i => by
    have hi0 : (i 0).val < 2 := (i 0).isLt
    have hi1 : (i 1).val < 2 := (i 1).isLt
    have hi2 : (i 2).val < 1 := (i 2).isLt
    refine ⟨⟨24 * (i 0).val + 23, lastPt_lt (i 0)⟩, (flush0_5 _).mpr (by show (24 * (i 0).val + 23) % 24 = 23; omega), ?_⟩
    obtain ⟨e0, e1, e2⟩ := idx5 ⟨24 * (i 0).val + 23, lastPt_lt (i 0)⟩
    have e0' : win0_5.index ⟨24 * (i 0).val + 23, lastPt_lt (i 0)⟩ (0 : Fin 3) = (i 0).val := by
      rw [e0]; show (24 * (i 0).val + 23) / 24 = (i 0).val; omega
    rw [mem_blk5]
    intro a
    match a with
    | ⟨0, _⟩ => show win0_5.index _ (0 : Fin 3) * 1 ≤ (i 0).val ∧ (i 0).val < win0_5.index _ (0 : Fin 3) * 1 + 1; rw [e0']; omega
    | ⟨1, _⟩ => show win0_5.index _ (1 : Fin 3) * 2 ≤ (i 1).val ∧ (i 1).val < win0_5.index _ (1 : Fin 3) * 2 + 2; rw [e1]; omega
    | ⟨2, _⟩ => show win0_5.index _ (2 : Fin 3) * 1 ≤ (i 2).val ∧ (i 2).val < win0_5.index _ (2 : Fin 3) * 1 + 1; rw [e2]; omega

/-- The adjacency result at (core, b, ch, d) is the adjacency accumulator after that core's last step. -/
theorem arr3_apply (c : Dev nD) (cc : Fin 2) (b : Fin 2) (ch d : Fin 32) :
    (dats m 0 c).arrAt 3 cfg0.N (ix4 cc b ch d)
      = (Frame.accAt m c (24 * cc.val + 23) (by have := cc.isLt; have : cfg0.N = 48 := Gen.N_0; omega)).1 (ix3 b ch d) := by
  rw [final3]
  rfl
/-- The volume result at (core, b, ch) is the volume accumulator after that core's last step. -/
theorem arr4_apply (c : Dev nD) (cc : Fin 2) (b : Fin 2) (ch : Fin 32) :
    (dats m 0 c).arrAt 4 cfg0.N (ix3 cc b ch)
      = (Frame.accAt m c (24 * cc.val + 23) (by have := cc.isLt; have : cfg0.N = 48 := Gen.N_0; omega)).2.1 (ix2 b ch) := by
  rw [final4]
  rfl
/-- The symmetry result at (core, b, 0) is the symmetry accumulator after that core's last step. -/
theorem arr5_apply (c : Dev nD) (cc : Fin 2) (b : Fin 2) :
    (dats m 0 c).arrAt 5 cfg0.N (ix3 cc b (0 : Fin 1))
      = (Frame.accAt m c (24 * cc.val + 23) (by have := cc.isLt; have : cfg0.N = 48 := Gen.N_0; omega)).2.2 (ix2 b (0 : Fin 1)) := by
  rw [final5]
  rfl

/-! ## The accumulators as partial sums

  Within a core the accumulators start from zero at the first step and every step adds that point's
  contribution, so after step `j` they hold the sum of the contributions of steps `0 … j`. -/

/-- Point `t`'s contribution to the adjacency accumulator at (b, ch, d): the second moments of the forward plane's
    and of the mirror plane's probabilities over the plane's positions. -/
def stepA (c : Dev nD) (t : Fin cfg0.N) (b : Fin 2) (ch d : Fin 32) : EReal :=
  (∑ y : Fin 9216, Gen.k0_pay10 (F := Ideal) (fblk m c t) (ix3 b ch y) * Gen.k0_pay10 (F := Ideal) (fblk m c t) (ix3 b d y))
    + (∑ y : Fin 9216, Gen.k0_pay11 (F := Ideal) (gblk m c t) (ix3 b ch y) * Gen.k0_pay11 (F := Ideal) (gblk m c t) (ix3 b d y))
/-- Point `t`'s contribution to the volume accumulator at (b, ch): the two planes' probabilities summed over positions. -/
def stepV (c : Dev nD) (t : Fin cfg0.N) (b : Fin 2) (ch : Fin 32) : EReal :=
  (∑ y : Fin 9216, Gen.k0_pay10 (F := Ideal) (fblk m c t) (ix3 b ch y))
    + (∑ y : Fin 9216, Gen.k0_pay11 (F := Ideal) (gblk m c t) (ix3 b ch y))
/-- Point `t`'s contribution to the symmetry accumulator at b: each plane's probabilities against the permuted
    channels of the other plane's, in absolute value, summed over channels and positions. -/
def stepS (c : Dev nD) (t : Fin cfg0.N) (b : Fin 2) : EReal :=
  (∑ ch : Fin 32, ∑ y : Fin 9216,
      FloatOps.absf (F := Ideal) (φ := .f32) (FloatOps.subf (F := Ideal) (φ := .f32) (Gen.k0_pay10 (F := Ideal) (fblk m c t) (ix3 b ch y))
        (∑ k : Fin 32, Pblk m c t (ix3 b ch k) * Gen.k0_pay11 (F := Ideal) (gblk m c t) (ix3 b k y))))
    + (∑ ch : Fin 32, ∑ y : Fin 9216,
      FloatOps.absf (F := Ideal) (φ := .f32) (FloatOps.subf (F := Ideal) (φ := .f32) (Gen.k0_pay11 (F := Ideal) (gblk m c t) (ix3 b ch y))
        (∑ k : Fin 32, Pblk m c t (ix3 b ch k) * Gen.k0_pay10 (F := Ideal) (fblk m c t) (ix3 b k y))))

/-- The contributions as functions of every natural: zero past the grid. -/
def incA (c : Dev nD) (t : ℕ) (b : Fin 2) (ch d : Fin 32) : EReal := if h : t < cfg0.N then stepA m c ⟨t, h⟩ b ch d else 0
def incV (c : Dev nD) (t : ℕ) (b : Fin 2) (ch : Fin 32) : EReal := if h : t < cfg0.N then stepV m c ⟨t, h⟩ b ch else 0
def incS (c : Dev nD) (t : ℕ) (b : Fin 2) : EReal := if h : t < cfg0.N then stepS m c ⟨t, h⟩ b else 0

theorem incA_of_lt (c : Dev nD) {t : ℕ} (h : t < cfg0.N) (b : Fin 2) (ch d : Fin 32) : incA m c t b ch d = stepA m c ⟨t, h⟩ b ch d := dif_pos h
theorem incV_of_lt (c : Dev nD) {t : ℕ} (h : t < cfg0.N) (b : Fin 2) (ch : Fin 32) : incV m c t b ch = stepV m c ⟨t, h⟩ b ch := dif_pos h
theorem incS_of_lt (c : Dev nD) {t : ℕ} (h : t < cfg0.N) (b : Fin 2) : incS m c t b = stepS m c ⟨t, h⟩ b := dif_pos h

/-- The accumulators' entries as functions of every natural: zero past the grid. -/
def runA (c : Dev nD) (b : Fin 2) (ch d : Fin 32) (t : ℕ) : EReal := if h : t < cfg0.N then (Frame.accAt m c t h).1 (ix3 b ch d) else 0
def runV (c : Dev nD) (b : Fin 2) (ch : Fin 32) (t : ℕ) : EReal := if h : t < cfg0.N then (Frame.accAt m c t h).2.1 (ix2 b ch) else 0
def runS (c : Dev nD) (b : Fin 2) (t : ℕ) : EReal := if h : t < cfg0.N then (Frame.accAt m c t h).2.2 (ix2 b (0 : Fin 1)) else 0

theorem runA_of_lt (c : Dev nD) (b : Fin 2) (ch d : Fin 32) {t : ℕ} (h : t < cfg0.N) : runA m c b ch d t = (Frame.accAt m c t h).1 (ix3 b ch d) := dif_pos h
theorem runV_of_lt (c : Dev nD) (b : Fin 2) (ch : Fin 32) {t : ℕ} (h : t < cfg0.N) : runV m c b ch t = (Frame.accAt m c t h).2.1 (ix2 b ch) := dif_pos h
theorem runS_of_lt (c : Dev nD) (b : Fin 2) {t : ℕ} (h : t < cfg0.N) : runS m c b t = (Frame.accAt m c t h).2.2 (ix2 b (0 : Fin 1)) := dif_pos h

theorem runA_reset (c : Dev nD) (b : Fin 2) (ch d : Fin 32) (t : ℕ) (ht : t % 24 = 0) :
    runA m c b ch d t = 0 + incA m c t b ch d := by
  by_cases h : t < cfg0.N
  · rw [runA_of_lt m c b ch d h, incA_of_lt m c h]
    have e : Frame.accAt m c t h = _ := Frame.accAt_reset m c ⟨t, h⟩ ht
    rw [e]
    refine (PayValue.pay3_apply (fblk m c ⟨t, h⟩) (gblk m c ⟨t, h⟩) (Gen.k0_pay7 (F := Ideal)) b ch d).trans ?_
    rw [PayValue.pay7_apply]
    rfl
  · rw [runA, dif_neg h, incA, dif_neg h, zero_add]

theorem runA_step (c : Dev nD) (b : Fin 2) (ch d : Fin 32) (t : ℕ) (ht : t % 24 ≠ 0) :
    runA m c b ch d t = runA m c b ch d (t - 1) + incA m c t b ch d := by
  have hN : cfg0.N = 48 := Gen.N_0
  by_cases h : t < cfg0.N
  · have h1 : t - 1 < cfg0.N := by omega
    rw [runA_of_lt m c b ch d h, runA_of_lt m c b ch d h1, incA_of_lt m c h]
    have e : Frame.accAt m c t h = _ := Frame.accAt_step m c ⟨t, h⟩ ht
    rw [e]
    exact PayValue.pay3_apply (fblk m c ⟨t, h⟩) (gblk m c ⟨t, h⟩) (Frame.accAt m c (t - 1) h1).1 b ch d
  · have h1 : ¬ t - 1 < cfg0.N := by omega
    rw [runA, dif_neg h, runA, dif_neg h1, incA, dif_neg h, zero_add]

/-- After step `j` of core `cc` the adjacency accumulator holds the sum of the contributions of the core's steps `0 … j`. -/
theorem accA_sum (c : Dev nD) (cc : Fin 2) (j : Fin 24) (b : Fin 2) (ch d : Fin 32) :
    (Frame.accAt m c (24 * cc.val + j.val) (by have := cc.isLt; have := j.isLt; have : cfg0.N = 48 := Gen.N_0; omega)).1 (ix3 b ch d)
      = ∑ k ∈ Finset.range (j.val + 1), incA m c (24 * cc.val + k) b ch d := by
  have hlt : 24 * cc.val + j.val < cfg0.N := by have := cc.isLt; have := j.isLt; have : cfg0.N = 48 := Gen.N_0; omega
  have key := Cert.Proof.LibSums.acc_eq_sum 24 (by decide) (fun t => incA m c t b ch d) (runA m c b ch d)
    (runA_reset m c b ch d) (runA_step m c b ch d) cc.val j.val j.isLt
  simp only [Nat.mul_comm cc.val 24] at key
  rw [runA_of_lt m c b ch d hlt] at key
  exact key

theorem runV_reset (c : Dev nD) (b : Fin 2) (ch : Fin 32) (t : ℕ) (ht : t % 24 = 0) :
    runV m c b ch t = 0 + incV m c t b ch := by
  by_cases h : t < cfg0.N
  · rw [runV_of_lt m c b ch h, incV_of_lt m c h]
    have e : Frame.accAt m c t h = _ := Frame.accAt_reset m c ⟨t, h⟩ ht
    rw [e]
    refine (PayValue.pay2_apply (fblk m c ⟨t, h⟩) (gblk m c ⟨t, h⟩) (Gen.k0_pay8 (F := Ideal)) b ch).trans ?_
    rw [PayValue.pay8_apply]
    rfl
  · rw [runV, dif_neg h, incV, dif_neg h, zero_add]

theorem runV_step (c : Dev nD) (b : Fin 2) (ch : Fin 32) (t : ℕ) (ht : t % 24 ≠ 0) :
    runV m c b ch t = runV m c b ch (t - 1) + incV m c t b ch := by
  have hN : cfg0.N = 48 := Gen.N_0
  by_cases h : t < cfg0.N
  · have h1 : t - 1 < cfg0.N := by omega
    rw [runV_of_lt m c b ch h, runV_of_lt m c b ch h1, incV_of_lt m c h]
    have e : Frame.accAt m c t h = _ := Frame.accAt_step m c ⟨t, h⟩ ht
    rw [e]
    exact PayValue.pay2_apply (fblk m c ⟨t, h⟩) (gblk m c ⟨t, h⟩) (Frame.accAt m c (t - 1) h1).2.1 b ch
  · have h1 : ¬ t - 1 < cfg0.N := by omega
    rw [runV, dif_neg h, runV, dif_neg h1, incV, dif_neg h, zero_add]

/-- After step `j` of core `cc` the volume accumulator holds the sum of the contributions of the core's steps `0 … j`. -/
theorem accV_sum (c : Dev nD) (cc : Fin 2) (j : Fin 24) (b : Fin 2) (ch : Fin 32) :
    (Frame.accAt m c (24 * cc.val + j.val) (by have := cc.isLt; have := j.isLt; have : cfg0.N = 48 := Gen.N_0; omega)).2.1 (ix2 b ch)
      = ∑ k ∈ Finset.range (j.val + 1), incV m c (24 * cc.val + k) b ch := by
  have hlt : 24 * cc.val + j.val < cfg0.N := by have := cc.isLt; have := j.isLt; have : cfg0.N = 48 := Gen.N_0; omega
  have key := Cert.Proof.LibSums.acc_eq_sum 24 (by decide) (fun t => incV m c t b ch) (runV m c b ch)
    (runV_reset m c b ch) (runV_step m c b ch) cc.val j.val j.isLt
  simp only [Nat.mul_comm cc.val 24] at key
  rw [runV_of_lt m c b ch hlt] at key
  exact key

theorem runS_reset (c : Dev nD) (b : Fin 2) (t : ℕ) (ht : t % 24 = 0) :
    runS m c b t = 0 + incS m c t b := by
  by_cases h : t < cfg0.N
  · rw [runS_of_lt m c b h, incS_of_lt m c h]
    have e : Frame.accAt m c t h = _ := Frame.accAt_reset m c ⟨t, h⟩ ht
    rw [e]
    refine (PayValue.pay1_apply (fblk m c ⟨t, h⟩) (gblk m c ⟨t, h⟩) (Pblk m c ⟨t, h⟩) (Gen.k0_pay9 (F := Ideal)) b).trans ?_
    rw [PayValue.pay9_apply]
    rfl
  · rw [runS, dif_neg h, incS, dif_neg h, zero_add]

theorem runS_step (c : Dev nD) (b : Fin 2) (t : ℕ) (ht : t % 24 ≠ 0) :
    runS m c b t = runS m c b (t - 1) + incS m c t b := by
  have hN : cfg0.N = 48 := Gen.N_0
  by_cases h : t < cfg0.N
  · have h1 : t - 1 < cfg0.N := by omega
    rw [runS_of_lt m c b h, runS_of_lt m c b h1, incS_of_lt m c h]
    have e : Frame.accAt m c t h = _ := Frame.accAt_step m c ⟨t, h⟩ ht
    rw [e]
    exact PayValue.pay1_apply (fblk m c ⟨t, h⟩) (gblk m c ⟨t, h⟩) (Pblk m c ⟨t, h⟩) (Frame.accAt m c (t - 1) h1).2.2 b
  · have h1 : ¬ t - 1 < cfg0.N := by omega
    rw [runS, dif_neg h, runS, dif_neg h1, incS, dif_neg h, zero_add]

/-- After step `j` of core `cc` the symmetry accumulator holds the sum of the contributions of the core's steps `0 … j`. -/
theorem accS_sum (c : Dev nD) (cc : Fin 2) (j : Fin 24) (b : Fin 2) :
    (Frame.accAt m c (24 * cc.val + j.val) (by have := cc.isLt; have := j.isLt; have : cfg0.N = 48 := Gen.N_0; omega)).2.2 (ix2 b (0 : Fin 1))
      = ∑ k ∈ Finset.range (j.val + 1), incS m c (24 * cc.val + k) b := by
  have hlt : 24 * cc.val + j.val < cfg0.N := by have := cc.isLt; have := j.isLt; have : cfg0.N = 48 := Gen.N_0; omega
  have key := Cert.Proof.LibSums.acc_eq_sum 24 (by decide) (fun t => incS m c t b) (runS m c b)
    (runS_reset m c b) (runS_step m c b) cc.val j.val j.isLt
  simp only [Nat.mul_comm cc.val 24] at key
  rw [runS_of_lt m c b hlt] at key
  exact key

end Cert.KernelIdeal.KValue
end
-- ==== Proof.KBlocks.lean ====
/-
  The three input blocks the body loads at a grid point, as entries of the program's argument arrays.

  The forward window's block at point `t` is plane `t` of the flattened logits, the stretch `t·9216 ≤ n < (t+1)·9216`
  of the last axis; the mirror window's is plane `95 - t`; the permutation window has one block, the whole array.
  Behind the windows, the flattened logits are the row-major reshape of the argument, `n = x·9216 + y·96 + z`, and the
  batched matrix is the 0/1 matrix of the channel words, the same for both batch entries.
-/
import proofs.«409875_j8435315769968_3_alg».proof.Proof.FrameData
import proofs.«409875_j8435315769968_3_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate

set_option maxRecDepth 16384

noncomputable section

namespace Cert.KernelIdeal.KValue

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ)

/-- The flattened logits and the batched 0/1 matrix as the region finds them, at their literal types. -/
abbrev arrL (c : Dev nD) : S2x32x884736.Idx → EReal := Frame.V (F := Ideal) m c main_v0
abbrev arrP (c : Dev nD) : S2x32x32.Idx → EReal := Frame.V (F := Ideal) m c main_v3

/-- The three input windows' block indices over the grid: the permutation block is block 0; the forward plane at point
    `t` is block `t` of the last axis, the mirror plane block `95 - t`. -/
theorem idxP : ∀ t : Fin grid0.N, win0_0.index t 0 = 0 ∧ win0_0.index t 1 = 0 ∧ win0_0.index t 2 = 0 := by decide +kernel
theorem idxF : ∀ t : Fin grid0.N, win0_1.index t 0 = 0 ∧ win0_1.index t 1 = 0 ∧ win0_1.index t 2 = t.val := by decide +kernel
theorem idxG : ∀ t : Fin grid0.N, win0_2.index t 0 = 0 ∧ win0_2.index t 1 = 0 ∧ win0_2.index t 2 = 95 - t.val := by decide +kernel

theorem tlt (t : Fin cfg0.N) : t.val < 48 := lt_of_lt_of_eq t.isLt N_0

/-- The forward plane's block at point `t` is the stretch `t·9216 ≤ n < (t+1)·9216` of the flattened logits. -/
theorem fblk_apply (c : Dev nD) (t : Fin cfg0.N) (b : Fin 2) (ch : Fin 32) (y : Fin 9216) :
    Frame.fblk (F := Ideal) m c t (ix3 b ch y) = arrL m c (ix3 b ch ⟨t.val * 9216 + y.val, by have := tlt t; have := y.isLt; omega⟩) := by
  obtain ⟨h0, h1, h2⟩ := idxF t
  show Frame.iblk (F := Ideal) m c 1 t (ix3 b ch y) = _
  unfold Frame.iblk
  rw [View.read_apply]
  show Frame.V m c main_v0 _ = Frame.V m c main_v0 _
  congr 1
  funext a
  apply Fin.ext
  match a with
  | ⟨0, _⟩ => show win0_1.index t 0 * 2 + 1 * b.val = b.val; rw [h0]; omega
  | ⟨1, _⟩ => show win0_1.index t 1 * 32 + 1 * ch.val = ch.val; rw [h1]; omega
  | ⟨2, _⟩ => show win0_1.index t 2 * 9216 + 1 * y.val = t.val * 9216 + y.val; rw [h2]; omega

/-- The mirror plane's block at point `t` is the stretch of plane `95 - t`. -/
theorem gblk_apply (c : Dev nD) (t : Fin cfg0.N) (b : Fin 2) (ch : Fin 32) (y : Fin 9216) :
    Frame.gblk (F := Ideal) m c t (ix3 b ch y) = arrL m c (ix3 b ch ⟨(95 - t.val) * 9216 + y.val, by have := tlt t; have := y.isLt; omega⟩) := by
  obtain ⟨h0, h1, h2⟩ := idxG t
  show Frame.iblk (F := Ideal) m c 2 t (ix3 b ch y) = _
  unfold Frame.iblk
  rw [View.read_apply]
  show Frame.V m c main_v0 _ = Frame.V m c main_v0 _
  congr 1
  funext a
  apply Fin.ext
  match a with
  | ⟨0, _⟩ => show win0_2.index t 0 * 2 + 1 * b.val = b.val; rw [h0]; omega
  | ⟨1, _⟩ => show win0_2.index t 1 * 32 + 1 * ch.val = ch.val; rw [h1]; omega
  | ⟨2, _⟩ => show win0_2.index t 2 * 9216 + 1 * y.val = (95 - t.val) * 9216 + y.val; rw [h2]; omega

/-- The permutation window has one block, the whole array. -/
theorem Pblk_eq (c : Dev nD) (t : Fin cfg0.N) : Frame.Pblk (F := Ideal) m c t = arrP m c := by
  funext i
  obtain ⟨b, e, k, rfl⟩ : ∃ (b : Fin 2) (e k : Fin 32), i = ix3 b e k := ⟨i 0, i 1, i 2, eq_ix3 i⟩
  obtain ⟨h0, h1, h2⟩ := idxP t
  show Frame.iblk (F := Ideal) m c 0 t (ix3 b e k) = _
  unfold Frame.iblk
  rw [View.read_apply]
  show Frame.V m c main_v3 _ = Frame.V m c main_v3 _
  congr 1
  funext a
  apply Fin.ext
  match a with
  | ⟨0, _⟩ => show win0_0.index t 0 * 2 + 1 * b.val = b.val; rw [h0]; omega
  | ⟨1, _⟩ => show win0_0.index t 1 * 32 + 1 * e.val = e.val; rw [h1]; omega
  | ⟨2, _⟩ => show win0_0.index t 2 * 32 + 1 * k.val = k.val; rw [h2]; omega

/-- The logits argument and the channel words, at their literal types. -/
abbrev argL (c : Dev nD) : S2x32x96x96x96.Idx → EReal := m ((c : Thread nD τ).loc main_arg0)
abbrev argW (c : Dev nD) : S32.Idx → BitVec 32 := m ((c : Thread nD τ).loc main_arg9)

/-- The flattened logits are the argument reshaped. -/
theorem arrL_eq (c : Dev nD) :
    arrL m c = shapeCast S2x32x884736 (argL m c) shapeCasts_S2x32x96x96x96_S2x32x884736 := by
  show Frame.V (F := Ideal) m c main_v0 = _
  dsimp only [Frame.V, Frame.V0]
  simp only [hostOps0, hostOps0_1, hostOps0_2, List.flatten_cons, List.flatten_nil, List.append_nil, List.cons_append, List.nil_append]
  after_results
  rfl

/-- Entry `n` of the flattened logits is the voxel `(n / 9216, n / 96 % 96, n % 96)`: the reshape keeps the row-major
    position, and `n = x·9216 + y·96 + z` with `y, z < 96`. -/
theorem V_flat (c : Dev nD) (b : Fin 2) (ch : Fin 32) (n : Fin 884736) :
    arrL m c (ix3 b ch n)
      = argL m c (ix5 b ch ⟨n.val / 9216, by have := n.isLt; omega⟩ ⟨n.val / 96 % 96, Nat.mod_lt _ (by decide)⟩ ⟨n.val % 96, Nat.mod_lt _ (by decide)⟩) := by
  rw [arrL_eq]
  refine shapeCast_apply _ _ _ _ ?_
  rw [Shape.rowMajor_val_five, Shape.rowMajor_val_three]
  show (((b.val * 32 + ch.val) * 96 + n.val / 9216) * 96 + n.val / 96 % 96) * 96 + n.val % 96 = (b.val * 32 + ch.val) * 884736 + n.val
  omega

/-- The same with the specification's flattening. -/
theorem flat_eq (c : Dev nD) (b : Fin 2) (ch : Fin 32) (n : Fin 884736) :
    arrL m c (ix3 b ch n) = Cert.Proof.Spec.flat (fun b ch x y z => argL m c (ix5 b ch x y z)) b ch n :=
  V_flat m c b ch n

/-- The 0/1 matrix as the host computes it: the words down the rows against the positions along the columns, compared
    for equality, the bit read as a number. -/
def hostOneHot (p : S32.Idx → BitVec 32) : S32x32.Idx → EReal :=
  uitofp (F := Ideal) .f32
    (cmpi .eq (broadcastInDim S32x32 ![0, 1] bcast_S32x1_S32x32_0_1 (broadcastInDim S32x1 ![0] bcast_S32_S32x1_0 p))
      (broadcastInDim S32x32 ![0, 1] bcast_S1x32_S32x32_0_1 (iotaInDim S1x32 32 1)))

theorem arrP_eq (c : Dev nD) :
    arrP m c = broadcastInDim S2x32x32 ![0, 1, 2] bcast_S1x32x32_S2x32x32_0_1_2
      (broadcastInDim S1x32x32 ![1, 2] bcast_S32x32_S1x32x32_1_2 (hostOneHot (argW m c))) := by
  show Frame.V (F := Ideal) m c main_v3 = _
  dsimp only [Frame.V, Frame.V0]
  simp only [hostOps0, hostOps0_1, hostOps0_2, List.flatten_cons, List.flatten_nil, List.append_nil, List.cons_append, List.nil_append]
  after_results
  rfl

/-- At row `e` and column `k` the host's matrix compares the word `p e` with the word of `k`: it is the
    specification's 0/1 matrix. -/
theorem hostOneHot_apply (p : S32.Idx → BitVec 32) (e k : Fin 32) :
    hostOneHot p (ix2 e k) = Cert.Proof.Spec.oneHot (fun e => p (ix1 e)) e k := by
  have hL : broadcastInDim S32x32 ![0, 1] bcast_S32x1_S32x32_0_1 (broadcastInDim S32x1 ![0] bcast_S32_S32x1_0 p) (ix2 e k) = p (ix1 e) := by
    refine (broadcastInDim_apply _ _ _ (ix2 e k) (ix2 e (0 : Fin 1)) ?_).trans ?_
    · intro a
      match a with
      | ⟨0, _⟩ => rfl
      | ⟨1, _⟩ => rfl
    · refine broadcastInDim_apply _ _ _ _ (ix1 e) ?_
      intro a
      match a with
      | ⟨0, _⟩ => rfl
  have hR : broadcastInDim S32x32 ![0, 1] bcast_S1x32_S32x32_0_1 (iotaInDim S1x32 32 1) (ix2 e k) = BitVec.ofNat 32 k.val := by
    refine (broadcastInDim_apply _ _ _ (ix2 e k) (ix2 (0 : Fin 1) k) ?_).trans ?_
    · intro a
      match a with
      | ⟨0, _⟩ => rfl
      | ⟨1, _⟩ => rfl
    · rfl
  show FloatOps.uitofp (F := Ideal) .f32 (IntOp.cmpi .eq _ _) = _
  rw [hL, hR]
  unfold Cert.Proof.Spec.oneHot
  by_cases h : p (ix1 e) = BitVec.ofNat 32 k.val
  · rw [if_pos h, StableHlo.Predicate.cmpi_eq_iff.mpr h]
    show (((1#1 : BitVec 1).toNat : ℝ) : EReal) = 1
    simp
  · rw [if_neg h, eq_zero_of_ne_one (mt StableHlo.Predicate.cmpi_eq_iff.mp h)]
    show (((0#1 : BitVec 1).toNat : ℝ) : EReal) = 0
    simp

/-- The batched matrix is the 0/1 matrix of the channel words, the same for both batch entries. -/
theorem V_perm (c : Dev nD) (b : Fin 2) (e k : Fin 32) :
    arrP m c (ix3 b e k) = Cert.Proof.Spec.oneHot (fun e => argW m c (ix1 e)) e k := by
  rw [arrP_eq]
  refine (broadcastInDim_apply _ _ _ (ix3 b e k) (ix3 (0 : Fin 1) e k) ?_).trans ?_
  · intro a
    match a with
    | ⟨0, _⟩ => rfl
    | ⟨1, _⟩ => rfl
    | ⟨2, _⟩ => rfl
  refine (broadcastInDim_apply _ _ _ (ix3 (0 : Fin 1) e k) (ix2 e k) ?_).trans ?_
  · intro a
    match a with
    | ⟨0, _⟩ => rfl
    | ⟨1, _⟩ => rfl
  exact hostOneHot_apply (argW m c) e k

end Cert.KernelIdeal.KValue

end
-- ==== Proof.KPlanes.lean ====
/-
  One grid point's contributions, as sums of the specification's probabilities.

  At point `t` the body reads plane `t` of the flattened logits and its mirror plane `95 - t`: position `y` of
  plane `t` is the flattened voxel `t·9216 + y`, and the mirror of that voxel is `(95 - t)·9216 + y`. The softmax
  the body takes over the channel axis of each block is the specification's probability at those voxels; the 0/1
  matrix block applied to a channel vector picks the channel the word names. So each of the three contributions of
  the point — to the adjacency, to the volumes and to the symmetry defect — is a sum over the 9216 positions of
  terms of the specification, one from each of the two planes.
-/
import proofs.«409875_j8435315769968_3_alg».proof.Proof.KBlocks
import proofs.«409875_j8435315769968_3_alg».proof.Proof.PayValue
import proofs.«409875_j8435315769968_3_alg».proof.Proof.Spec
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.SL.Sem
open Idealize.ShloMosaic.ValueIdx
open Cert.Proof

variable (m : (ℓ : Loc nD τ sig) → Buf (Elt Ideal) ℓ)

/-! ## The names of the whole volume on the kernel's side -/

/-- The logits of core `c`'s argument with the voxels flattened row-major. -/
abbrev kL (c : Dev nD) : Fin 2 → Fin 32 → Fin 884736 → EReal :=
  Spec.flat (fun b ch x y z => m ((c : Thread nD τ).loc main_arg0) (ix5 b ch x y z))

/-- The channel words of core `c`'s argument. -/
abbrev kp (c : Dev nD) : Fin 32 → BitVec 32 := fun e => m ((c : Thread nD τ).loc main_arg9) (ix1 e)

/-- Position `y` of plane `t`, and of its mirror plane `95 - t`, as flattened voxels. -/
abbrev fwd (t : Fin cfg0.N) (y : Fin 9216) : Fin 884736 :=
  ⟨t.val * 9216 + y.val, by have := tlt t; have := y.isLt; omega⟩
abbrev bwd (t : Fin cfg0.N) (y : Fin 9216) : Fin 884736 :=
  ⟨(95 - t.val) * 9216 + y.val, by have := tlt t; have := y.isLt; omega⟩

/-- The mirror of a voxel of plane `t` is the voxel at the same position of plane `95 - t`, and conversely. -/
theorem mirror_fwd (t : Fin cfg0.N) (y : Fin 9216) : Spec.mirror (fwd t y) = bwd t y := by
  have ht := tlt t
  have hy : y.val < 9216 := y.isLt
  apply Fin.ext
  show (95 - (t.val * 9216 + y.val) / 9216) * 9216 + (t.val * 9216 + y.val) % 9216 = (95 - t.val) * 9216 + y.val
  have e1 : (t.val * 9216 + y.val) / 9216 = t.val := by omega
  have e2 : (t.val * 9216 + y.val) % 9216 = y.val := by omega
  rw [e1, e2]

theorem mirror_bwd (t : Fin cfg0.N) (y : Fin 9216) : Spec.mirror (bwd t y) = fwd t y := by
  have ht := tlt t
  have hy : y.val < 9216 := y.isLt
  apply Fin.ext
  show (95 - ((95 - t.val) * 9216 + y.val) / 9216) * 9216 + ((95 - t.val) * 9216 + y.val) % 9216 = t.val * 9216 + y.val
  have e1 : ((95 - t.val) * 9216 + y.val) / 9216 = 95 - t.val := by omega
  have e2 : ((95 - t.val) * 9216 + y.val) % 9216 = y.val := by omega
  have e3 : 95 - (95 - t.val) = t.val := by omega
  rw [e1, e2, e3]

/-! ## The two planes' probabilities -/

/-- The probabilities the body computes from the forward block at point `t` are those of plane `t`. -/
theorem pf_plane (c : Dev nD) (t : Fin cfg0.N) (b : Fin 2) (ch : Fin 32) (y : Fin 9216) :
    Gen.k0_pay10 (F := Ideal) (Frame.fblk (F := Ideal) m c t) (ix3 b ch y) = Spec.PR (kL m c) b ch (fwd t y) := by
  refine (PayValue.pay10_apply (Frame.fblk (F := Ideal) m c t) b ch y).trans ?_
  unfold Spec.PR
  refine congrArg (fun v => Spec.SM v ch) (funext fun k => ?_)
  exact (fblk_apply m c t b k y).trans (flat_eq m c b k (fwd t y))

/-- The probabilities the body computes from the mirror block at point `t` are those of plane `95 - t`. -/
theorem pm_plane (c : Dev nD) (t : Fin cfg0.N) (b : Fin 2) (ch : Fin 32) (y : Fin 9216) :
    Gen.k0_pay11 (F := Ideal) (Frame.gblk (F := Ideal) m c t) (ix3 b ch y) = Spec.PR (kL m c) b ch (bwd t y) := by
  refine (PayValue.pay11_apply (Frame.gblk (F := Ideal) m c t) b ch y).trans ?_
  unfold Spec.PR
  refine congrArg (fun v => Spec.SM v ch) (funext fun k => ?_)
  exact (gblk_apply m c t b k y).trans (flat_eq m c b k (bwd t y))

/-! ## The permutation block applied to a channel vector -/

/-- Row `ch` of the permutation block picks the channel the word `ch` names, when the words are in range. -/
theorem perm_plane (c : Dev nD) (t : Fin cfg0.N) (hp : ∀ e : Fin 32, (kp m c e).toNat < 32) (b : Fin 2) (ch : Fin 32)
    (x : Fin 32 → EReal) :
    ∑ k : Fin 32, Frame.Pblk (F := Ideal) m c t (ix3 b ch k) * x k = x (Spec.pidx (kp m c) ch) := by
  have hi : Spec.pidx (kp m c) ch = ⟨(kp m c ch).toNat, hp ch⟩ := Fin.ext (Nat.mod_eq_of_lt (hp ch))
  rw [hi, ← Spec.oneHot_sum (kp m c) ch (hp ch) x, Pblk_eq m c t]
  exact Finset.sum_congr rfl fun k _ => congrArg (· * x k) (V_perm m c b ch k)

/-! ## The three contributions of one grid point, as sums of the specification's probabilities

  At point `t` the body adds, per accumulator, a term from plane `t` and a term from plane `95 - t`. -/

/-- The adjacency's contribution: the two planes' sums of products of two channels' probabilities. -/
theorem incA_eq (c : Dev nD) (t : Fin cfg0.N) (b : Fin 2) (ch d : Fin 32) :
    (∑ y : Fin 9216, Gen.k0_pay10 (F := Ideal) (Frame.fblk (F := Ideal) m c t) (ix3 b ch y)
          * Gen.k0_pay10 (F := Ideal) (Frame.fblk (F := Ideal) m c t) (ix3 b d y))
      + (∑ y : Fin 9216, Gen.k0_pay11 (F := Ideal) (Frame.gblk (F := Ideal) m c t) (ix3 b ch y)
          * Gen.k0_pay11 (F := Ideal) (Frame.gblk (F := Ideal) m c t) (ix3 b d y))
    = (∑ y : Fin 9216, Spec.PR (kL m c) b ch (fwd t y) * Spec.PR (kL m c) b d (fwd t y))
      + (∑ y : Fin 9216, Spec.PR (kL m c) b ch (bwd t y) * Spec.PR (kL m c) b d (bwd t y)) :=
  congrArg₂ (· + ·)
    (Finset.sum_congr rfl fun y _ => congrArg₂ (· * ·) (pf_plane m c t b ch y) (pf_plane m c t b d y))
    (Finset.sum_congr rfl fun y _ => congrArg₂ (· * ·) (pm_plane m c t b ch y) (pm_plane m c t b d y))

/-- The volumes' contribution: the two planes' sums of a channel's probabilities. -/
theorem incV_eq (c : Dev nD) (t : Fin cfg0.N) (b : Fin 2) (ch : Fin 32) :
    (∑ y : Fin 9216, Gen.k0_pay10 (F := Ideal) (Frame.fblk (F := Ideal) m c t) (ix3 b ch y))
      + (∑ y : Fin 9216, Gen.k0_pay11 (F := Ideal) (Frame.gblk (F := Ideal) m c t) (ix3 b ch y))
    = (∑ y : Fin 9216, Spec.PR (kL m c) b ch (fwd t y)) + (∑ y : Fin 9216, Spec.PR (kL m c) b ch (bwd t y)) :=
  congrArg₂ (· + ·)
    (Finset.sum_congr rfl fun y _ => pf_plane m c t b ch y)
    (Finset.sum_congr rfl fun y _ => pm_plane m c t b ch y)

/-- The symmetry defect's contribution: each plane's probabilities against the permuted channel's at the other
    plane, which is the mirrored voxel. -/
theorem incS_eq (c : Dev nD) (t : Fin cfg0.N) (hp : ∀ e : Fin 32, (kp m c e).toNat < 32) (b : Fin 2) :
    (∑ ch : Fin 32, ∑ y : Fin 9216,
        FloatOps.absf (F := Ideal) (φ := .f32) (FloatOps.subf (F := Ideal) (φ := .f32)
          (Gen.k0_pay10 (F := Ideal) (Frame.fblk (F := Ideal) m c t) (ix3 b ch y))
          (∑ k : Fin 32, Frame.Pblk (F := Ideal) m c t (ix3 b ch k)
            * Gen.k0_pay11 (F := Ideal) (Frame.gblk (F := Ideal) m c t) (ix3 b k y))))
      + (∑ ch : Fin 32, ∑ y : Fin 9216,
        FloatOps.absf (F := Ideal) (φ := .f32) (FloatOps.subf (F := Ideal) (φ := .f32)
          (Gen.k0_pay11 (F := Ideal) (Frame.gblk (F := Ideal) m c t) (ix3 b ch y))
          (∑ k : Fin 32, Frame.Pblk (F := Ideal) m c t (ix3 b ch k)
            * Gen.k0_pay10 (F := Ideal) (Frame.fblk (F := Ideal) m c t) (ix3 b k y))))
    = (∑ ch : Fin 32, ∑ y : Fin 9216,
        FloatOps.absf (F := Ideal) (φ := .f32) (FloatOps.subf (F := Ideal) (φ := .f32)
          (Spec.PR (kL m c) b ch (fwd t y)) (Spec.PR (kL m c) b (Spec.pidx (kp m c) ch) (bwd t y))))
      + (∑ ch : Fin 32, ∑ y : Fin 9216,
        FloatOps.absf (F := Ideal) (φ := .f32) (FloatOps.subf (F := Ideal) (φ := .f32)
          (Spec.PR (kL m c) b ch (bwd t y)) (Spec.PR (kL m c) b (Spec.pidx (kp m c) ch) (fwd t y)))) :=
  congrArg₂ (· + ·)
    (Finset.sum_congr rfl fun ch _ => Finset.sum_congr rfl fun y _ =>
      congrArg₂ (fun u v => FloatOps.absf (F := Ideal) (φ := .f32) (FloatOps.subf (F := Ideal) (φ := .f32) u v))
        (pf_plane m c t b ch y)
        ((perm_plane m c t hp b ch fun k => Gen.k0_pay11 (F := Ideal) (Frame.gblk (F := Ideal) m c t) (ix3 b k y)).trans
          (pm_plane m c t b (Spec.pidx (kp m c) ch) y)))
    (Finset.sum_congr rfl fun ch _ => Finset.sum_congr rfl fun y _ =>
      congrArg₂ (fun u v => FloatOps.absf (F := Ideal) (φ := .f32) (FloatOps.subf (F := Ideal) (φ := .f32) u v))
        (pm_plane m c t b ch y)
        ((perm_plane m c t hp b ch fun k => Gen.k0_pay10 (F := Ideal) (Frame.fblk (F := Ideal) m c t) (ix3 b k y)).trans
          (pf_plane m c t b (Spec.pidx (kp m c) ch) y)))

end Cert.KernelIdeal.KValue

end
-- ==== Proof.KTotals.lean ====
/-
  The kernel's adjacency and volume results, added over the two cores, are the specification's.

  Core `cc`'s slab of a result array is the sum of the contributions of the points `24·cc, …, 24·cc + 23`, and
  point `t` contributes the terms of plane `t` and of plane `95 - t`. Over the two cores every plane is met
  exactly once, so the two slabs add up to the sum over all 884736 voxels; and the sum the program takes over the
  leading axis of a result array, from zero, is the sum of its two slabs.
-/
import proofs.«409875_j8435315769968_3_alg».proof.Proof.KAccum
import proofs.«409875_j8435315769968_3_alg».proof.Proof.KPlanes
import proofs.«409875_j8435315769968_3_alg».proof.Proof.LibSums
import proofs.«409875_j8435315769968_3_alg».proof.Proof.Spec
import Idealize.ShloMosaic.Lib.ValueIdx
import Idealize.ShloMosaic.PureOps.Ideal.Laws

set_option maxRecDepth 16384

noncomputable section

namespace Cert.KernelIdeal.KValue

open Cert.KernelIdeal Cert.KernelIdeal.Gen Cert.KernelIdeal.Body Cert.KernelIdeal.Frame
open Idealize.ShloMosaic Idealize.ShloMosaic.TcCoe Idealize.ShloMosaic.ValueIdx
open Idealize.SL.Sem
open Idealize.ShloMosaic.Pipeline (Dat)
open Cert.Proof

variable (m : (ℓ : Loc nD τ sig) → Buf (Elt Ideal) ℓ)

/-- The adjacency and volume result arrays after the region, at their literal types. -/
abbrev outA (c : Dev nD) : Vec Ideal S2x2x32x32 .f32 := (dats m 0 c).arrAt 3 cfg0.N
abbrev outV (c : Dev nD) : Vec Ideal S2x2x32 .f32 := (dats m 0 c).arrAt 4 cfg0.N

/-- If point `t` contributes the terms `g` of the voxels of plane `t` and of plane `95 - t`, the contributions of all 48
    points, core by core, add up to the sum of `g` over all voxels. -/
theorem total_of_planes {M : Type*} [AddCommMonoid M] (g inc : ℕ → M)
    (h : ∀ t, t < 48 → inc t = (∑ y : Fin 9216, g (t * 9216 + y.val)) + (∑ y : Fin 9216, g ((95 - t) * 9216 + y.val))) :
    ∑ cc : Fin 2, ∑ k ∈ Finset.range 24, inc (24 * cc.val + k) = ∑ n : Fin 884736, g n.val := by
  rw [← LibSums.sum_planes g]
  refine Finset.sum_congr rfl fun cc _ => ?_
  rw [← Fin.sum_univ_eq_sum_range (fun k => inc (24 * cc.val + k)) 24]
  refine Finset.sum_congr rfl fun j _ => ?_
  have hlt : 24 * cc.val + j.val < 48 := by have := cc.isLt; have := j.isLt; omega
  rw [h _ hlt, Nat.mul_comm 24 cc.val]

/-- A number below 48 is a point of the grid. -/
theorem lt_N {t : ℕ} (ht : t < 48) : t < cfg0.N := lt_of_lt_of_eq ht Gen.N_0.symm

/-! ## The adjacency -/

/-- The product of two channels' probabilities at voxel `n` (zero past the volume). -/
def termA (c : Dev nD) (b : Fin 2) (ch d : Fin 32) (n : ℕ) : EReal :=
  if h : n < 884736 then Spec.PR (kL m c) b ch ⟨n, h⟩ * Spec.PR (kL m c) b d ⟨n, h⟩ else 0

theorem termA_of_lt (c : Dev nD) (b : Fin 2) (ch d : Fin 32) {n : ℕ} (h : n < 884736) :
    termA m c b ch d n = Spec.PR (kL m c) b ch ⟨n, h⟩ * Spec.PR (kL m c) b d ⟨n, h⟩ := dif_pos h

/-- Point `t`'s contribution to the adjacency, as terms of the voxels of its two planes. -/
theorem incA_planes (c : Dev nD) (b : Fin 2) (ch d : Fin 32) (t : ℕ) (ht : t < 48) :
    incA m c t b ch d = (∑ y : Fin 9216, termA m c b ch d (t * 9216 + y.val))
      + (∑ y : Fin 9216, termA m c b ch d ((95 - t) * 9216 + y.val)) := by
  refine (incA_of_lt m c (lt_N ht) b ch d).trans ((incA_eq m c ⟨t, lt_N ht⟩ b ch d).trans ?_)
  refine congrArg₂ (· + ·) (Finset.sum_congr rfl fun y _ => ?_) (Finset.sum_congr rfl fun y _ => ?_)
  · exact (termA_of_lt m c b ch d (fwd ⟨t, lt_N ht⟩ y).isLt).symm
  · exact (termA_of_lt m c b ch d (bwd ⟨t, lt_N ht⟩ y).isLt).symm

/-- The two cores' adjacency slabs add up to the specification's adjacency. -/
theorem A_total (c : Dev nD) (b : Fin 2) (ch d : Fin 32) :
    ∑ cc : Fin 2, outA m c (ix4 cc b ch d) = Spec.Amat (kL m c) b ch d := by
  have e1 : ∀ cc : Fin 2, outA m c (ix4 cc b ch d) = ∑ k ∈ Finset.range 24, incA m c (24 * cc.val + k) b ch d :=
    fun cc => (arr3_apply m c cc b ch d).trans (accA_sum m c cc ⟨23, by decide⟩ b ch d)
  rw [Finset.sum_congr rfl fun cc _ => e1 cc,
    total_of_planes (termA m c b ch d) (fun t => incA m c t b ch d) (incA_planes m c b ch d)]
  unfold Spec.Amat
  exact Finset.sum_congr rfl fun n _ => termA_of_lt m c b ch d n.isLt

/-! ## The volumes -/

/-- A channel's probability at voxel `n` (zero past the volume). -/
def termV (c : Dev nD) (b : Fin 2) (ch : Fin 32) (n : ℕ) : EReal :=
  if h : n < 884736 then Spec.PR (kL m c) b ch ⟨n, h⟩ else 0

theorem termV_of_lt (c : Dev nD) (b : Fin 2) (ch : Fin 32) {n : ℕ} (h : n < 884736) :
    termV m c b ch n = Spec.PR (kL m c) b ch ⟨n, h⟩ := dif_pos h

/-- Point `t`'s contribution to the volumes, as terms of the voxels of its two planes. -/
theorem incV_planes (c : Dev nD) (b : Fin 2) (ch : Fin 32) (t : ℕ) (ht : t < 48) :
    incV m c t b ch = (∑ y : Fin 9216, termV m c b ch (t * 9216 + y.val))
      + (∑ y : Fin 9216, termV m c b ch ((95 - t) * 9216 + y.val)) := by
  refine (incV_of_lt m c (lt_N ht) b ch).trans ((incV_eq m c ⟨t, lt_N ht⟩ b ch).trans ?_)
  refine congrArg₂ (· + ·) (Finset.sum_congr rfl fun y _ => ?_) (Finset.sum_congr rfl fun y _ => ?_)
  · exact (termV_of_lt m c b ch (fwd ⟨t, lt_N ht⟩ y).isLt).symm
  · exact (termV_of_lt m c b ch (bwd ⟨t, lt_N ht⟩ y).isLt).symm

/-- The two cores' volume slabs add up to the specification's volumes. -/
theorem V_total (c : Dev nD) (b : Fin 2) (ch : Fin 32) :
    ∑ cc : Fin 2, outV m c (ix3 cc b ch) = Spec.Vvec (kL m c) b ch := by
  have e1 : ∀ cc : Fin 2, outV m c (ix3 cc b ch) = ∑ k ∈ Finset.range 24, incV m c (24 * cc.val + k) b ch :=
    fun cc => (arr4_apply m c cc b ch).trans (accV_sum m c cc ⟨23, by decide⟩ b ch)
  rw [Finset.sum_congr rfl fun cc _ => e1 cc,
    total_of_planes (termV m c b ch) (fun t => incV m c t b ch) (incV_planes m c b ch)]
  unfold Spec.Vvec
  exact Finset.sum_congr rfl fun n _ => termV_of_lt m c b ch n.isLt

/-! ## The program's sums over the leading axis -/

/-- The leading axis dropped from the two result arrays' shapes. -/
theorem reduces_A : S2x2x32x32.Reduces [0] S2x32x32 := by decide
theorem reduces_V : S2x2x32.Reduces [0] S2x32 := by decide

/-- Entry `(b, ch, d)` with the core put back on the leading axis is `(cc, b, ch, d)`. -/
theorem lift_A (b : Fin 2) (ch d : Fin 32) (cc : Fin 2) : reduces_A.lift (ix3 b ch d) cc = ix4 cc b ch d :=
  funext fun a => Fin.ext (by
    match a with
    | ⟨0, _⟩ => rfl
    | ⟨1, _⟩ => rfl
    | ⟨2, _⟩ => rfl
    | ⟨3, _⟩ => rfl)
theorem lift_V (b : Fin 2) (ch : Fin 32) (cc : Fin 2) : reduces_V.lift (ix2 b ch) cc = ix3 cc b ch :=
  funext fun a => Fin.ext (by
    match a with
    | ⟨0, _⟩ => rfl
    | ⟨1, _⟩ => rfl
    | ⟨2, _⟩ => rfl)

/-- The program's sum of the adjacency result over the cores, from zero, is the specification's adjacency. -/
theorem hostA_apply (c : Dev nD) (b : Fin 2) (ch d : Fin 32) :
    Host.reduceAdd (F := Ideal) (outA m c) (constant (F := Ideal) S_ .f32 0#32) Facts₀.reducesTo_S2x2x32x32_S2x32x32_d0 Facts₀.h_S_ (ix3 b ch d)
      = Spec.Amat (kL m c) b ch d := by
  refine (Ideal.hostReduceAdd_single Facts₀.reducesTo_S2x2x32x32_S2x32x32_d0 reduces_A (outA m c) (Ideal.ofBits .f32 0#32) (ix3 b ch d)).trans ?_
  rw [Ideal.ofBits_zero_f32, zero_add, ← A_total m c b ch d]
  exact Finset.sum_congr rfl fun cc _ => congrArg (outA m c) (lift_A b ch d cc)

/-- The program's sum of the volume result over the cores, from zero, is the specification's volumes. -/
theorem hostV_apply (c : Dev nD) (b : Fin 2) (ch : Fin 32) :
    Host.reduceAdd (F := Ideal) (outV m c) (constant (F := Ideal) S_ .f32 0#32) Facts₀.reducesTo_S2x2x32_S2x32_d0 Facts₀.h_S_ (ix2 b ch)
      = Spec.Vvec (kL m c) b ch := by
  refine (Ideal.hostReduceAdd_single Facts₀.reducesTo_S2x2x32_S2x32_d0 reduces_V (outV m c) (Ideal.ofBits .f32 0#32) (ix2 b ch)).trans ?_
  rw [Ideal.ofBits_zero_f32, zero_add, ← V_total m c b ch]
  exact Finset.sum_congr rfl fun cc _ => congrArg (outV m c) (lift_V b ch cc)

end Cert.KernelIdeal.KValue

end
-- ==== Proof.KTotalsS.lean ====
/-
  The symmetry result summed over the two cores is the specification's symmetry defect.

  Core `cc`'s symmetry accumulator ends at the sum, over its 24 steps, of the step's two planes' terms: plane
  `t` and plane `95 - t`, each voxel's probability against the permuted channel's at the mirrored voxel. The
  mirror of a voxel of plane `t` lies in plane `95 - t` and conversely, so both planes' terms are the
  specification's term at their own voxels; the 48 pairs of planes are all 96 planes, each once.
-/
import proofs.«409875_j8435315769968_3_alg».proof.Proof.KAccum
import proofs.«409875_j8435315769968_3_alg».proof.Proof.KPlanes
import proofs.«409875_j8435315769968_3_alg».proof.Proof.LibSums
import Idealize.ShloMosaic.PureOps.Ideal.Laws

set_option maxRecDepth 16384

noncomputable section

namespace Cert.KernelIdeal.KValue

open Cert.KernelIdeal Cert.KernelIdeal.Gen Cert.KernelIdeal.Frame
open Idealize.ShloMosaic Idealize.ShloMosaic.TcCoe Idealize.ShloMosaic.ValueIdx
open Idealize.SL.Sem
open Cert.Proof

variable (m : (ℓ : Loc nD τ sig) → Buf (Elt Ideal) ℓ)

/-- The symmetry term of one voxel: its probability against the permuted channel's at the mirrored voxel. -/
def termS (L : Fin 2 → Fin 32 → Fin 884736 → EReal) (p : Fin 32 → BitVec 32) (b : Fin 2) (ch : Fin 32) (n : Fin 884736) : EReal :=
  FloatOps.absf (F := Ideal) (φ := .f32) (FloatOps.subf (F := Ideal) (φ := .f32) (Spec.PR L b ch n) (Spec.PR L b (Spec.pidx p ch) (Spec.mirror n)))

/-- The same as a function of every natural: zero past the volume. -/
def gS (c : Dev nD) (b : Fin 2) (ch : Fin 32) (n : ℕ) : EReal :=
  if h : n < 884736 then termS (kL m c) (kp m c) b ch ⟨n, h⟩ else 0

/-- The terms of plane `i` and of its mirror plane `95 - i`, summed over the plane's positions. -/
def pairS (c : Dev nD) (b : Fin 2) (ch : Fin 32) (i : ℕ) : EReal :=
  (∑ y : Fin 9216, gS m c b ch (i * 9216 + y.val)) + (∑ y : Fin 9216, gS m c b ch ((95 - i) * 9216 + y.val))

/-- Point `t`'s contribution to the symmetry accumulator is, channel by channel, the terms of plane `t` and of plane `95 - t`. -/
theorem stepS_planes (c : Dev nD) (t : Fin cfg0.N) (hp : ∀ e : Fin 32, (kp m c e).toNat < 32) (b : Fin 2) :
    stepS m c t b = ∑ ch : Fin 32, pairS m c b ch t.val := by
  unfold stepS
  refine (incS_eq m c t hp b).trans ?_
  rw [← Finset.sum_add_distrib]
  refine Finset.sum_congr rfl fun ch _ => ?_
  unfold pairS
  refine congrArg₂ (· + ·) (Finset.sum_congr rfl fun y _ => ?_) (Finset.sum_congr rfl fun y _ => ?_)
  · have h : t.val * 9216 + y.val < 884736 := (fwd t y).isLt
    rw [gS, dif_pos h]
    unfold termS
    rw [show Spec.mirror ⟨t.val * 9216 + y.val, h⟩ = bwd t y from mirror_fwd t y]
  · have h : (95 - t.val) * 9216 + y.val < 884736 := (bwd t y).isLt
    rw [gS, dif_pos h]
    unfold termS
    rw [show Spec.mirror ⟨(95 - t.val) * 9216 + y.val, h⟩ = fwd t y from mirror_bwd t y]

/-- The symmetry result array, at its literal type. -/
abbrev resS (c : Dev nD) : S2x2x1.Idx → EReal := (dats m 0 c).arrAt 5 cfg0.N

/-- Step `j` of core `cc` is a point of the grid. -/
theorem core_lt (cc : Fin 2) (j : Fin 24) : cc.val * 24 + j.val < cfg0.N := by
  have := cc.isLt; have := j.isLt; have : cfg0.N = 48 := Gen.N_0; omega

/-- Core `cc`'s entry of the symmetry result is the sum of its 24 steps' contributions. -/
theorem arr5_core (c : Dev nD) (cc : Fin 2) (b : Fin 2) :
    resS m c (ix3 cc b (0 : Fin 1)) = ∑ j : Fin 24, stepS m c ⟨cc.val * 24 + j.val, core_lt cc j⟩ b := by
  show (dats m 0 c).arrAt 5 cfg0.N (ix3 cc b (0 : Fin 1)) = _
  rw [arr5_apply]
  refine (accS_sum m c cc ⟨23, by decide⟩ b).trans ?_
  show ∑ k ∈ Finset.range 24, incS m c (24 * cc.val + k) b = _
  rw [Finset.sum_range (fun k => incS m c (24 * cc.val + k) b)]
  refine Finset.sum_congr rfl fun j _ => ?_
  have h : 24 * cc.val + j.val < cfg0.N := by have := core_lt cc j; omega
  rw [incS_of_lt m c h]
  have e : (⟨24 * cc.val + j.val, h⟩ : Fin cfg0.N) = ⟨cc.val * 24 + j.val, core_lt cc j⟩ := Fin.ext (by show 24 * cc.val + j.val = cc.val * 24 + j.val; omega)
  rw [e]

/-- The symmetry result summed over the cores and the batch is the specification's symmetry defect. -/
theorem S_total (c : Dev nD) (hp : ∀ e : Fin 32, (kp m c e).toNat < 32) :
    ∑ cc : Fin 2, ∑ b : Fin 2, resS m c (ix3 cc b (0 : Fin 1)) = Spec.Ssum (kL m c) (kp m c) := by
  have h1 : ∀ (cc : Fin 2) (b : Fin 2), resS m c (ix3 cc b (0 : Fin 1))
      = ∑ j : Fin 24, ∑ ch : Fin 32, pairS m c b ch (cc.val * 24 + j.val) := fun cc b =>
    (arr5_core m c cc b).trans (Finset.sum_congr rfl fun j _ => stepS_planes m c ⟨cc.val * 24 + j.val, core_lt cc j⟩ hp b)
  calc ∑ cc : Fin 2, ∑ b : Fin 2, resS m c (ix3 cc b (0 : Fin 1))
      = ∑ cc : Fin 2, ∑ b : Fin 2, ∑ j : Fin 24, ∑ ch : Fin 32, pairS m c b ch (cc.val * 24 + j.val) :=
        Finset.sum_congr rfl fun cc _ => Finset.sum_congr rfl fun b _ => h1 cc b
    _ = ∑ b : Fin 2, ∑ cc : Fin 2, ∑ j : Fin 24, ∑ ch : Fin 32, pairS m c b ch (cc.val * 24 + j.val) := Finset.sum_comm
    _ = ∑ b : Fin 2, ∑ cc : Fin 2, ∑ ch : Fin 32, ∑ j : Fin 24, pairS m c b ch (cc.val * 24 + j.val) :=
        Finset.sum_congr rfl fun b _ => Finset.sum_congr rfl fun cc _ => Finset.sum_comm
    _ = ∑ b : Fin 2, ∑ ch : Fin 32, ∑ cc : Fin 2, ∑ j : Fin 24, pairS m c b ch (cc.val * 24 + j.val) :=
        Finset.sum_congr rfl fun b _ => Finset.sum_comm
    _ = ∑ b : Fin 2, ∑ ch : Fin 32, ∑ n : Fin 884736, gS m c b ch n.val :=
        Finset.sum_congr rfl fun b _ => Finset.sum_congr rfl fun ch _ => Cert.Proof.LibSums.sum_planes (gS m c b ch)
    _ = Spec.Ssum (kL m c) (kp m c) := by
        unfold Spec.Ssum
        refine Finset.sum_congr rfl fun b _ => Finset.sum_congr rfl fun ch _ => Finset.sum_congr rfl fun n _ => ?_
        rw [gS, dif_pos n.isLt]
        rfl

/-- The entries of the symmetry result are its (core, batch entry) pairs, the last axis having one coordinate. -/
def idxS : (Fin 2 × Fin 2) ≃ S2x2x1.Idx where
  toFun p := ix3 p.1 p.2 (0 : Fin 1)
  invFun i := (i 0, i 1)
  left_inv p := rfl
  right_inv i := by
    funext a
    match a with
    | ⟨0, _⟩ => rfl
    | ⟨1, _⟩ => rfl
    | ⟨2, _⟩ => exact Fin.ext (by have : (i 2).val < 1 := (i 2).isLt; show 0 = (i 2).val; omega)

/-- The host's sum of the symmetry result over all its axes, from the zero word, is the specification's symmetry defect. -/
theorem hostS_apply (c : Dev nD) (hp : ∀ e : Fin 32, (kp m c e).toNat < 32) :
    Host.reduceAdd (F := Ideal) (resS m c) (constant S_ .f32 0#32) Cert.KernelIdeal.Facts₀.reducesTo_S2x2x1_S_d0_1_2 Cert.KernelIdeal.Facts₀.h_S_ ix0
      = Spec.Ssum (kL m c) (kp m c) := by
  rw [← S_total m c hp]
  show Ideal.hostReduceAdd Cert.KernelIdeal.Facts₀.reducesTo_S2x2x1_S_d0_1_2 (resS m c) (Ideal.ofBits .f32 0#32) ix0 = _
  rw [Ideal.hostReduceAdd_total Cert.KernelIdeal.Facts₀.reducesTo_S2x2x1_S_d0_1_2 (fun b => b.elim0), Ideal.ofBits_zero_f32, zero_add,
    ← Equiv.sum_comp idxS, Fintype.sum_prod_type]
  rfl

end Cert.KernelIdeal.KValue
end
-- ==== Proof.RefValue.lean ====
/-
  The reference program's softmax stage, read at one voxel: the probability of channel `ch` at voxel
  `(x, y, z)` of batch entry `b` is the shifted softmax of that voxel's 32 channel logits.
-/
import proofs.«409875_j8435315769968_3_alg».proof.Proof.Gen.ReferenceIdeal.Read
import proofs.«409875_j8435315769968_3_alg».proof.Proof.Spec
import Idealize.ShloMosaic.Lib.ValueIdx

noncomputable section

namespace Cert.ReferenceIdeal.RefValue

open Cert.ReferenceIdeal Cert.ReferenceIdeal.Gen Idealize.ShloMosaic Idealize.ShloMosaic.ValueIdx Cert.Proof

/-- The logits' array: one extended real per (batch, channel, x, y, z). -/
abbrev Logits := (⟨S2x32x96x96x96, .f32⟩ : BufTy).Contents (Elt Ideal)

/-- The 32 channel logits of one voxel. -/
abbrev chan (x0 : Logits) (b : Fin 2) (x y z : Fin 96) : Fin 32 → EReal := fun k => x0 (ix5 b k x y z)

/-- The channel axis dropped from the logits' shape. -/
theorem reduces_d1 : S2x32x96x96x96.Reduces [1] S2x96x96x96 := by decide

/-- The voxel `(b, x, y, z)` with channel `k` put back on axis 1 is `(b, k, x, y, z)`. -/
theorem lift_d1 (b : Fin 2) (x y z : Fin 96) (k : Fin (S2x32x96x96x96.size 1)) :
    reduces_d1.lift (ix4 b x y z) k = ix5 b (⟨k.val, k.isLt⟩ : Fin 32) x y z := by
  funext c; apply Fin.ext
  fin_cases c <;> rfl

/-- The maximum over the channel axis, from `-∞`, at one voxel. -/
theorem max0_apply (x0 : Logits) (b : Fin 2) (x y z : Fin 96) :
    Read.val_main_v0 (F := Ideal) x0 (ix4 b x y z) = Spec.vmax (chan x0 b x y z) := by
  unfold Read.val_main_v0
  refine (Host.reduce_eq_fold_single (FloatOps.maximumf (F := Ideal) (φ := .f32)) x0 (Read.val_main_cst (F := Ideal))
    reducesTo_S2x32x96x96x96_S2x96x96x96_d1 reduces_d1 h_S_ (ix4 b x y z)).trans ?_
  have hf : (x0 ∘ reduces_d1.lift (ix4 b x y z)) = chan x0 b x y z :=
    funext fun k => congrArg x0 (lift_d1 b x y z k)
  rw [hf]
  rfl

/-- The broadcast `-∞`, joined to that maximum by another maximum, changes nothing: the fold already
    starts at `-∞`. -/
theorem max2_apply (x0 : Logits) (b : Fin 2) (x y z : Fin 96) :
    Read.val_main_v2 (F := Ideal) x0 (ix4 b x y z) = Spec.vmax (chan x0 b x y z) := by
  rw [Read.val_main_v2_apply, Read.val_main_v1_apply, Read.val_main_cst_0_apply, max0_apply]
  show max Spec.negInf (Spec.vmax (chan x0 b x y z)) = _
  unfold Spec.vmax
  exact max_eq_right ((Finset.le_fold_max _).mpr (Or.inl le_rfl))

/-- Broadcasting a per-voxel value back over the channel axis reads it at the voxel. -/
theorem idx_v3_v4 (b : Fin 2) (ch : Fin 32) (x y z : Fin 96) :
    Read.idx_main_v3 (Read.idx_main_v4 (ix5 b ch x y z)) = ix4 b x y z := by
  funext a; apply Fin.ext
  match a with
  | ⟨0, _⟩ => rfl
  | ⟨1, _⟩ => rfl
  | ⟨2, _⟩ => rfl
  | ⟨3, _⟩ => rfl

theorem idx_v8_v9 (b : Fin 2) (ch : Fin 32) (x y z : Fin 96) :
    Read.idx_main_v8 (Read.idx_main_v9 (ix5 b ch x y z)) = ix4 b x y z := by
  funext a; apply Fin.ext
  match a with
  | ⟨0, _⟩ => rfl
  | ⟨1, _⟩ => rfl
  | ⟨2, _⟩ => rfl
  | ⟨3, _⟩ => rfl

/-- The term of the channel sum at voxel `(b, x, y, z)` and channel `k` is the entry `(b, k, x, y, z)`. -/
theorem idx_v7 (b : Fin 2) (x y z : Fin 96) (k : Fin 32) :
    Read.idx_main_v7 (ix4 b x y z) k = ix5 b k x y z := by
  funext a; apply Fin.ext
  match a with
  | ⟨0, _⟩ => rfl
  | ⟨1, _⟩ => rfl
  | ⟨2, _⟩ => rfl
  | ⟨3, _⟩ => rfl
  | ⟨4, _⟩ => rfl

/-- The shifted exponential of one channel at one voxel. -/
theorem sexp_apply (x0 : Logits) (b : Fin 2) (ch : Fin 32) (x y z : Fin 96) :
    Read.val_main_v6 (F := Ideal) x0 (ix5 b ch x y z) = Spec.sexp (chan x0 b x y z) ch := by
  rw [Read.val_main_v6_apply, Read.val_main_v5_apply, Read.val_main_v4_apply, Read.val_main_v3_apply,
    idx_v3_v4, max2_apply]
  rfl

/-- The softmax's denominator at one voxel: the sum over the channels of the shifted exponentials (the sum
    starts from the zero word, which is `0`). -/
theorem den_apply (x0 : Logits) (b : Fin 2) (x y z : Fin 96) :
    Read.val_main_v7 (F := Ideal) x0 (ix4 b x y z) = ∑ k : Fin 32, Spec.sexp (chan x0 b x y z) k := by
  rw [Read.val_main_v7_apply, Read.val_main_cst_1_apply]
  simp only [idx_v7, sexp_apply]
  show Ideal.ofBits .f32 0x00000000#32 + _ = _
  rw [Ideal.ofBits_zero_f32, zero_add]

/-- The probabilities: the reference's softmax over the channel axis, at one entry. -/
theorem probs_apply (x0 : Logits) (b : Fin 2) (ch : Fin 32) (x y z : Fin 96) :
    Read.val_main_v10 (F := Ideal) x0 (ix5 b ch x y z) = Spec.SM (fun k => x0 (ix5 b k x y z)) ch := by
  rw [Read.val_main_v10_apply, Read.val_main_v9_apply, Read.val_main_v8_apply, idx_v8_v9, den_apply, sexp_apply]
  rfl

/-! ## The whole-volume names

  The logits by coordinates, the same with the voxels flattened row-major, the channel words, and the entry
  of voxel `n`: `n = x·9216 + y·96 + z` sits at `(x, y, z) = (n / 9216, n / 96 % 96, n % 96)`. -/

/-- The logits by coordinates. -/
abbrev X0 (x0 : Logits) : Fin 2 → Fin 32 → Fin 96 → Fin 96 → Fin 96 → EReal :=
  fun b ch x y z => x0 (ix5 b ch x y z)

/-- The logits with the voxel coordinates flattened row-major. -/
abbrev L (x0 : Logits) : Fin 2 → Fin 32 → Fin 884736 → EReal := Spec.flat (X0 x0)

/-- The channel permutation's array of 32-bit words. -/
abbrev Words := (⟨S32, .i32⟩ : BufTy).Contents (Elt Ideal)

/-- The channel words by their position. -/
abbrev pw (x9 : Words) : Fin 32 → BitVec 32 := fun e => x9 (ix1 e)

/-- The entry of batch entry `b`, channel `ch` and flattened voxel `n`. -/
abbrev vox (b : Fin 2) (ch : Fin 32) (n : Fin 884736) : S2x32x96x96x96.Idx :=
  ix5 b ch (⟨n.val / 9216, by have := n.isLt; omega⟩ : Fin 96) (⟨n.val / 96 % 96, Nat.mod_lt _ (by decide)⟩ : Fin 96)
    (⟨n.val % 96, Nat.mod_lt _ (by decide)⟩ : Fin 96)

/-- The probabilities at a flattened voxel are the specification's. -/
theorem probs_vox (x0 : Logits) (b : Fin 2) (ch : Fin 32) (n : Fin 884736) :
    Read.val_main_v10 (F := Ideal) x0 (vox b ch n) = Spec.PR (L x0) b ch n :=
  probs_apply x0 b ch _ _ _

/-- Every entry is the entry of one batch entry, one channel and one flattened voxel. -/
def voxEquiv : S2x32x96x96x96.Idx ≃ Fin 2 × Fin 32 × Fin 884736 where
  toFun i := (⟨(i 0).val, (i 0).isLt⟩, ⟨(i 1).val, (i 1).isLt⟩,
    ⟨(i 2).val * 9216 + (i 3).val * 96 + (i 4).val, by
      have h2 : (i 2).val < 96 := (i 2).isLt
      have h3 : (i 3).val < 96 := (i 3).isLt
      have h4 : (i 4).val < 96 := (i 4).isLt
      omega⟩)
  invFun p := vox p.1 p.2.1 p.2.2
  left_inv i := by
    have h2 : (i 2).val < 96 := (i 2).isLt
    have h3 : (i 3).val < 96 := (i 3).isLt
    have h4 : (i 4).val < 96 := (i 4).isLt
    funext a; apply Fin.ext
    match a with
    | ⟨0, _⟩ => rfl
    | ⟨1, _⟩ => rfl
    | ⟨2, _⟩ => show ((i 2).val * 9216 + (i 3).val * 96 + (i 4).val) / 9216 = (i 2).val; omega
    | ⟨3, _⟩ => show ((i 2).val * 9216 + (i 3).val * 96 + (i 4).val) / 96 % 96 = (i 3).val; omega
    | ⟨4, _⟩ => show ((i 2).val * 9216 + (i 3).val * 96 + (i 4).val) % 96 = (i 4).val; omega
  right_inv p := by
    obtain ⟨b, ch, n⟩ := p
    refine Prod.ext rfl (Prod.ext rfl (Fin.ext ?_))
    show n.val / 9216 * 9216 + n.val / 96 % 96 * 96 + n.val % 96 = n.val
    omega

theorem voxEquiv_symm_apply (b : Fin 2) (ch : Fin 32) (n : Fin 884736) : voxEquiv.symm (b, ch, n) = vox b ch n := rfl

/-- A sum over every entry is the sum over the batch entries, the channels and the flattened voxels. -/
theorem sum_entries {M : Type*} [AddCommMonoid M] (f : S2x32x96x96x96.Idx → M) :
    ∑ i, f i = ∑ b : Fin 2, ∑ ch : Fin 32, ∑ n : Fin 884736, f (vox b ch n) := by
  rw [← Equiv.sum_comp voxEquiv.symm f, Fintype.sum_prod_type]
  refine Finset.sum_congr rfl fun b _ => ?_
  rw [Fintype.sum_prod_type]
  rfl

end Cert.ReferenceIdeal.RefValue

end
-- ==== Proof.RefValueA.lean ====
/-
  The reference program's channel adjacency stage, read as the sum over all voxels of the product of two
  channels' probabilities.
-/
import proofs.«409875_j8435315769968_3_alg».proof.Proof.RefValue

noncomputable section

namespace Cert.ReferenceIdeal.RefValue

open Cert.ReferenceIdeal Cert.ReferenceIdeal.Gen Idealize.ShloMosaic Idealize.ShloMosaic.ValueIdx Cert.Proof

/-! ## The channel adjacency

  The reshape to `[2, 32, 884736]` is the row-major flattening of the voxels, so the contraction over the
  flattened axis sums the products of two channels' probabilities over all voxels. -/

/-- The reshape reads flattened voxel `k` of channel `ch` at the entry of that voxel. -/
theorem idx_v14 (b : Fin 2) (ch : Fin 32) (k : Fin 884736) :
    Read.idx_main_v14 (ix3 b ch k) = vox b ch k := by
  have hb : b.val < 2 := b.isLt
  have hc : ch.val < 32 := ch.isLt
  have hk : k.val < 884736 := k.isLt
  funext a; apply Fin.ext
  match a with
  | ⟨0, _⟩ => show ((b.val * 32 + ch.val) * 884736 + k.val) / 28311552 = b.val; omega
  | ⟨1, _⟩ => show ((b.val * 32 + ch.val) * 884736 + k.val) / 884736 % 32 = ch.val; omega
  | ⟨2, _⟩ => show ((b.val * 32 + ch.val) * 884736 + k.val) / 9216 % 96 = k.val / 9216; omega
  | ⟨3, _⟩ => show ((b.val * 32 + ch.val) * 884736 + k.val) / 96 % 96 = k.val / 96 % 96; omega
  | ⟨4, _⟩ => show ((b.val * 32 + ch.val) * 884736 + k.val) % 96 = k.val % 96; omega

/-- The contraction's left operand at `(b, ch, d)` and voxel `k` is `(b, ch, k)`. -/
theorem lidx_v15 (b : Fin 2) (ch d : Fin 32) (k : Fin 884736) :
    Read.lidx_main_v15 (ix3 b ch d) k = ix3 b ch k := by
  funext a; apply Fin.ext
  match a with
  | ⟨0, _⟩ => rfl
  | ⟨1, _⟩ => rfl
  | ⟨2, _⟩ => rfl

/-- The contraction's right operand at `(b, ch, d)` and voxel `k` is `(b, d, k)`. -/
theorem ridx_v15 (b : Fin 2) (ch d : Fin 32) (k : Fin 884736) :
    Read.ridx_main_v15 (ix3 b ch d) k = ix3 b d k := by
  funext a; apply Fin.ext
  match a with
  | ⟨0, _⟩ => rfl
  | ⟨1, _⟩ => rfl
  | ⟨2, _⟩ => rfl

/-- The adjacency of channels `ch` and `d`: the sum over all voxels of the product of their probabilities. -/
theorem A_apply (x0 : Logits) (b : Fin 2) (ch d : Fin 32) :
    Read.val_main_v15 (F := Ideal) x0 (ix3 b ch d) = Spec.Amat (L x0) b ch d := by
  rw [Read.val_main_v15_apply]
  unfold Spec.Amat
  refine Finset.sum_congr rfl fun k _ => ?_
  rw [lidx_v15, ridx_v15, Read.val_main_v14_apply, Read.val_main_v14_apply, idx_v14, idx_v14, probs_vox, probs_vox]

end Cert.ReferenceIdeal.RefValue

end
-- ==== Proof.RefValueV.lean ====
/-
  The reference program's channel volume stage, read as the sum of a channel's probabilities over all voxels.
-/
import proofs.«409875_j8435315769968_3_alg».proof.Proof.RefValue

noncomputable section

namespace Cert.ReferenceIdeal.RefValue

open Cert.ReferenceIdeal Cert.ReferenceIdeal.Gen Idealize.ShloMosaic Idealize.ShloMosaic.ValueIdx Cert.Proof

/-! ## The channel volumes

  The sum over the three voxel axes, at `(b, ch)`, runs over the entries whose batch entry is `b` and whose
  channel is `ch`: one for each flattened voxel. -/

/-- Dropping the voxel axes of the entry of voxel `n` leaves `(b, ch)`. -/
theorem drop_vox (b : Fin 2) (ch : Fin 32) (n : Fin 884736) :
    reducesTo_S2x32x96x96x96_S2x32_d2_3_4.drop (vox b ch n) = ix2 b ch := by
  funext a; apply Fin.ext
  match a with
  | ⟨0, _⟩ => rfl
  | ⟨1, _⟩ => rfl

/-- An entry that drops to `(b, ch)` is the entry of its own flattened voxel in batch entry `b`, channel `ch`. -/
theorem vox_of_drop (b : Fin 2) (ch : Fin 32) (i : S2x32x96x96x96.Idx)
    (hd : reducesTo_S2x32x96x96x96_S2x32_d2_3_4.drop i = ix2 b ch) : vox b ch (voxEquiv i).2.2 = i := by
  have h0 : (i 0).val = b.val := congrArg (fun j : S2x32.Idx => (j 0).val) hd
  have h1 : (i 1).val = ch.val := congrArg (fun j : S2x32.Idx => (j 1).val) hd
  have hb : (voxEquiv i).1 = b := Fin.ext h0
  have hc : (voxEquiv i).2.1 = ch := Fin.ext h1
  have e := voxEquiv.symm_apply_apply i
  rw [← hb, ← hc]
  exact e

/-- The volume of channel `ch`: the sum of its probabilities over all voxels (the sum starts from the zero
    word, which is `0`). -/
theorem V_apply (x0 : Logits) (b : Fin 2) (ch : Fin 32) :
    Read.val_main_v67 (F := Ideal) x0 (ix2 b ch) = Spec.Vvec (L x0) b ch := by
  unfold Read.val_main_v67
  simp only [Host.reduceAdd, Ideal.hostReduceAdd_def]
  unfold Ideal.hostReduceAdd
  rw [Read.val_main_cst_17_apply]
  show Ideal.ofBits .f32 0x00000000#32 + _ = _
  rw [Ideal.ofBits_zero_f32, zero_add]
  unfold Spec.Vvec
  refine Finset.sum_nbij' (fun i => (voxEquiv i).2.2) (fun n => vox b ch n) (fun _ _ => Finset.mem_univ _) ?_ ?_ ?_ ?_
  · intro n _
    exact Finset.mem_filter.2 ⟨Finset.mem_univ _, drop_vox b ch n⟩
  · intro i hi
    exact vox_of_drop b ch i (Finset.mem_filter.1 hi).2
  · intro n _
    exact congrArg (fun p : Fin 2 × Fin 32 × Fin 884736 => p.2.2) (voxEquiv.apply_symm_apply (b, ch, n))
  · intro i hi
    rw [← probs_vox, vox_of_drop b ch i (Finset.mem_filter.1 hi).2]

end Cert.ReferenceIdeal.RefValue

end
-- ==== Proof.RefValueS.lean ====
/-
  The reference program's symmetry stage, read as the sum over all batch entries, channels and voxels of the
  absolute difference between a probability and the permuted channel's probability at the mirrored voxel.
-/
import proofs.«409875_j8435315769968_3_alg».proof.Proof.RefValue

noncomputable section

namespace Cert.ReferenceIdeal.RefValue

open Cert.ReferenceIdeal Cert.ReferenceIdeal.Gen Idealize.ShloMosaic Idealize.ShloMosaic.ValueIdx Cert.Proof

/-! ## The symmetry defect

  Every probability is set against the probability of the permuted channel at the mirrored voxel: the channel
  words, once in range, pass the wrap of negative words unchanged and name the channel the gather reads, and
  the reverse along the first voxel axis reads plane `x` at plane `95 - x`. The sum over all five axes is then
  the sum over the batch entries, the channels and the flattened voxels. -/

/-- A word below 32 is its own value as a signed integer. -/
theorem toInt_of_lt (w : BitVec 32) (h : w.toNat < 32) : w.toInt = (w.toNat : Int) := by
  rw [BitVec.toInt_eq_toNat_cond, if_pos (by omega)]

/-- A word below 32 is not negative as a signed integer. -/
theorem cmpi_slt_zero (w : BitVec 32) (h : w.toNat < 32) : IntOp.cmpi .slt w 0#32 = 0#1 := by
  have hs : w.slt 0#32 = false := by
    rw [BitVec.slt, toInt_of_lt w h]; simp
  simp [IntOp.cmpi, hs]

/-- The wrap of negative channel words leaves a word below 32 as it is. -/
theorem word_apply (x9 : Words) (ch : Fin 32) (h : (x9 (ix1 ch)).toNat < 32) :
    Read.val_main_v111 (F := Ideal) x9 (ix2 ch (0 : Fin 1)) = x9 (ix1 ch) := by
  have e : Read.idx_main_v111 (ix2 ch (0 : Fin 1)) = ix1 ch := by
    funext a; apply Fin.ext
    match a with
    | ⟨0, _⟩ => rfl
  rw [Read.val_main_v111_apply, e, Read.val_main_v110_apply, Read.val_main_v107_apply, Read.val_main_v106_apply,
    Read.val_main_c_26_apply, cmpi_slt_zero _ h, select_zero]

/-- The channel the gather reads for a word below 32 — the word as a signed integer, kept inside `[0, 31]` — is
    the channel the word names. -/
theorem word_idx (x9 : Words) (ch : Fin 32) (h : (x9 (ix1 ch)).toNat < 32) :
    (⟨min (Read.val_main_v111 (F := Ideal) x9 (ix2 ch (0 : Fin 1))).toInt.toNat 31, by omega⟩ : Fin 32)
      = Spec.pidx (pw x9) ch := by
  apply Fin.ext
  show min (Read.val_main_v111 (F := Ideal) x9 (ix2 ch (0 : Fin 1))).toInt.toNat 31 = (x9 (ix1 ch)).toNat % 32
  rw [word_apply x9 ch h, toInt_of_lt _ h, Int.toNat_natCast, Nat.mod_eq_of_lt h]
  omega

/-- The gather along the channel axis. -/
abbrev G := gather_S2x32x96x96x96_S32x1_S2x32x96x96x96_0234_1_n_n_1_1_21969696

/-- The gather reads entry `(b, ch, x, y, z)` of its result at `(b, e, x, y, z)`, `e` the start index of row
    `ch` read as a signed integer and kept inside `[0, 31]`. -/
theorem gather_idx (idx : IVec S32x1 32) (b : Fin 2) (ch : Fin 32) (x y z : Fin 96) :
    G.operandIdx (ix5 b ch x y z) idx
      = ix5 b (⟨min (idx (ix2 ch (0 : Fin 1))).toInt.toNat 31, by omega⟩ : Fin 32) x y z := by
  funext a; apply Fin.ext
  show G.start (ix5 b ch x y z) idx a + G.batchCoord (ix5 b ch x y z) a + G.offCoord (ix5 b ch x y z) a = _
  rw [GatherDims.batchCoord_eq_zero _ _ _ List.not_mem_nil]
  match a with
  | ⟨0, _⟩ => show 0 + 0 + b.val = b.val; omega
  | ⟨1, _⟩ =>
    have hsi : G.siIdx (ix5 b ch x y z) ⟨0, by decide⟩ = ix2 ch (0 : Fin 1) := by
      funext c; apply Fin.ext
      match c with
      | ⟨0, _⟩ => rfl
      | ⟨1, _⟩ => rfl
    show min (idx (G.siIdx (ix5 b ch x y z) ⟨0, by decide⟩)).toInt.toNat (32 - 1) + 0 + 0
      = min (idx (ix2 ch (0 : Fin 1))).toInt.toNat 31
    rw [hsi]
    rfl
  | ⟨2, _⟩ => show 0 + 0 + x.val = x.val; omega
  | ⟨3, _⟩ => show 0 + 0 + y.val = y.val; omega
  | ⟨4, _⟩ => show 0 + 0 + z.val = z.val; omega

/-- The reverse along the first voxel axis reads plane `x` at plane `95 - x`. -/
theorem rev_apply (x0 : Logits) (b : Fin 2) (e : Fin 32) (x y z : Fin 96) :
    Read.val_main_v105 (F := Ideal) x0 (ix5 b e x y z) = Read.val_main_v10 (F := Ideal) x0 (ix5 b e x.rev y z) := by
  unfold Read.val_main_v105 Host.reverse
  refine congrArg (Read.val_main_v10 (F := Ideal) x0) (funext fun a => ?_)
  match a with
  | ⟨0, _⟩ => rfl
  | ⟨1, _⟩ => rfl
  | ⟨2, _⟩ => rfl
  | ⟨3, _⟩ => rfl
  | ⟨4, _⟩ => rfl

/-- The gathered array at `(b, ch, x, y, z)`: the probability of the channel word `ch` names, at the mirrored
    plane. -/
theorem gath_apply (x0 : Logits) (x9 : Words) (hp : ∀ e : Fin 32, (x9 (ix1 e)).toNat < 32)
    (b : Fin 2) (ch : Fin 32) (x y z : Fin 96) :
    Read.val_main_v112 (F := Ideal) x0 x9 (ix5 b ch x y z)
      = Read.val_main_v10 (F := Ideal) x0 (ix5 b (Spec.pidx (pw x9) ch) x.rev y z) := by
  unfold Read.val_main_v112 Host.gather
  rw [gather_idx, rev_apply, word_idx x9 ch (hp ch)]

/-- The entry of voxel `n` with its plane mirrored is the entry of the mirrored voxel. -/
theorem mirror_vox (b : Fin 2) (e : Fin 32) (n : Fin 884736) :
    ix5 b e (⟨n.val / 9216, by have := n.isLt; omega⟩ : Fin 96).rev
        (⟨n.val / 96 % 96, Nat.mod_lt _ (by decide)⟩ : Fin 96) (⟨n.val % 96, Nat.mod_lt _ (by decide)⟩ : Fin 96)
      = vox b e (Spec.mirror n) := by
  have hn : n.val < 884736 := n.isLt
  funext a; apply Fin.ext
  match a with
  | ⟨0, _⟩ => rfl
  | ⟨1, _⟩ => rfl
  | ⟨2, _⟩ => show 96 - (n.val / 9216 + 1) = ((95 - n.val / 9216) * 9216 + n.val % 9216) / 9216; omega
  | ⟨3, _⟩ => show n.val / 96 % 96 = ((95 - n.val / 9216) * 9216 + n.val % 9216) / 96 % 96; omega
  | ⟨4, _⟩ => show n.val % 96 = ((95 - n.val / 9216) * 9216 + n.val % 9216) % 96; omega

/-- The symmetry defect: the sum over everything of the absolute differences (the sum starts from the zero word,
    which is `0`). -/
theorem S_apply (x0 : Logits) (x9 : Words) (hp : ∀ e : Fin 32, (x9 (ix1 e)).toNat < 32) :
    Read.val_main_v115 (F := Ideal) x0 x9 ix0 = Spec.Ssum (L x0) (pw x9) := by
  rw [Read.val_main_v115_apply, Read.val_main_cst_28_apply]
  show Ideal.ofBits .f32 0x00000000#32 + _ = _
  rw [Ideal.ofBits_zero_f32, zero_add, sum_entries]
  unfold Spec.Ssum
  refine Finset.sum_congr rfl fun b _ => Finset.sum_congr rfl fun ch _ => Finset.sum_congr rfl fun n _ => ?_
  rw [Read.val_main_v114_apply, Read.val_main_v113_apply, gath_apply x0 x9 hp, mirror_vox, probs_vox, probs_vox]
  rfl

end Cert.ReferenceIdeal.RefValue

end
-- ==== Proof.Bridge.lean ====
/-
  The two idealized programs compute one number.

  The kernel's program sums its three region results over the two cores on the host; those sums are the channel
  adjacency, the channel volumes and the symmetry defect of the whole volume — the very quantities the reference
  computes with one contraction, one sum over the voxels and one sum over everything. From there on both programs
  apply the same operations to them (the age-weighted adjacency and its row normalisation against the prior, the
  smooth-L1 volume term, the scaled symmetry term, their weighted sum), so their results are equal.
-/
import proofs.«409875_j8435315769968_3_alg».proof.Proof.FrameRun
import proofs.«409875_j8435315769968_3_alg».proof.Proof.KTotals
import proofs.«409875_j8435315769968_3_alg».proof.Proof.KTotalsS
import proofs.«409875_j8435315769968_3_alg».proof.Proof.RefValueA
import proofs.«409875_j8435315769968_3_alg».proof.Proof.RefValueV
import proofs.«409875_j8435315769968_3_alg».proof.Proof.RefValueS

set_option maxRecDepth 16384

noncomputable section

namespace Cert.Proof.Bridge

open Idealize.ShloMosaic Idealize.ShloMosaic.TcCoe Idealize.SL.Sem Idealize.ShloMosaic.StableHlo

set_option maxHeartbeats 8000000 in

/-- The two programs' results agree once the region's three results, summed over the two cores, are the reference's
    adjacency matrix, volume vector and symmetry sum: everything after them is the same operations on both sides. -/
theorem result_eq_of (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (h0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (h1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (h2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (h3 : m' ((c : Thread Cert.ReferenceIdeal.nD Cert.ReferenceIdeal.τ).loc Cert.ReferenceIdeal.main_arg3) = m ((c : Thread Cert.KernelIdeal.nD Cert.KernelIdeal.τ).loc Cert.KernelIdeal.main_arg3))
    (h4 : m' ((c : Thread Cert.ReferenceIdeal.nD Cert.ReferenceIdeal.τ).loc Cert.ReferenceIdeal.main_arg4) = m ((c : Thread Cert.KernelIdeal.nD Cert.KernelIdeal.τ).loc Cert.KernelIdeal.main_arg4))
    (h5 : m' ((c : Thread Cert.ReferenceIdeal.nD Cert.ReferenceIdeal.τ).loc Cert.ReferenceIdeal.main_arg5) = m ((c : Thread Cert.KernelIdeal.nD Cert.KernelIdeal.τ).loc Cert.KernelIdeal.main_arg5))
    (h6 : m' ((c : Thread Cert.ReferenceIdeal.nD Cert.ReferenceIdeal.τ).loc Cert.ReferenceIdeal.main_arg6) = m ((c : Thread Cert.KernelIdeal.nD Cert.KernelIdeal.τ).loc Cert.KernelIdeal.main_arg6))
    (h7 : m' ((c : Thread Cert.ReferenceIdeal.nD Cert.ReferenceIdeal.τ).loc Cert.ReferenceIdeal.main_arg7) = m ((c : Thread Cert.KernelIdeal.nD Cert.KernelIdeal.τ).loc Cert.KernelIdeal.main_arg7))
    (h8 : m' ((c : Thread Cert.ReferenceIdeal.nD Cert.ReferenceIdeal.τ).loc Cert.ReferenceIdeal.main_arg8) = m ((c : Thread Cert.KernelIdeal.nD Cert.KernelIdeal.τ).loc Cert.KernelIdeal.main_arg8))
    (h9 : m' ((c : Thread Cert.ReferenceIdeal.nD Cert.ReferenceIdeal.τ).loc Cert.ReferenceIdeal.main_arg9) = m ((c : Thread Cert.KernelIdeal.nD Cert.KernelIdeal.τ).loc Cert.KernelIdeal.main_arg9))
    (hA : Host.reduceAdd (F := Ideal) ((Cert.KernelIdeal.Frame.dats m 0 c).arrAt 3 Cert.KernelIdeal.cfg0.N) (constant Cert.KernelIdeal.S_ .f32 0#32)
        Cert.KernelIdeal.Facts₀.reducesTo_S2x2x32x32_S2x32x32_d0 Cert.KernelIdeal.Facts₀.h_S_ = Cert.ReferenceIdeal.Read.val_main_v15 (F := Ideal) (m ((c : Thread Cert.KernelIdeal.nD Cert.KernelIdeal.τ).loc Cert.KernelIdeal.main_arg0)))
    (hV : Host.reduceAdd (F := Ideal) ((Cert.KernelIdeal.Frame.dats m 0 c).arrAt 4 Cert.KernelIdeal.cfg0.N) (constant Cert.KernelIdeal.S_ .f32 0#32)
        Cert.KernelIdeal.Facts₀.reducesTo_S2x2x32_S2x32_d0 Cert.KernelIdeal.Facts₀.h_S_ = Cert.ReferenceIdeal.Read.val_main_v67 (F := Ideal) (m ((c : Thread Cert.KernelIdeal.nD Cert.KernelIdeal.τ).loc Cert.KernelIdeal.main_arg0)))
    (hS : Host.reduceAdd (F := Ideal) ((Cert.KernelIdeal.Frame.dats m 0 c).arrAt 5 Cert.KernelIdeal.cfg0.N) (constant Cert.KernelIdeal.S_ .f32 0#32)
        Cert.KernelIdeal.Facts₀.reducesTo_S2x2x1_S_d0_1_2 Cert.KernelIdeal.Facts₀.h_S_ = Cert.ReferenceIdeal.Read.val_main_v115 (F := Ideal) (m ((c : Thread Cert.KernelIdeal.nD Cert.KernelIdeal.τ).loc Cert.KernelIdeal.main_arg0)) (m ((c : Thread Cert.KernelIdeal.nD Cert.KernelIdeal.τ).loc Cert.KernelIdeal.main_arg9))) :
    Cert.KernelIdeal.Frame.Wfin (F := Ideal) m c (Proc.devRef .tc Cert.KernelIdeal.main_v98) = Cert.ReferenceIdeal.Value.res_main_v121 (F := Ideal) m' c := by
  rw [Cert.ReferenceIdeal.Read.val_main_v121_eq, h0, h1, h2, h3, h4, h5, h6, h7, h8, h9]
  unfold Cert.KernelIdeal.Frame.Wfin
  simp only [Cert.KernelIdeal.Frame.tailOps, Cert.KernelIdeal.Gen.hostOps1, Cert.KernelIdeal.Gen.hostOps1_1, Cert.KernelIdeal.Gen.hostOps1_2, Cert.KernelIdeal.Gen.hostOps1_3, Cert.KernelIdeal.Gen.hostOps1_4,
    Cert.KernelIdeal.Gen.hostOps1_5, Cert.KernelIdeal.Gen.hostOps1_6, Cert.KernelIdeal.Gen.hostOps1_7, Cert.KernelIdeal.Gen.hostOps1_8,
    List.flatten_cons, List.flatten_nil, List.append_nil, List.cons_append, List.nil_append]
  after_results_simp
  rw [Cert.KernelIdeal.Frame.Wexit_v4_0, Cert.KernelIdeal.Frame.Wexit_v4_1, Cert.KernelIdeal.Frame.Wexit_v4_2, hA, hV, hS]
  simp only [Cert.KernelIdeal.Frame.Wexit_of_ne m c Cert.KernelIdeal.main_arg1 (by decide) (by decide) (by decide), Cert.KernelIdeal.Frame.V0_arg1 m c,
    Cert.KernelIdeal.Frame.Wexit_of_ne m c Cert.KernelIdeal.main_arg2 (by decide) (by decide) (by decide), Cert.KernelIdeal.Frame.V0_arg2 m c,
    Cert.KernelIdeal.Frame.Wexit_of_ne m c Cert.KernelIdeal.main_arg3 (by decide) (by decide) (by decide), Cert.KernelIdeal.Frame.V0_arg3 m c,
    Cert.KernelIdeal.Frame.Wexit_of_ne m c Cert.KernelIdeal.main_arg4 (by decide) (by decide) (by decide), Cert.KernelIdeal.Frame.V0_arg4 m c,
    Cert.KernelIdeal.Frame.Wexit_of_ne m c Cert.KernelIdeal.main_arg5 (by decide) (by decide) (by decide), Cert.KernelIdeal.Frame.V0_arg5 m c,
    Cert.KernelIdeal.Frame.Wexit_of_ne m c Cert.KernelIdeal.main_arg6 (by decide) (by decide) (by decide), Cert.KernelIdeal.Frame.V0_arg6 m c,
    Cert.KernelIdeal.Frame.Wexit_of_ne m c Cert.KernelIdeal.main_arg7 (by decide) (by decide) (by decide), Cert.KernelIdeal.Frame.V0_arg7 m c,
    Cert.KernelIdeal.Frame.Wexit_of_ne m c Cert.KernelIdeal.main_arg8 (by decide) (by decide) (by decide), Cert.KernelIdeal.Frame.V0_arg8 m c]
  simp only [Cert.ReferenceIdeal.Read.val_main_cst_2, Cert.ReferenceIdeal.Read.val_main_v11, Cert.ReferenceIdeal.Read.val_main_v12, Cert.ReferenceIdeal.Read.val_main_cst_3, Cert.ReferenceIdeal.Read.val_main_cst_4, Cert.ReferenceIdeal.Read.val_main_call0_v0, Cert.ReferenceIdeal.Read.val_main_call0_v1, Cert.ReferenceIdeal.Read.val_main_call0_v2, Cert.ReferenceIdeal.Read.val_main_call0_v3, Cert.ReferenceIdeal.Read.val_main_call0_v4, Cert.ReferenceIdeal.Read.val_main_v13, Cert.ReferenceIdeal.Read.val_main_v16, Cert.ReferenceIdeal.Read.val_main_v17, Cert.ReferenceIdeal.Read.val_main_c, Cert.ReferenceIdeal.Read.val_main_v18, Cert.ReferenceIdeal.Read.val_main_v19, Cert.ReferenceIdeal.Read.val_main_v20, Cert.ReferenceIdeal.Read.val_main_v21, Cert.ReferenceIdeal.Read.val_main_cst_5, Cert.ReferenceIdeal.Read.val_main_v22, Cert.ReferenceIdeal.Read.val_main_v23, Cert.ReferenceIdeal.Read.val_main_v24, Cert.ReferenceIdeal.Read.val_main_v25, Cert.ReferenceIdeal.Read.val_main_v26, Cert.ReferenceIdeal.Read.val_main_cst_6, Cert.ReferenceIdeal.Read.val_main_v27, Cert.ReferenceIdeal.Read.val_main_v28, Cert.ReferenceIdeal.Read.val_main_v29, Cert.ReferenceIdeal.Read.val_main_v30, Cert.ReferenceIdeal.Read.val_main_v31, Cert.ReferenceIdeal.Read.val_main_v32, Cert.ReferenceIdeal.Read.val_main_v33, Cert.ReferenceIdeal.Read.val_main_v34, Cert.ReferenceIdeal.Read.val_main_v35, Cert.ReferenceIdeal.Read.val_main_v36, Cert.ReferenceIdeal.Read.val_main_v37, Cert.ReferenceIdeal.Read.val_main_v38, Cert.ReferenceIdeal.Read.val_main_v39, Cert.ReferenceIdeal.Read.val_main_v40, Cert.ReferenceIdeal.Read.val_main_cst_7, Cert.ReferenceIdeal.Read.val_main_v41, Cert.ReferenceIdeal.Read.val_main_cst_8, Cert.ReferenceIdeal.Read.val_main_v42, Cert.ReferenceIdeal.Read.val_main_v43, Cert.ReferenceIdeal.Read.val_main_cst_9, Cert.ReferenceIdeal.Read.val_main_v44, Cert.ReferenceIdeal.Read.val_main_v45, Cert.ReferenceIdeal.Read.val_main_cst_10, Cert.ReferenceIdeal.Read.val_main_call1_v0, Cert.ReferenceIdeal.Read.val_main_call1_v1, Cert.ReferenceIdeal.Read.val_main_v46, Cert.ReferenceIdeal.Read.val_main_v47, Cert.ReferenceIdeal.Read.val_main_v48, Cert.ReferenceIdeal.Read.val_main_v49, Cert.ReferenceIdeal.Read.val_main_v50, Cert.ReferenceIdeal.Read.val_main_c_11, Cert.ReferenceIdeal.Read.val_main_v51, Cert.ReferenceIdeal.Read.val_main_v52, Cert.ReferenceIdeal.Read.val_main_v53, Cert.ReferenceIdeal.Read.val_main_v54, Cert.ReferenceIdeal.Read.val_main_cst_12, Cert.ReferenceIdeal.Read.val_main_v55, Cert.ReferenceIdeal.Read.val_main_v56, Cert.ReferenceIdeal.Read.val_main_v57, Cert.ReferenceIdeal.Read.val_main_cst_13, Cert.ReferenceIdeal.Read.val_main_v58, Cert.ReferenceIdeal.Read.val_main_v59, Cert.ReferenceIdeal.Read.val_main_cst_14, Cert.ReferenceIdeal.Read.val_main_call2_v0, Cert.ReferenceIdeal.Read.val_main_call2_v1, Cert.ReferenceIdeal.Read.val_main_v60, Cert.ReferenceIdeal.Read.val_main_v61, Cert.ReferenceIdeal.Read.val_main_v62, Cert.ReferenceIdeal.Read.val_main_v63, Cert.ReferenceIdeal.Read.val_main_v64, Cert.ReferenceIdeal.Read.val_main_cst_15, Cert.ReferenceIdeal.Read.val_main_v65, Cert.ReferenceIdeal.Read.val_main_cst_16, Cert.ReferenceIdeal.Read.val_main_v66, Cert.ReferenceIdeal.Read.val_main_cst_18, Cert.ReferenceIdeal.Read.val_main_v68, Cert.ReferenceIdeal.Read.val_main_v69, Cert.ReferenceIdeal.Read.val_main_v70, Cert.ReferenceIdeal.Read.val_main_v71, Cert.ReferenceIdeal.Read.val_main_v72, Cert.ReferenceIdeal.Read.val_main_v73, Cert.ReferenceIdeal.Read.val_main_v74, Cert.ReferenceIdeal.Read.val_main_v75, Cert.ReferenceIdeal.Read.val_main_v76, Cert.ReferenceIdeal.Read.val_main_v77, Cert.ReferenceIdeal.Read.val_main_v78, Cert.ReferenceIdeal.Read.val_main_cst_19, Cert.ReferenceIdeal.Read.val_main_v79, Cert.ReferenceIdeal.Read.val_main_v80, Cert.ReferenceIdeal.Read.val_main_v81, Cert.ReferenceIdeal.Read.val_main_v82, Cert.ReferenceIdeal.Read.val_main_v83, Cert.ReferenceIdeal.Read.val_main_v84, Cert.ReferenceIdeal.Read.val_main_v85, Cert.ReferenceIdeal.Read.val_main_v86, Cert.ReferenceIdeal.Read.val_main_v87, Cert.ReferenceIdeal.Read.val_main_v88, Cert.ReferenceIdeal.Read.val_main_v89, Cert.ReferenceIdeal.Read.val_main_v90, Cert.ReferenceIdeal.Read.val_main_cst_20, Cert.ReferenceIdeal.Read.val_main_v91, Cert.ReferenceIdeal.Read.val_main_v92, Cert.ReferenceIdeal.Read.val_main_v93, Cert.ReferenceIdeal.Read.val_main_v94, Cert.ReferenceIdeal.Read.val_main_cst_21, Cert.ReferenceIdeal.Read.val_main_v95, Cert.ReferenceIdeal.Read.val_main_v96, Cert.ReferenceIdeal.Read.val_main_cst_22, Cert.ReferenceIdeal.Read.val_main_v97, Cert.ReferenceIdeal.Read.val_main_v98, Cert.ReferenceIdeal.Read.val_main_v99, Cert.ReferenceIdeal.Read.val_main_cst_23, Cert.ReferenceIdeal.Read.val_main_v100, Cert.ReferenceIdeal.Read.val_main_v101, Cert.ReferenceIdeal.Read.val_main_v102, Cert.ReferenceIdeal.Read.val_main_cst_24, Cert.ReferenceIdeal.Read.val_main_v103, Cert.ReferenceIdeal.Read.val_main_cst_25, Cert.ReferenceIdeal.Read.val_main_v104, Cert.ReferenceIdeal.Read.val_main_cst_29, Cert.ReferenceIdeal.Read.val_main_v116, Cert.ReferenceIdeal.Read.val_main_cst_30, Cert.ReferenceIdeal.Read.val_main_v117, Cert.ReferenceIdeal.Read.val_main_cst_31, Cert.ReferenceIdeal.Read.val_main_v118, Cert.ReferenceIdeal.Read.val_main_v119, Cert.ReferenceIdeal.Read.val_main_cst_32, Cert.ReferenceIdeal.Read.val_main_v120, Cert.ReferenceIdeal.Read.val_main_v121]
  rfl

/-- The results agree, for channel words in range. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (h0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (h1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (h2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (h3 : m' ((c : Thread Cert.ReferenceIdeal.nD Cert.ReferenceIdeal.τ).loc Cert.ReferenceIdeal.main_arg3) = m ((c : Thread Cert.KernelIdeal.nD Cert.KernelIdeal.τ).loc Cert.KernelIdeal.main_arg3))
    (h4 : m' ((c : Thread Cert.ReferenceIdeal.nD Cert.ReferenceIdeal.τ).loc Cert.ReferenceIdeal.main_arg4) = m ((c : Thread Cert.KernelIdeal.nD Cert.KernelIdeal.τ).loc Cert.KernelIdeal.main_arg4))
    (h5 : m' ((c : Thread Cert.ReferenceIdeal.nD Cert.ReferenceIdeal.τ).loc Cert.ReferenceIdeal.main_arg5) = m ((c : Thread Cert.KernelIdeal.nD Cert.KernelIdeal.τ).loc Cert.KernelIdeal.main_arg5))
    (h6 : m' ((c : Thread Cert.ReferenceIdeal.nD Cert.ReferenceIdeal.τ).loc Cert.ReferenceIdeal.main_arg6) = m ((c : Thread Cert.KernelIdeal.nD Cert.KernelIdeal.τ).loc Cert.KernelIdeal.main_arg6))
    (h7 : m' ((c : Thread Cert.ReferenceIdeal.nD Cert.ReferenceIdeal.τ).loc Cert.ReferenceIdeal.main_arg7) = m ((c : Thread Cert.KernelIdeal.nD Cert.KernelIdeal.τ).loc Cert.KernelIdeal.main_arg7))
    (h8 : m' ((c : Thread Cert.ReferenceIdeal.nD Cert.ReferenceIdeal.τ).loc Cert.ReferenceIdeal.main_arg8) = m ((c : Thread Cert.KernelIdeal.nD Cert.KernelIdeal.τ).loc Cert.KernelIdeal.main_arg8))
    (h9 : m' ((c : Thread Cert.ReferenceIdeal.nD Cert.ReferenceIdeal.τ).loc Cert.ReferenceIdeal.main_arg9) = m ((c : Thread Cert.KernelIdeal.nD Cert.KernelIdeal.τ).loc Cert.KernelIdeal.main_arg9))
    (hp : ∀ e : Fin 32, ((m ((c : Thread Cert.KernelIdeal.nD Cert.KernelIdeal.τ).loc Cert.KernelIdeal.main_arg9)) (ValueIdx.ix1 e)).toNat < 32) :
    Cert.KernelIdeal.Frame.Wfin (F := Ideal) m c (Proc.devRef .tc Cert.KernelIdeal.main_v98) = Cert.ReferenceIdeal.Value.res_main_v121 (F := Ideal) m' c := by
  refine result_eq_of m m' c h0 h1 h2 h3 h4 h5 h6 h7 h8 h9 ?_ ?_ ?_
  · funext i
    obtain ⟨b, ch, d, rfl⟩ : ∃ (b : Fin 2) (ch d : Fin 32), i = ValueIdx.ix3 b ch d := ⟨i 0, i 1, i 2, ValueIdx.eq_ix3 i⟩
    rw [Cert.KernelIdeal.KValue.hostA_apply, Cert.ReferenceIdeal.RefValue.A_apply]
  · funext i
    obtain ⟨b, ch, rfl⟩ : ∃ (b : Fin 2) (ch : Fin 32), i = ValueIdx.ix2 b ch := ⟨i 0, i 1, ValueIdx.eq_ix2 i⟩
    rw [Cert.KernelIdeal.KValue.hostV_apply, Cert.ReferenceIdeal.RefValue.V_apply]
  · funext i
    obtain rfl : i = ValueIdx.ix0 := ValueIdx.eq_ix0 i
    rw [Cert.KernelIdeal.KValue.hostS_apply m c hp, Cert.ReferenceIdeal.RefValue.S_apply _ _ hp]

end Cert.Proof.Bridge

end
-- ==== Proof.PreRange.lean ====
/-
  The last conjunct of the precondition, read back. The precondition is a conjunction of ten tests, each a
  reduction by `and` over a whole array; its last test is, at every entry of the 32 channel words `perm`,
  `0 ≤ perm[e]` and `perm[e] < 32` as signed numbers. A conjunction that is 1 has every conjunct 1; a reduction by
  `and` that is 1 met a 1 at every entry; and a 32-bit word in [0, 32) as a signed number is below 32 as an
  unsigned one. The statement holds at any float instance: the float tests are not read.
-/
import proofs.«409875_j8435315769968_3_alg».proof.Pre_finite_inputs
import proofs.«409875_j8435315769968_3_alg».proof.Proof.Gen.Pre_finite_inputs
import Idealize.ShloMosaic.Lib.ReduceAll

noncomputable section

namespace Cert.Proof.PreRange

open Idealize.ShloMosaic Cert.Pre_finite_inputs

/-- The shape with no axes has exactly one index. -/
instance subsingleton_S_ : Subsingleton S_.Idx := ⟨fun a b => funext fun d => d.elim0⟩

/-- A 32-bit word that is at least 0 and below 32 read as a signed number is below 32 read as an unsigned one:
    a word with its top bit set reads negative, so the word's top bit is clear and both readings agree. -/
theorem toNat_lt_of_signed (w : BitVec 32) (h0 : IntOp.cmpi .sge w 0#32 = 1#1)
    (h1 : IntOp.cmpi .slt w 32#32 = 1#1) : w.toNat < 32 := by
  have g0 : (0#32 : BitVec 32).toInt ≤ w.toInt := IntOp.cmpi_sge.1 h0
  have g1 : w.toInt < (32#32 : BitVec 32).toInt := IntOp.cmpi_slt.1 h1
  have e0 : (0#32 : BitVec 32).toInt = 0 := by decide
  have e1 : (32#32 : BitVec 32).toInt = 32 := by decide
  rw [e0] at g0
  rw [e1] at g1
  have hc := BitVec.toInt_eq_toNat_cond w
  have hw := w.isLt
  rcases Nat.lt_or_ge (2 * w.toNat) (2 ^ 32) with hs | hs
  · rw [if_pos hs] at hc; omega
  · rw [if_neg (by omega)] at hc; omega

/-- THE LAST CONJUNCT DECODED: when the precondition's function of the ten argument arrays is 1, every one of
    the 32 channel words is below 32 (unsigned; hence also non-negative and below 32 signed). -/
theorem perm_range {F : FTy → Type} [FloatOps F] [Cert.Pre_finite_inputs.Facts]
    (x0 : FVec F S2x32x96x96x96 .f32) (x1 : FVec F S2x1 .f32) (x2 : FVec F S32x32 .f32) (x3 : FVec F S32x32 .f32)
    (x4 : FVec F S32 .f32) (x5 : FVec F S32 .f32) (x6 : FVec F S32 .f32) (x7 : FVec F S32 .f32)
    (x8 : FVec F S32x32 .f32) (x9 : IVec S32 32)
    (h : Cert.Pre_finite_inputs.fn (F := F) x0 x1 x2 x3 x4 x5 x6 x7 x8 x9 = (fun _ => 1#1)) :
    ∀ e, (x9 e).toNat < 32 := by
  intro e
  -- the one entry of the rank-0 result
  have h0 := congrFun h (fun a => a.elim0)
  dsimp only [fn, fn_part1, fn_part2] at h0
  -- the outermost conjunction: its right conjunct is the test on the channel words
  obtain ⟨-, hall⟩ := IntOp.andi_eq_one.1 h0
  -- a reduction by `and` that is 1 met a 1 at entry e
  have he := Host.reduce_andi_all _ _ _ _ _ hall e
  -- that entry is itself the conjunction of the two signed comparisons of the word at e
  obtain ⟨hge, hlt⟩ := IntOp.andi_eq_one.1 he
  exact toNat_lt_of_signed (x9 e) hge hlt

end Cert.Proof.PreRange

end
-- ==== Proof.lean ====
/-
  The certificate of the fused segmentation-loss kernel against its reference.

  The kernel reads every voxel's 32 channel logits once, as plane `i` and its mirror plane `95 - i` of the volume,
  turns them into probabilities, and accumulates over 2 cores × 24 steps the channel adjacency (second moments), the
  channel volumes and the left-right symmetry defect (each probability against the permuted channel's at the mirrored
  voxel, the permutation applied as a 0/1 matrix product); the host then forms the three loss terms. The reference
  computes the same three quantities over the whole volume at once, the permutation as a gather.

  The three frames: each program runs to its end without a fault and leaves its ten arguments unchanged — the two
  kernel programs by the pipeline's launch with the body run point by point, the reference by its run read back.
  Over the extended reals both results are one function of the arguments, when every channel word names a channel
  (`0 ≤ perm < 32`): the sums over planes, steps and cores re-index the sums over all voxels, a row of the 0/1
  matrix picks the permuted channel, and everything after the three quantities is the same operations.
-/
import proofs.«409875_j8435315769968_3_alg».proof.Defs
import proofs.«409875_j8435315769968_3_alg».proof.Proof.FrameRun
import proofs.«409875_j8435315769968_3_alg».proof.Proof.FrameRunBits
import proofs.«409875_j8435315769968_3_alg».proof.Proof.Bridge
import proofs.«409875_j8435315769968_3_alg».proof.Proof.PreRange
import proofs.«409875_j8435315769968_3_alg».proof.Proof.Gen.ReferenceIdeal.Run
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Frame.frame m ρ

/-- The idealized kernel program runs and keeps its arguments. -/
theorem frame_ki : Cert.frame_KernelIdeal := fun m ρ _ => Cert.KernelIdeal.Frame.frame m ρ

/-- The idealized reference runs and keeps its arguments: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs, from memories agreeing on the arguments, end with equal results. -/
theorem algebraic : Cert.algebraic_KernelIdeal_ReferenceIdeal := by
  intro m ρ m' ρ' hpre hagree
  refine ⟨fun c => Cert.KernelIdeal.Frame.Wfin (F := Ideal) m c (Proc.devRef .tc Cert.KernelIdeal.main_v98),
    Cert.KernelIdeal.Frame.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  have hp := Cert.Proof.PreRange.perm_range (F := Ideal) _ _ _ _ _ _ _ _ _ _ (hpre c)
  exact (Bridge.result_eq m m' c h0 h1 h2 h3 h4 h5 h6 h7 h8 h9 (fun e => hp (ValueIdx.ix1 e))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
